-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S64 .f32) (main_arg7 : FVec F S64x128 .f32) (main_arg8 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S4000x128 : Shape := ⟨2, ![4000, 128]⟩
abbrev S4000x64 : Shape := ⟨2, ![4000, 64]⟩
abbrev S3200000x64 : Shape := ⟨2, ![3200000, 64]⟩
abbrev S1x64 : Shape := ⟨2, ![1, 64]⟩
abbrev S4000x1 : Shape := ⟨2, ![4000, 1]⟩
abbrev S128x1 : Shape := ⟨2, ![128, 1]⟩
abbrev S1x128 : Shape := ⟨2, ![1, 128]⟩
abbrev S128x128 : Shape := ⟨2, ![128, 128]⟩

abbrev nBuf : Space → Nat
  | .hbm => 100
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S3200000, .f32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S3200000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x64, .bf16⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x64, .bf16⟩
  | .hbm, ⟨56, _⟩ => ⟨S3200000x64, .f32⟩
  | .hbm, ⟨57, _⟩ => ⟨S3200000x1, .f32⟩
  | .hbm, ⟨58, _⟩ => ⟨S3200000x64, .f32⟩
  | .hbm, ⟨59, _⟩ => ⟨S3200000x64, .f32⟩
  | .hbm, ⟨60, _⟩ => ⟨S_, .f32⟩
  | .hbm, ⟨61, _⟩ => ⟨S100000x64, .f32⟩
  | .hbm, ⟨62, _⟩ => ⟨S3200000x1, .i32⟩
  | .hbm, ⟨63, _⟩ => ⟨S100000x64, .f32⟩
  | .hbm, ⟨64, _⟩ => ⟨S1x64, .f32⟩
  | .hbm, ⟨65, _⟩ => ⟨S100000x64, .bf16⟩
  | .hbm, ⟨66, _⟩ => ⟨S_, .i32⟩
  | .hbm, ⟨67, _⟩ => ⟨S3200000, .i32⟩
  | .hbm, ⟨68, _⟩ => ⟨S3200000, .i1⟩
  | .hbm, ⟨69, _⟩ => ⟨S_, .i32⟩
  | .hbm, ⟨70, _⟩ => ⟨S3200000, .i32⟩
  | .hbm, ⟨71, _⟩ => ⟨S3200000, .i32⟩
  | .hbm, ⟨72, _⟩ => ⟨S3200000, .i32⟩
  | .hbm, ⟨73, _⟩ => ⟨S3200000x1, .i32⟩
  | .hbm, ⟨74, _⟩ => ⟨S3200000x64, .bf16⟩
  | .hbm, ⟨75, _⟩ => ⟨S3200000x64, .f32⟩
  | .hbm, ⟨76, _⟩ => ⟨S3200000x1, .f32⟩
  | .hbm, ⟨77, _⟩ => ⟨S3200000x64, .f32⟩
  | .hbm, ⟨78, _⟩ => ⟨S3200000x64, .f32⟩
  | .hbm, ⟨79, _⟩ => ⟨S_, .f32⟩
  | .hbm, ⟨80, _⟩ => ⟨S100000x64, .f32⟩
  | .hbm, ⟨81, _⟩ => ⟨S3200000x1, .i32⟩
  | .hbm, ⟨82, _⟩ => ⟨S100000x64, .f32⟩
  | .hbm, ⟨83, _⟩ => ⟨S1x64, .f32⟩
  | .hbm, ⟨84, _⟩ => ⟨S100000x1, .i32⟩
  | .hbm, ⟨85, _⟩ => ⟨S128x64, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S128, .f32⟩
  | .hbm, ⟨90, _⟩ => ⟨S100000x1, .i32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128x1, .f32⟩
  | .hbm, ⟨96, _⟩ => ⟨S128x64, .f32⟩
  | .hbm, ⟨97, _⟩ => ⟨S128x64, .f32⟩
  | .hbm, ⟨98, _⟩ => ⟨S1x128, .f32⟩
  | .hbm, ⟨99, _⟩ => ⟨S128x128, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .bf16⟩
  | .local _ .vmem, ⟨4, _⟩ => ⟨S4000x64, .bf16⟩
  | .local _ .vmem, ⟨5, _⟩ => ⟨S4000x64, .f32⟩
  | .local _ .vmem, ⟨6, _⟩ => ⟨S4000x64, .f32⟩
  | .local _ .vmem, ⟨7, _⟩ => ⟨S4000x64, .bf16⟩
  | .local _ .vmem, ⟨8, _⟩ => ⟨S4000x64, .bf16⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x64, .f32⟩
  | .local _ .vmem, ⟨13, _⟩ => ⟨S4000x64, .bf16⟩
  | .local _ .vmem, ⟨14, _⟩ => ⟨S4000x64, .bf16⟩
  | .local _ .vmem, ⟨15, _⟩ => ⟨S4000x64, .f32⟩
  | .local _ .vmem, ⟨16, _⟩ => ⟨S4000x64, .f32⟩
  | .local _ .vmem, ⟨17, _⟩ => ⟨S4000x64, .bf16⟩
  | .local _ .vmem, ⟨18, _⟩ => ⟨S4000x64, .bf16⟩
  | .local _ .vmem, ⟨19, _⟩ => ⟨S4000x1, .f32⟩
  | .local _ .vmem, ⟨20, _⟩ => ⟨S4000x1, .f32⟩
  | .local _ .vmem, ⟨21, _⟩ => ⟨S1x64, .f32⟩
  | .local _ .vmem, ⟨22, _⟩ => ⟨S4000x1, .i32⟩
  | .local _ .vmem, ⟨23, _⟩ => ⟨S4000x1, .i32⟩
  | .local _ .vmem, ⟨24, _⟩ => ⟨S128x64, .f32⟩
  | .local _ .vmem, ⟨25, _⟩ => ⟨S128x64, .f32⟩
  | .local _ .vmem, ⟨26, _⟩ => ⟨S128x64, .f32⟩
  | .local _ .vmem, ⟨27, _⟩ => ⟨S64x128, .f32⟩
  | .local _ .vmem, ⟨28, _⟩ => ⟨S1x128, .f32⟩
  | .local _ .vmem, ⟨29, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc3_sem0_0 : DmaSem sig := 25
abbrev cc3_sem1_0 : DmaSem sig := 26
abbrev cc3_sem2_0 : DmaSem sig := 27
abbrev cc3_sem3_0 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v34 : BitVec 1 := Scalar.cmpi .eq arg0 c24_i32
  let v35 : BitVec 32 := Scalar.extui v34
  let c0_i32_15 : BitVec 32 := 0#32
  let v36 : BitVec 1 := Scalar.cmpi .ne v35 c0_i32_15
  v36

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4000x1_S4000x64 : S4000x1.Broadcasts S4000x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S128x64_S128x64 : S128x64.ShapeCasts S128x64
  iota_S4000x128_d1_w32 : S4000x128.Iotas .tc 32 [1]
  broadcasts_S4000x1_S4000x128 : S4000x1.Broadcasts S4000x128
  natLt_1_32 : 1 < 32
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S4000x128_S128x64_S4000x64_1_0_0_1_n_n_wf : DotDims.WF S4000x128 S128x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x64_S4000x64_1_0_0_1_n_n_wf : DotDims.WF S4000x64 S64x64 S4000x64 [1] [0] [0] [1] [] []
  dot_S4000x128_S4000x64_S128x64_0_0_1_1_n_n_wf : DotDims.WF S4000x128 S4000x64 S128x64 [0] [0] [1] [1] [] []
  scatter_S128_S100000x1_S100000_n_0_0_1_wf : ScatterDims.WF S128 S100000x1 S100000 [] [0] [0] 1
  dot_S128x64_S64x128_S128x128_1_0_0_1_n_n_wf : DotDims.WF S128x64 S64x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .bf16 = 32 ∨ (Rect.block (s := S100000x64) S4000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .bf16 = 32 ∨ (Rect.block (s := S100000x64) S4000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .bf16 = 32 ∨ (Rect.block (s := S100000x64) S4000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S100000x1.size a
  hwx2_4 : ∀ i : grid2.Coords, EltTy.bits .i32 = 32 ∨ (Rect.block (s := S100000x1) S4000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x64.size a ≤ S128x64.size a
  hwx3_0 : ∀ i : grid3.Coords, EltTy.bits .f32 = 32 ∨ (Rect.block (s := S128x64) S128x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x128_S4000x64_S128x64_0_0_1_1_n_n : DotDims S4000x128 S4000x64 S128x64 where
  lhsContracting := [0]
  rhsContracting := [0]
  lhsNonContracting := [1]
  rhsNonContracting := [1]
  lhsBatch := []
  rhsBatch := []
  wf := dot_S4000x128_S4000x64_S128x64_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v62) S128x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v71) S128x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S128x128.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S128x1 : Shape := ⟨2, ![128, 1]⟩
abbrev S128x128 : Shape := ⟨2, ![128, 128]⟩
abbrev S1x128 : Shape := ⟨2, ![1, 128]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x128, .f32⟩
  | 8 => ⟨S128, .f32⟩
  | 9 => ⟨S1x3200000, .i32⟩
  | 10 => ⟨S3200000, .i32⟩
  | 11 => ⟨S1x3200000, .i32⟩
  | 12 => ⟨S3200000, .i32⟩
  | 13 => ⟨S100000x64, .f32⟩
  | 14 => ⟨S_, .f32⟩
  | 15 => ⟨S3200000, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x64, .f32⟩
  | 52 => ⟨S3200000x1, .f32⟩
  | 53 => ⟨S3200000x64, .f32⟩
  | 54 => ⟨S3200000x64, .f32⟩
  | 55 => ⟨S_, .f32⟩
  | 56 => ⟨S100000x64, .f32⟩
  | 57 => ⟨S3200000x1, .i32⟩
  | 58 => ⟨S100000x64, .f32⟩
  | 59 => ⟨S_, .f32⟩
  | 60 => ⟨S100000, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .f32⟩
  | 74 => ⟨S3200000, .f32⟩
  | 75 => ⟨S_, .f32⟩
  | 76 => ⟨S100000, .f32⟩
  | 77 => ⟨S3200000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000, .f32⟩
  | 101 => ⟨S3200000, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000x64, .f32⟩
  | 111 => ⟨S3200000x1, .f32⟩
  | 112 => ⟨S3200000x64, .f32⟩
  | 113 => ⟨S3200000x64, .f32⟩
  | 114 => ⟨S_, .f32⟩
  | 115 => ⟨S100000x64, .f32⟩
  | 116 => ⟨S3200000x1, .i32⟩
  | 117 => ⟨S100000x64, .f32⟩
  | 118 => ⟨S_, .f32⟩
  | 119 => ⟨S100000, .f32⟩
  | 120 => ⟨S100000, .f32⟩
  | 121 => ⟨S100000x1, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S100000x64, .f32⟩
  | 2 => ⟨S100000x64, .f32⟩
  | 3 => ⟨S_, .f32⟩
  | 4 => ⟨S128x64, .f32⟩
  | 5 => ⟨S100000x1, .i32⟩
  | 6 => ⟨S128x64, .f32⟩
  | 7 => ⟨S_, .f32⟩
  | 8 => ⟨S100000, .f32⟩
  | 9 => ⟨S_, .f32⟩
  | 10 => ⟨S128, .f32⟩
  | 11 => ⟨S100000x1, .i32⟩
  | 12 => ⟨S128, .f32⟩
  | 13 => ⟨S_, .f32⟩
  | 14 => ⟨S128, .f32⟩
  | 15 => ⟨S128, .f32⟩
  | 16 => ⟨S128x1, .f32⟩
  | 17 => ⟨S128x64, .f32⟩
  | 18 => ⟨S128x64, .f32⟩
  | 19 => ⟨S128x128, .f32⟩
  | 20 => ⟨S1x128, .f32⟩
  | 21 => ⟨S128x128, .f32⟩
  | 22 => ⟨S128x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_19 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call1_cst : Ref sig .tc := ⟨.hbm, 128, rfl⟩
abbrev main_call1_v0 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_cst_22 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_23 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x128_S128x128_1_0_0_1_n_n_wf : DotDims.WF S128x64 S64x128 S128x128 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

class Facts : Prop extends Facts₀ where

variable [Facts]
-- ==== Proof.K.Reg0.lean ====
/-
  The first kernel region (the row-tiled product x · W₁), at the buffer contents `V` the region is entered from.
  Grid point t works on rows 4000·t … 4000·t + 3999: it reads that row block of x and the whole of W₁ and writes the
  matching row block of the product, so each output block is one pure function of the two input blocks.
  Stated here: the blocks, what the body leaves in the output window's buffer, the body's triple, the pipeline's
  proof data and the body obligation at every grid point.
-/
import proofs.«411392_j53214644797442_2_alg».proof.Proof.Gen.Kernel.Launch
import proofs.«411392_j53214644797442_2_alg».proof.Proof.Gen.Kernel.Skeleton
import proofs.«411392_j53214644797442_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W₁ is fetched once; its block index never moves, so the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_0 : Rect S4000x128 := Rect.unit (s := S4000x128) ![0, 0] S4000x128.size inb_S4000x128_S4000x128_0_0
abbrev r0_1 : Rect S128x64 := Rect.unit (s := S128x64) ![0, 0] S128x64.size inb_S128x64_S128x64_0_0
abbrev r0_2 : Rect S4000x64 := Rect.unit (s := S4000x64) ![0, 0] S4000x64.size inb_S4000x64_S4000x64_0_0

/-- The output buffer after the body: its one store, of the product of the two loaded blocks. -/
def out0_2 (x0 : Vec F S4000x128 .f32) (x1 : Vec F S128x64 .f32) : Vec F S4000x64 .bf16 :=
  View.canon [⟨r0_2, k0_pay1 (View.ld x0 r0_0) (View.ld x1 r0_1)⟩]

theorem cover0_2 (p0 : Vec F S4000x64 .bf16) (y : S4000x64.Idx) :
    ∃ pc ∈ ([⟨r0_2, p0⟩] : List (View.Piece (Elt F) S4000x64 .bf16)), y ∈ pc.1.set :=
  View.cover_of_tiled [⟨r0_2, p0⟩] S4000x64.size (by rfl) y

/-! ## The body's triple -/

set_option maxHeartbeats 1000000 in
/-- On whole buffers, the inputs at `x0`, `x1` and the output at anything, the body runs to the continuation with
    the inputs as they were and the output at `out0_2 x0 x1`. -/
theorem sound_kernel0 (c : Dev nD) (E : Set ℕ) (i : grid0.Coords) (arg1 : Memref sig .tc .vmem S4000x128 .f32) (harg1 : arg1.IsWhole)
    (arg2 : Memref sig .tc .vmem S128x64 .f32) (harg2 : arg2.IsWhole) (arg3 : Memref sig .tc .vmem S4000x64 .bf16) (harg3 : arg3.IsWhole)
    (x0 : Vec F S4000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` the inputs' buffers at their blocks and the
    output's at the product of those blocks; nothing owed; full shares; the invariant only carries what the body never
    touches. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second kernel region: for the row block 4000·t … 4000·t + 3999 it forms max(agg + xw · invdeg + b, 0) from the
  matching row blocks of the aggregated messages, of the first layer's product and of the inverse degrees, and the
  bias row, and multiplies the result by the whole of W₂; the output row block is one pure function of those five
  blocks. Stated at the buffer contents `V` the region is entered from: the blocks, what the body leaves in the
  output window's buffer, the body's triple, the pipeline's proof data and the body obligation.
-/
import proofs.«411392_j53214644797442_2_alg».proof.Proof.Gen.Kernel.Launch
import proofs.«411392_j53214644797442_2_alg».proof.Proof.Gen.Kernel.Skeleton
import proofs.«411392_j53214644797442_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the aggregated messages is in its buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The row block of the first layer's product is in its buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row block of the inverse degrees is in its buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias row is fetched once; its block index never moves. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- W₂ is fetched once; its block index never moves. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_a : Rect S4000x64 := Rect.unit (s := S4000x64) ![0, 0] S4000x64.size inb_S4000x64_S4000x64_0_0
abbrev r1_d : Rect S4000x1 := Rect.unit (s := S4000x1) ![0, 0] S4000x1.size inb_S4000x1_S4000x1_0_0
abbrev r1_b : Rect S1x64 := Rect.unit (s := S1x64) ![0, 0] S1x64.size inb_S1x64_S1x64_0_0
abbrev r1_w : Rect S64x64 := Rect.unit (s := S64x64) ![0, 0] S64x64.size inb_S64x64_S64x64_0_0

/-- The output buffer after the body: its one store. -/
def out1_5 (x0 : Vec F S4000x64 .f32) (x1 : Vec F S4000x64 .bf16) (x2 : Vec F S4000x1 .f32) (x3 : Vec F S1x64 .f32) (x4 : Vec F S64x64 .f32) : Vec F S4000x64 .bf16 :=
  View.canon [⟨r1_a, k1_pay1 (View.ld x0 r1_a) (View.ld x1 r1_a) (View.ld x2 r1_d) (View.ld x3 r1_b) (View.ld x4 r1_w)⟩]

theorem cover1_5 (p0 : Vec F S4000x64 .bf16) (y : S4000x64.Idx) :
    ∃ pc ∈ ([⟨r1_a, p0⟩] : List (View.Piece (Elt F) S4000x64 .bf16)), y ∈ pc.1.set :=
  View.cover_of_tiled [⟨r1_a, p0⟩] S4000x64.size (by rfl) y

/-! ## The body's triple -/

set_option maxHeartbeats 2000000 in
/-- On whole buffers, the inputs at `x0 … x4` and the output at anything, the body runs to the continuation with the
    inputs as they were and the output at `out1_5` of them. -/
theorem sound_kernel1 (c : Dev nD) (E : Set ℕ) (i : grid1.Coords) (arg1 : Memref sig .tc .vmem S4000x64 .f32) (harg1 : arg1.IsWhole)
    (arg2 : Memref sig .tc .vmem S4000x64 .bf16) (harg2 : arg2.IsWhole) (arg3 : Memref sig .tc .vmem S4000x1 .f32) (harg3 : arg3.IsWhole)
    (arg4 : Memref sig .tc .vmem S1x64 .f32) (harg4 : arg4.IsWhole) (arg5 : Memref sig .tc .vmem S64x64 .f32) (harg5 : arg5.IsWhole)
    (arg6 : Memref sig .tc .vmem S4000x64 .bf16) (harg6 : arg6.IsWhole)
    (x0 : Vec F S4000x64 .f32) (x1 : Vec F S4000x64 .bf16) (x2 : Vec F S4000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_relu_project_kernel i arg1 harg1 arg2 harg2 arg3 harg3 arg4 harg4 arg5 harg5 arg6 harg6) K := by
  simp only [cc1__combine_relu_project_kernel_eq_skeleton]; unfold cc1__combine_relu_project_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The arrays as the region finds them; after the body at point `t` the inputs' buffers at their blocks and the
    output's at `out1_5` of those blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Runs.lean ====
import proofs.«411392_j53214644797442_2_alg».proof.Proof.Gen.Kernel.Launch
import proofs.«411392_j53214644797442_2_alg».proof.Proof.Gen.Kernel.Skeleton
import proofs.«411392_j53214644797442_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the zero fill of the accumulator), from the grid coordinate. -/
abbrev cond2_0 (i : grid2.Coords) : Prop := (Scalar.cmpi .ne (Scalar.extui (Scalar.cmpi .eq (BitVec.ofNat 32 (i 0).val) 0#32)) 0#32) = 1#1
/-- It holds at the first point only: decided over the grid. -/
theorem hcond2_0 : ∀ t : Fin cfg2.N, cond2_0 (grid2.coords t) ↔ t.val % 25 = 0 :=
  (by decide +kernel : ∀ t : Fin grid2.N, cond2_0 (grid2.coords t) ↔ t.val % 25 = 0)
/-- The condition of the body's second `scf.if` (the copy of the accumulator into the output's buffer). -/
abbrev cond2_1 (i : grid2.Coords) : Prop := k2_cond2 i = 1#1
/-- It holds at the last point only: decided over the grid. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## The body's triple, case by case

Every load and every store of the body is of a whole buffer, through the rectangle at zero offsets of the buffer's own
sizes: a load reads the contents, a store made last leaves its payload. -/

/-- The zero offsets of every access of the body, however spelt. -/
theorem hz2 : (![0, 0] : Fin 2 → ℕ) = fun _ => 0 := by funext a; fin_cases a <;> rfl

/-- A store of the whole accumulator-shaped buffer, made last, covers it. -/
theorem cover2 (inb : ∀ a, (![0, 0] : Fin 2 → ℕ) a + S128x64.size a ≤ S128x64.size a) (w : S128x64.Idx → Elt F .f32)
    (L : List (View.Piece (Elt F) S128x64 .f32)) (y : S128x64.Idx) :
    ∃ p ∈ ((⟨Rect.unit (s := S128x64) ![0, 0] S128x64.size inb, w⟩ : View.Piece (Elt F) S128x64 .f32) :: L), y ∈ p.1.set :=
  ⟨_, List.mem_cons_self, View.mem_set_unit_zero hz2 inb y⟩

set_option maxHeartbeats 1000000 in
/-- The body at the FIRST point (the reset taken, the copy to the output not): on whole memrefs, the inputs' at read
    contents, the output's at contents handed back untouched, the accumulator at anything, it runs to the continuation
    holding the accumulator at the update of the zero fill by the point's blocks. -/
theorem sound_kernel2_A (c : Dev nD) (E : Set ℕ) (i : grid2.Coords)
    (arg1 : Memref sig .tc .vmem S4000x64 .f32) (harg1 : arg1.IsWhole) (arg2 : Memref sig .tc .vmem S4000x64 .bf16) (harg2 : arg2.IsWhole)
    (arg3 : Memref sig .tc .vmem S4000x1 .f32) (harg3 : arg3.IsWhole) (arg4 : Memref sig .tc .vmem S1x64 .f32) (harg4 : arg4.IsWhole)
    (arg5 : Memref sig .tc .vmem S4000x1 .i32) (harg5 : arg5.IsWhole) (arg6 : Memref sig .tc .vmem S128x64 .f32) (harg6 : arg6.IsWhole)
    (arg7 : Memref sig .tc .vmem S128x64 .f32) (harg7 : arg7.IsWhole) (hc0 : cond2_0 i) (hc1 : ¬cond2_1 i)
    (x0 : Vec F S4000x64 .f32) (x1 : Vec F S4000x64 .bf16) (x2 : Vec F S4000x1 .f32) (x3 : Vec F S1x64 .f32) (x4 : Vec F S4000x1 .i32)
    (xi5 : Vec F S128x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (k2_pay2 x0 x1 x2 x3 x4 (k2_pay1 (F := F)))) -∗ K ⟨⟩))
      ⊢ wp frame (wpE (defs₀ (F := F)) Variants.none c none) E (cc2__combine_relu_pool_kernel i arg1 harg1 arg2 harg2 arg3 harg3 arg4 harg4 arg5 harg5 arg6 harg6 arg7 harg7) K := by
  simp only [cc2__combine_relu_pool_kernel_eq_skeleton]; unfold cc2__combine_relu_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_words
  rw [View.read_writes_eq_canon _ _ _ (cover2 _ _ _)]
  rw [View.canon_cons_unit_zero (S := S128x64) hz2]
  simp only [View.readAt_eq_ld, Memref.IsWhole.read_unread, View.ld_unit_zero (S := S4000x64) hz2, View.ld_unit_zero (S := S4000x1) hz2, View.ld_unit_zero (S := S1x64) hz2, View.ld_unit_zero (S := S128x64) hz2, View.readCov_unit_zero (S := S128x64) _ hz2]

set_option maxHeartbeats 1000000 in
/-- The body at a MIDDLE point (neither the reset nor the copy taken): the accumulator, handed at the contents the
    point before left, comes back at its update by the point's blocks; the output's memref is handed back untouched. -/
theorem sound_kernel2_B (c : Dev nD) (E : Set ℕ) (i : grid2.Coords)
    (arg1 : Memref sig .tc .vmem S4000x64 .f32) (harg1 : arg1.IsWhole) (arg2 : Memref sig .tc .vmem S4000x64 .bf16) (harg2 : arg2.IsWhole)
    (arg3 : Memref sig .tc .vmem S4000x1 .f32) (harg3 : arg3.IsWhole) (arg4 : Memref sig .tc .vmem S1x64 .f32) (harg4 : arg4.IsWhole)
    (arg5 : Memref sig .tc .vmem S4000x1 .i32) (harg5 : arg5.IsWhole) (arg6 : Memref sig .tc .vmem S128x64 .f32) (harg6 : arg6.IsWhole)
    (arg7 : Memref sig .tc .vmem S128x64 .f32) (harg7 : arg7.IsWhole) (hc0 : ¬cond2_0 i) (hc1 : ¬cond2_1 i)
    (x0 : Vec F S4000x64 .f32) (x1 : Vec F S4000x64 .bf16) (x2 : Vec F S4000x1 .f32) (x3 : Vec F S1x64 .f32) (x4 : Vec F S4000x1 .i32)
    (xi5 : Vec F S128x64 .f32) (xs0 : Vec F S128x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs0
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (k2_pay2 x0 x1 x2 x3 x4 xs0)) -∗ K ⟨⟩))
      ⊢ wp frame (wpE (defs₀ (F := F)) Variants.none c none) E (cc2__combine_relu_pool_kernel i arg1 harg1 arg2 harg2 arg3 harg3 arg4 harg4 arg5 harg5 arg6 harg6 arg7 harg7) K := by
  simp only [cc2__combine_relu_pool_kernel_eq_skeleton]; unfold cc2__combine_relu_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_words
  rw [View.read_writes_eq_canon _ _ _ (cover2 _ _ _)]
  rw [View.canon_unit_zero (S := S128x64) hz2]
  simp only [View.readAt_eq_ld, Memref.IsWhole.read_unread, View.ld_unit_zero (S := S4000x64) hz2, View.ld_unit_zero (S := S4000x1) hz2, View.ld_unit_zero (S := S1x64) hz2, View.ld_unit_zero (S := S128x64) hz2, View.readCov_unit_zero (S := S128x64) _ hz2]

set_option maxHeartbeats 1000000 in
/-- The body at the LAST point (the reset not taken, the copy taken): the accumulator comes back at its update by
    the point's blocks, and the output's memref, handed at anything, holds the same. -/
theorem sound_kernel2_C (c : Dev nD) (E : Set ℕ) (i : grid2.Coords)
    (arg1 : Memref sig .tc .vmem S4000x64 .f32) (harg1 : arg1.IsWhole) (arg2 : Memref sig .tc .vmem S4000x64 .bf16) (harg2 : arg2.IsWhole)
    (arg3 : Memref sig .tc .vmem S4000x1 .f32) (harg3 : arg3.IsWhole) (arg4 : Memref sig .tc .vmem S1x64 .f32) (harg4 : arg4.IsWhole)
    (arg5 : Memref sig .tc .vmem S4000x1 .i32) (harg5 : arg5.IsWhole) (arg6 : Memref sig .tc .vmem S128x64 .f32) (harg6 : arg6.IsWhole)
    (arg7 : Memref sig .tc .vmem S128x64 .f32) (harg7 : arg7.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S4000x1 .i32)
    (xs0 : Vec F S128x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs0
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (k2_pay2 x0 x1 x2 x3 x4 xs0)
            ∗ owns (c : Thread nD τ) arg7 fullShare (k2_pay2 x0 x1 x2 x3 x4 xs0)) -∗ K ⟨⟩))
      ⊢ wp frame (wpE (defs₀ (F := F)) Variants.none c none) E (cc2__combine_relu_pool_kernel i arg1 harg1 arg2 harg2 arg3 harg3 arg4 harg4 arg5 harg5 arg6 harg6 arg7 harg7) K := by
  simp only [cc2__combine_relu_pool_kernel_eq_skeleton]; unfold cc2__combine_relu_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    rw [View.read_writes_eq_canon _ _ _ (cover2 _ _ _)]
    rw [View.canon_unit_zero (S := S128x64) hz2]
    simp only [View.readAt_eq_ld, Memref.IsWhole.read_unread, View.ld_unit_zero (S := S4000x64) hz2, View.ld_unit_zero (S := S4000x1) hz2, View.ld_unit_zero (S := S1x64) hz2, View.ld_unit_zero (S := S128x64) hz2, View.readCov_unit_zero (S := S128x64) _ hz2]
  iexists _; isplitr
  swap; · iexact HS0
  ipureintro
  sl_unfold_words
  rw [View.read_writes_eq_canon _ _ _ (cover2 _ _ _)]
  rw [View.canon_unit_zero (S := S128x64) hz2]
  simp only [View.readAt_eq_ld, Memref.IsWhole.read_unread, View.ld_unit_zero (S := S4000x64) hz2, View.ld_unit_zero (S := S4000x1) hz2, View.ld_unit_zero (S := S1x64) hz2, View.ld_unit_zero (S := S128x64) hz2, View.readCov_unit_zero (S := S128x64) _ hz2]

end Cert.Kernel.Hand

end
-- ==== Proof.K.Reg2.lean ====
import proofs.«411392_j53214644797442_2_alg».proof.Proof.K.Reg2Runs
import proofs.«411392_j53214644797442_2_alg».proof.Proof.Gen.Kernel.Launch
import proofs.«411392_j53214644797442_2_alg».proof.Proof.Gen.Kernel.Skeleton
import proofs.«411392_j53214644797442_2_alg».proof.Proof.Gen.Kernel.Points
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 of @main: the pooling kernel's pipeline, at the contents `V` the region is entered with

The kernel keeps a running sum in a scratch buffer across its 25 grid points: zeroed at the first point, updated at every
point by that point's blocks, copied into the output's buffer at the last point, the only one that writes the output back.
This module states what the accumulator holds after each point (`acc2`), the region invariant that carries it from point
to point (`PhiS2`), the pipeline's proof data (`dat2`) and the body obligation. -/

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: an unfetched
    window's block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Away from the last point the output window is idle (the body stores nothing into it) and is not written back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- At the last point it is live. -/
theorem liveAt2_5 : ∀ t : Fin cfg2.N, cond2_1 (grid2.coords t) → cfg2.idle 5 (grid2.coords t) = false := by decide +kernel

/-! ## The accumulator -/

/-- The scratch operand: a whole scoped buffer of the kernel's own, passed beside the windows. -/
abbrev scM2_0 : Memref sig .tc .vmem S128x64 .f32 := Memref.whole cc2_scratch0

/-- The core's scoped buffers that are no staging buffer of this call, split at the call's own accumulator: it whole at
    some contents, the remainder (the other calls' staging buffers) unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop((∃ f : Buf Val ((c : Thread nD τ).loc cc2_scratch0), ((c : Thread nD τ).loc cc2_scratch0) ↦{fullShare} f)
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The remainder of the core's scoped buffers, carried unopened through the region. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the accumulator as a memref owned at some contents. -/
theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA; rw [scopedRest2_split]; simp only [scM2_0, owns_whole]; try rfl

/-! ## What the accumulator holds after each point -/

/-- THE ACCUMULATION. What the accumulator holds after the body at position `n`: at the first point the update of the
    zero fill by that point's blocks, afterwards the update of what the point before left by this point's blocks. -/
def acc2 (c : Dev nD) : (n : ℕ) → n < cfg2.N → Vec F S128x64 .f32
  | 0, hn => k2_pay2 (iblk2 V c 0 ⟨0, hn⟩) (iblk2 V c 1 ⟨0, hn⟩) (iblk2 V c 2 ⟨0, hn⟩) (iblk2 V c 3 ⟨0, hn⟩) (iblk2 V c 4 ⟨0, hn⟩) (k2_pay1 (F := F))
  | n + 1, hn => k2_pay2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 c n (Nat.lt_of_succ_lt hn))

theorem acc2_zero (c : Dev nD) (hn : 0 < cfg2.N) :
    acc2 V c 0 hn = k2_pay2 (iblk2 V c 0 ⟨0, hn⟩) (iblk2 V c 1 ⟨0, hn⟩) (iblk2 V c 2 ⟨0, hn⟩) (iblk2 V c 3 ⟨0, hn⟩) (iblk2 V c 4 ⟨0, hn⟩) (k2_pay1 (F := F)) := rfl

theorem acc2_succ (c : Dev nD) (n : ℕ) (hn : n + 1 < cfg2.N) :
    acc2 V c (n + 1) hn = k2_pay2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 V c n (Nat.lt_of_succ_lt hn)) := rfl

/-- `acc2` at the first point, stated at the point. -/
theorem acc2_first (c : Dev nD) (t : Fin cfg2.N) (h0 : t.val = 0) :
    acc2 V c t.val t.isLt = k2_pay2 (iblk2 V c 0 t) (iblk2 V c 1 t) (iblk2 V c 2 t) (iblk2 V c 3 t) (iblk2 V c 4 t) (k2_pay1 (F := F)) := by
  obtain ⟨n, hn⟩ := t
  cases n with
  | zero => rfl
  | succ n => exact absurd h0 (Nat.succ_ne_zero n)

/-- `acc2` at a later point, stated at the point: over what the point before left. -/
theorem acc2_later (c : Dev nD) (t : Fin cfg2.N) (h0 : t.val ≠ 0) :
    acc2 V c t.val t.isLt = k2_pay2 (iblk2 V c 0 t) (iblk2 V c 1 t) (iblk2 V c 2 t) (iblk2 V c 3 t) (iblk2 V c 4 t) (acc2 V c (t.val - 1) (Nat.lt_of_le_of_lt (Nat.sub_le _ _) t.isLt)) := by
  obtain ⟨n, hn⟩ := t
  cases n with
  | zero => exact absurd rfl h0
  | succ n => rfl

/-! ## The region invariant -/

/-- The invariant before position `n`: before the first point the class's (every scoped buffer that is no staging
    buffer at anything, the generator register at some state); afterwards the same with the accumulator at what the
    point before left in it. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (acc2 V c n hn) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (acc2 V c (n - 1) (by omega)) ∗ rest2 (F := F) c) ∗ (∃ r, prngReg c r)) := by
  cases n with
  | zero => exact absurd rfl hz
  | succ n => rfl

/-! ## The pipeline's proof data -/

/-- The proof data of the region on core `c`: the arrays as the region finds them; after the body at point `t` each
    input's buffer at its block and the output's at the accumulator's contents there (consulted at the last point
    only: elsewhere the window is idle and not written back); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = acc2 V c t.val t.isLt := by dsimp only [dat2]

/-- What the output window's buffer holds after the last point's body: the whole accumulation. -/
theorem after2_5_last (c : Dev nD) (t : Fin cfg2.N) (ht : t.val = 24) :
    (dat2 V c).after 5 t = acc2 V c 24 (by rw [show cfg2.N = 25 from N_2]; decide) := by
  rw [after2_5]
  obtain ⟨n, hn⟩ := t
  dsimp only at ht
  subst ht
  rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- Each window's current staging memref at point `t`, spelled as the pipeline passes it, and its wholeness. -/
abbrev ms2_0 (t : Fin cfg2.N) : Memref sig .tc .vmem S4000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4000x1 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x64 .f32 := win2_5.stage (cfg2.slots t 5)
abbrev hs2_5 (t : Fin cfg2.N) : (ms2_5 t).IsWhole := hstage2_5 ((cfg2.slots t 5).cast nbuf2_5)

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) : (dat2 V c).leavesExact 4 t = owns (c : Thread nD τ) (ms2_4 t) fullShare (iblk2 V c 4 t) := by
  unfold Dat.leavesExact; rw [liveAt2_4 t, after2_4]

set_option maxHeartbeats 4800000 in
/-- The body at any point: the inputs' memrefs hold their blocks; the point's position says which case it is in; the
    invariant hands the body the accumulator at what the point before left (at anything at the first point) and takes it
    back at this point's contents; the rest of the scoped buffers, the generator register and the core's `owes` pass
    through unread; away from the last point the output's buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 25 := lt_of_lt_of_eq t.isLt (show cfg2.N = 25 from N_2)
  by_cases h0 : t.val % 25 = 0
  · have h1 : ¬t.val % 25 = 24 := by omega
    have hz : t.val = 0 := by omega
    rw [Dat.leavesExact_idle (dat2 V c) 5 t (idleAt2_5 t (fun h => h1 ((hcond2_1 t).mp h))) (noFlush2_5 t (fun h => h1 ((hcond2_1 t).mp h)))]
    rw [acc2_first V c t hz]
    rw [PhiS2_castSucc V c t, PhiS2_zero V c _ _ hz, PhiA2_eq]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply (sound_kernel2_A c Set.univ (grid2.coords t) _ _ _ _ _ _ _ _ _ _ _ _ _ _ ((hcond2_0 t).mpr h0) (fun h => h1 ((hcond2_1 t).mp h))
      (iblk2 V c 0 t) (iblk2 V c 1 t) (iblk2 V c 2 t) (iblk2 V c 3 t) (iblk2 V c 4 t) ((dat2 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    rw [acc2_later V c t hz]
    rw [PhiS2_castSucc V c t, PhiS2_pos V c _ _ hz]
    by_cases h1 : t.val % 25 = 24
    · rw [show (dat2 V c).leavesExact 5 t = owns (c : Thread nD τ) (ms2_5 t) fullShare ((dat2 V c).after 5 t) from by
        unfold Dat.leavesExact; rw [liveAt2_5 t ((hcond2_1 t).mpr h1)], after2_5, acc2_later V c t hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply (sound_kernel2_C c Set.univ (grid2.coords t) _ _ _ _ _ _ _ _ _ _ _ _ _ _ (fun h => h0 ((hcond2_0 t).mp h)) ((hcond2_1 t).mpr h1)
        (iblk2 V c 0 t) (iblk2 V c 1 t) (iblk2 V c 2 t) (iblk2 V c 3 t) (iblk2 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat2 V c) 5 t (idleAt2_5 t (fun h => h1 ((hcond2_1 t).mp h))) (noFlush2_5 t (fun h => h1 ((hcond2_1 t).mp h)))]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply (sound_kernel2_B c Set.univ (grid2.coords t) _ _ _ _ _ _ _ _ _ _ _ _ _ _ (fun h => h0 ((hcond2_0 t).mp h)) (fun h => h1 ((hcond2_1 t).mp h))
        (iblk2 V c 0 t) (iblk2 V c 1 t) (iblk2 V c 2 t) (iblk2 V c 3 t) (iblk2 V c 4 t) ((dat2 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]; · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Cert.Kernel.Hand

end
-- ==== Proof.K.Reg3.lean ====
/-
  The last kernel region: one grid point, every window the whole of its array. It multiplies the pooled means by
  the whole of W_l and adds the bias row, so the output array is one pure function of the three input arrays.
  Stated at the buffer contents `V` the region is entered from: the blocks, what the body leaves in the output
  window's buffer, the body's triple, the pipeline's proof data and the body obligation.
-/
import proofs.«411392_j53214644797442_2_alg».proof.Proof.Gen.Kernel.Launch
import proofs.«411392_j53214644797442_2_alg».proof.Proof.Gen.Kernel.Skeleton
import proofs.«411392_j53214644797442_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled means are in their buffer at the point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- W_l is in its buffer at the point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row is in its buffer at the point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole buffer -/

abbrev r3_g : Rect S128x64 := Rect.unit (s := S128x64) ![0, 0] S128x64.size inb_S128x64_S128x64_0_0
abbrev r3_w : Rect S64x128 := Rect.unit (s := S64x128) ![0, 0] S64x128.size inb_S64x128_S64x128_0_0
abbrev r3_b : Rect S1x128 := Rect.unit (s := S1x128) ![0, 0] S1x128.size inb_S1x128_S1x128_0_0
abbrev r3_o : Rect S128x128 := Rect.unit (s := S128x128) ![0, 0] S128x128.size inb_S128x128_S128x128_0_0

/-- The output buffer after the body: its one store. -/
def out3_3 (x0 : Vec F S128x64 .f32) (x1 : Vec F S64x128 .f32) (x2 : Vec F S1x128 .f32) : Vec F S128x128 .f32 :=
  View.canon [⟨r3_o, k3_pay1 (View.ld x0 r3_g) (View.ld x1 r3_w) (View.ld x2 r3_b)⟩]

theorem cover3_3 (p0 : Vec F S128x128 .f32) (y : S128x128.Idx) :
    ∃ pc ∈ ([⟨r3_o, p0⟩] : List (View.Piece (Elt F) S128x128 .f32)), y ∈ pc.1.set :=
  View.cover_of_tiled [⟨r3_o, p0⟩] S128x128.size (by rfl) y

/-! ## The body's triple -/

set_option maxHeartbeats 1000000 in
/-- On whole buffers, the inputs at `x0`, `x1`, `x2` and the output at anything, the body runs to the continuation
    with the inputs as they were and the output at `out3_3` of them. -/
theorem sound_kernel3 (c : Dev nD) (E : Set ℕ) (i : grid3.Coords) (arg1 : Memref sig .tc .vmem S128x64 .f32) (harg1 : arg1.IsWhole)
    (arg2 : Memref sig .tc .vmem S64x128 .f32) (harg2 : arg2.IsWhole) (arg3 : Memref sig .tc .vmem S1x128 .f32) (harg3 : arg3.IsWhole)
    (arg4 : Memref sig .tc .vmem S128x128 .f32) (harg4 : arg4.IsWhole)
    (x0 : Vec F S128x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__final_linear_kernel i arg1 harg1 arg2 harg2 arg3 harg3 arg4 harg4) K := by
  simp only [cc3__final_linear_kernel_eq_skeleton]; unfold cc3__final_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The arrays as the region finds them; after the body the inputs' buffers at their blocks and the output's at
    `out3_3` of those blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The whole run of @main, for any float instance: four stretches of host operations alternating with the four kernel
  regions. The buffer contents at each boundary are a fold from the launch memory: a host stretch applies its
  operations; a region leaves its input arrays as they were and each output array at the fold of its write-backs.
  Every weakly fair execution terminates without a fault, and every final state has every unscoped buffer at the last
  boundary's contents `W8`; no stretch and no region writes an argument, so the arguments end as launched.
-/
import proofs.«411392_j53214644797442_2_alg».proof.Proof.K.Reg0
import proofs.«411392_j53214644797442_2_alg».proof.Proof.K.Reg1
import proofs.«411392_j53214644797442_2_alg».proof.Proof.K.Reg2
import proofs.«411392_j53214644797442_2_alg».proof.Proof.K.Reg3
import proofs.«411392_j53214644797442_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (Vin0 m ρ) c).arrAt_in w hw _).trans (A_eq0 (Vin0 m ρ) c w))
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After the next stretch of host operations (region 1's entry). -/
abbrev W3 : Dev nD → Valuation τ sig (Elt F) := fun c => StableHlo.after hostOps1 (W2 m ρ c)
abbrev Vin1 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (Vin1 m ρ) c).arrAt w cfg1.N
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (Vin1 m ρ) c).arrAt_in w hw _).trans (A_eq1 (Vin1 m ρ) c w))
abbrev Vout1 : (c : Dev nD) → (b : Ref sig .tc) → Buf (Elt F) ((c : Thread nD τ).loc b) := fun c b => W4 m ρ c b
theorem hF1 (c : Dev nD) (w : Fin cfg1.W) : (dat1 (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)

/-- After the next stretch of host operations (region 2's entry). -/
abbrev W5 : Dev nD → Valuation τ sig (Elt F) := fun c => StableHlo.after hostOps2 (W4 m ρ c)
abbrev Vin2 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (Vin2 m ρ) c).arrAt w cfg2.N
theorem W6_arr (c : Dev nD) (w : Fin cfg2.W) :
    W6 m ρ c (Proc.devRef .tc (Pipeline.arrRef spec2 w)) = (dat2 (Vin2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (Vin2 m ρ) c).arrAt_in w hw _).trans (A_eq2 (Vin2 m ρ) c w))
abbrev Vout2 : (c : Dev nD) → (b : Ref sig .tc) → Buf (Elt F) ((c : Thread nD τ).loc b) := fun c b => W6 m ρ c b
theorem hF2 (c : Dev nD) (w : Fin cfg2.W) : (dat2 (Vin2 m ρ) c).arrAt w cfg2.N = Vout2 m ρ c (Pipeline.arrRef spec2 w) :=
  (W6_arr m ρ c w).symm
theorem hrest2 (c : Dev nD) : ∀ b, b ∉ Finset.univ.image (Pipeline.arrRef spec2) → Vout2 m ρ c b = Vin2 m ρ c b :=
  fun b hb => W6_of_ne m ρ c b fun w e => hb (Finset.mem_image.mpr ⟨w, Finset.mem_univ _, e⟩)

/-- After the next stretch of host operations (region 3's entry). -/
abbrev W7 : Dev nD → Valuation τ sig (Elt F) := fun c => StableHlo.after hostOps3 (W6 m ρ c)
abbrev Vin3 : (c : Dev nD) → (b : Ref sig .tc) → Buf (Elt F) ((c : Thread nD τ).loc b) := fun c b => W7 m ρ c b

/-- At region 3's exit: its arrays at what the pipeline leaves, every other buffer as entered. -/
def W8 (c : Dev nD) : Valuation τ sig (Elt F) :=
  Pipeline.withArrays spec3 c (W7 m ρ c) fun w => (dat3 (Vin3 m ρ) c).arrAt w cfg3.N
theorem W8_arr (c : Dev nD) (w : Fin cfg3.W) :
    W8 m ρ c (Proc.devRef .tc (Pipeline.arrRef spec3 w)) = (dat3 (Vin3 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves the region as it entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (Vin3 m ρ) c).arrAt_in w hw _).trans (A_eq3 (Vin3 m ρ) c w))
abbrev Vout3 : (c : Dev nD) → (b : Ref sig .tc) → Buf (Elt F) ((c : Thread nD τ).loc b) := fun c b => W8 m ρ c b
theorem hF3 (c : Dev nD) (w : Fin cfg3.W) : (dat3 (Vin3 m ρ) c).arrAt w cfg3.N = Vout3 m ρ c (Pipeline.arrRef spec3 w) :=
  (W8_arr m ρ c w).symm
theorem hrest3 (c : Dev nD) : ∀ b, b ∉ Finset.univ.image (Pipeline.arrRef spec3) → Vout3 m ρ c b = Vin3 m ρ c b :=
  fun b hb => W8_of_ne m ρ c b fun w e => hb (Finset.mem_image.mpr ⟨w, Finset.mem_univ _, e⟩)

/-! ## The proof data family and the thread state -/

abbrev adm4 : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm4 p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered with every unscoped buffer at `W1`, left with them at `W2`. Its
    arrays are split out of the unscoped buffers and put back at the exit contents; the generator register goes into
    the region's invariant and comes back; nothing is owed; the kernel has no semaphore of its own. -/
def reg0 : Pipeline.RegionSeg (pcfgs (F := F)) adm4 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm4 (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm4 (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at the exit contents; the generator register goes into
    the region's invariant and comes back; nothing is owed; the kernel has no semaphore of its own. -/
def reg1 : Pipeline.RegionSeg (pcfgs (F := F)) adm4 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm4 (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm4 (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers and put back at the exit contents; the generator register goes into
    the region's invariant and comes back; nothing is owed; the kernel has no semaphore of its own. -/
def reg2 : Pipeline.RegionSeg (pcfgs (F := F)) adm4 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm4 (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m ρ 2 c).Φ 0 from hin2 (Vin2 m ρ) c); unfold Pipeline.ΦA
    iintro ⟨Hp, -, Hr⟩
    isplitl [Hr]; · iexact Hr
    iexact Hp
  hout c := by
    rw [Pipeline.ownSems0_none]; refine (show (pdats m ρ 2 c).Φ (Fin.last _) ⊢ Pipeline.ΦA spec2 c from hout2 (Vin2 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm4 (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left with them at `W8`. Its
    arrays are split out of the unscoped buffers and put back at the exit contents; the generator register goes into
    the region's invariant and comes back; nothing is owed; the kernel has no semaphore of its own. -/
def reg3 : Pipeline.RegionSeg (pcfgs (F := F)) adm4 (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm4 (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm4 (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs4 : List (Pipeline.Seg (pcfgs (F := F)) adm4 (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs4 m ρ) := (main_chain c).trans (by chain_rfl)

set_option backward.isDefEq.respectTransparency.types false in
/-- THE RUN: from any memory with zero counters every weakly fair execution of @main terminates, nothing faulting, and
    every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm4 (pdats m ρ) () cellOf_inj emb₁ defs₀ 𝒱₀ L lv m ρ main (segs4 m ρ)
    (fun c Q => by rw [main_run m ρ c])
    (by simp only [segs4, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.K.Keep.lean ====
/-
  What no item touches. A stretch of host operations leaves every buffer it does not write as it was; a region leaves
  its input arrays and every buffer that is none of its arrays as they were. No stretch writes an argument and no
  region has an argument as an output, so each argument's buffer reaches the end holding its launch contents: the
  frame. For any float instance.
-/
import proofs.«411392_j53214644797442_2_alg».proof.Proof.K.Run

set_option maxRecDepth 16384

noncomputable section

namespace Cert.Kernel.Hand

open Idealize.ShloMosaic Idealize.ShloMosaic.TcCoe Idealize.ShloMosaic.Tactic
open Idealize.SL Idealize.SL.Sem
open Idealize.ShloMosaic.Pipeline (Dat Cfg Window)
open Cert.Kernel Cert.Kernel.Gen

variable {F : FTy → Type} [FloatOps F]
variable (m : (ℓ : Loc nD τ sig) → Buf (Elt F) ℓ) (ρ : Dev nD → PrngReg)

/-- A buffer the first stretch does not write. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- A buffer the second stretch does not write. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- A buffer the third stretch does not write. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- A buffer the fourth stretch does not write. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h

/-! ## The arguments end as launched -/

theorem W8_arg0 (c : Dev nD) : W8 m ρ c (Proc.devRef .tc main_arg0) = m ((c.tc : Thread nD τ).loc main_arg0) :=
  (W8_of_ne m ρ c main_arg0 (by decide)).trans <| (W7_keep m ρ c main_arg0 (by decide)).trans <| (W6_of_ne m ρ c main_arg0 (by decide)).trans <|
    (W5_keep m ρ c main_arg0 (by decide)).trans <| (W4_of_ne m ρ c main_arg0 (by decide)).trans <| (W3_keep m ρ c main_arg0 (by decide)).trans <|
    (W2_in m ρ c 0 rfl).trans <| (W1_keep m ρ c main_arg0 (by decide)).trans rfl
theorem W8_arg1 (c : Dev nD) : W8 m ρ c (Proc.devRef .tc main_arg1) = m ((c.tc : Thread nD τ).loc main_arg1) :=
  (W8_of_ne m ρ c main_arg1 (by decide)).trans <| (W7_keep m ρ c main_arg1 (by decide)).trans <| (W6_of_ne m ρ c main_arg1 (by decide)).trans <|
    (W5_keep m ρ c main_arg1 (by decide)).trans <| (W4_of_ne m ρ c main_arg1 (by decide)).trans <| (W3_keep m ρ c main_arg1 (by decide)).trans <|
    (W2_of_ne m ρ c main_arg1 (by decide)).trans <| (W1_keep m ρ c main_arg1 (by decide)).trans rfl
theorem W8_arg2 (c : Dev nD) : W8 m ρ c (Proc.devRef .tc main_arg2) = m ((c.tc : Thread nD τ).loc main_arg2) :=
  (W8_of_ne m ρ c main_arg2 (by decide)).trans <| (W7_keep m ρ c main_arg2 (by decide)).trans <| (W6_of_ne m ρ c main_arg2 (by decide)).trans <|
    (W5_keep m ρ c main_arg2 (by decide)).trans <| (W4_of_ne m ρ c main_arg2 (by decide)).trans <| (W3_keep m ρ c main_arg2 (by decide)).trans <|
    (W2_of_ne m ρ c main_arg2 (by decide)).trans <| (W1_keep m ρ c main_arg2 (by decide)).trans rfl
theorem W8_arg3 (c : Dev nD) : W8 m ρ c (Proc.devRef .tc main_arg3) = m ((c.tc : Thread nD τ).loc main_arg3) :=
  (W8_of_ne m ρ c main_arg3 (by decide)).trans <| (W7_keep m ρ c main_arg3 (by decide)).trans <| (W6_of_ne m ρ c main_arg3 (by decide)).trans <|
    (W5_keep m ρ c main_arg3 (by decide)).trans <| (W4_of_ne m ρ c main_arg3 (by decide)).trans <| (W3_keep m ρ c main_arg3 (by decide)).trans <|
    (W2_in m ρ c 1 rfl).trans <| (W1_keep m ρ c main_arg3 (by decide)).trans rfl
theorem W8_arg4 (c : Dev nD) : W8 m ρ c (Proc.devRef .tc main_arg4) = m ((c.tc : Thread nD τ).loc main_arg4) :=
  (W8_of_ne m ρ c main_arg4 (by decide)).trans <| (W7_keep m ρ c main_arg4 (by decide)).trans <| (W6_of_ne m ρ c main_arg4 (by decide)).trans <|
    (W5_keep m ρ c main_arg4 (by decide)).trans <| (W4_of_ne m ρ c main_arg4 (by decide)).trans <| (W3_keep m ρ c main_arg4 (by decide)).trans <|
    (W2_of_ne m ρ c main_arg4 (by decide)).trans <| (W1_keep m ρ c main_arg4 (by decide)).trans rfl
theorem W8_arg5 (c : Dev nD) : W8 m ρ c (Proc.devRef .tc main_arg5) = m ((c.tc : Thread nD τ).loc main_arg5) :=
  (W8_of_ne m ρ c main_arg5 (by decide)).trans <| (W7_keep m ρ c main_arg5 (by decide)).trans <| (W6_of_ne m ρ c main_arg5 (by decide)).trans <|
    (W5_keep m ρ c main_arg5 (by decide)).trans <| (W4_in m ρ c 4 rfl).trans <| (W3_keep m ρ c main_arg5 (by decide)).trans <|
    (W2_of_ne m ρ c main_arg5 (by decide)).trans <| (W1_keep m ρ c main_arg5 (by decide)).trans rfl
theorem W8_arg6 (c : Dev nD) : W8 m ρ c (Proc.devRef .tc main_arg6) = m ((c.tc : Thread nD τ).loc main_arg6) :=
  (W8_of_ne m ρ c main_arg6 (by decide)).trans <| (W7_keep m ρ c main_arg6 (by decide)).trans <| (W6_of_ne m ρ c main_arg6 (by decide)).trans <|
    (W5_keep m ρ c main_arg6 (by decide)).trans <| (W4_of_ne m ρ c main_arg6 (by decide)).trans <| (W3_keep m ρ c main_arg6 (by decide)).trans <|
    (W2_of_ne m ρ c main_arg6 (by decide)).trans <| (W1_keep m ρ c main_arg6 (by decide)).trans rfl
theorem W8_arg7 (c : Dev nD) : W8 m ρ c (Proc.devRef .tc main_arg7) = m ((c.tc : Thread nD τ).loc main_arg7) :=
  (W8_in m ρ c 1 rfl).trans <| (W7_keep m ρ c main_arg7 (by decide)).trans <| (W6_of_ne m ρ c main_arg7 (by decide)).trans <|
    (W5_keep m ρ c main_arg7 (by decide)).trans <| (W4_of_ne m ρ c main_arg7 (by decide)).trans <| (W3_keep m ρ c main_arg7 (by decide)).trans <|
    (W2_of_ne m ρ c main_arg7 (by decide)).trans <| (W1_keep m ρ c main_arg7 (by decide)).trans rfl
theorem W8_arg8 (c : Dev nD) : W8 m ρ c (Proc.devRef .tc main_arg8) = m ((c.tc : Thread nD τ).loc main_arg8) :=
  (W8_of_ne m ρ c main_arg8 (by decide)).trans <| (W7_keep m ρ c main_arg8 (by decide)).trans <| (W6_of_ne m ρ c main_arg8 (by decide)).trans <|
    (W5_keep m ρ c main_arg8 (by decide)).trans <| (W4_of_ne m ρ c main_arg8 (by decide)).trans <| (W3_keep m ρ c main_arg8 (by decide)).trans <|
    (W2_of_ne m ρ c main_arg8 (by decide)).trans <| (W1_keep m ρ c main_arg8 (by decide)).trans rfl

/-- THE FRAME: every weakly fair execution of @main terminates, nothing faulting, with every argument array as
    launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_arg0 m ρ c),
     (h c _ (mem_uc main_arg1 (by decide))).trans (W8_arg1 m ρ c),
     (h c _ (mem_uc main_arg2 (by decide))).trans (W8_arg2 m ρ c),
     (h c _ (mem_uc main_arg3 (by decide))).trans (W8_arg3 m ρ c),
     (h c _ (mem_uc main_arg4 (by decide))).trans (W8_arg4 m ρ c),
     (h c _ (mem_uc main_arg5 (by decide))).trans (W8_arg5 m ρ c),
     (h c _ (mem_uc main_arg6 (by decide))).trans (W8_arg6 m ρ c),
     (h c _ (mem_uc main_arg7 (by decide))).trans (W8_arg7 m ρ c),
     (h c _ (mem_uc main_arg8 (by decide))).trans (W8_arg8 m ρ c)⟩) (run_all m ρ)

end Cert.Kernel.Hand

end
-- ==== Proof.KI.Reg0.lean ====
/-
  The first kernel region (the row-tiled product x · W₁), at the buffer contents `V` the region is entered from.
  Grid point t works on rows 4000·t … 4000·t + 3999: it reads that row block of x and the whole of W₁ and writes the
  matching row block of the product, so each output block is one pure function of the two input blocks.
  Stated here: the blocks, what the body leaves in the output window's buffer, the body's triple, the pipeline's
  proof data and the body obligation at every grid point.
-/
import proofs.«411392_j53214644797442_2_alg».proof.Proof.Gen.KernelIdeal.Launch
import proofs.«411392_j53214644797442_2_alg».proof.Proof.Gen.KernelIdeal.Skeleton
import proofs.«411392_j53214644797442_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W₁ is fetched once; its block index never moves, so the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_0 : Rect S4000x128 := Rect.unit (s := S4000x128) ![0, 0] S4000x128.size inb_S4000x128_S4000x128_0_0
abbrev r0_1 : Rect S128x64 := Rect.unit (s := S128x64) ![0, 0] S128x64.size inb_S128x64_S128x64_0_0
abbrev r0_2 : Rect S4000x64 := Rect.unit (s := S4000x64) ![0, 0] S4000x64.size inb_S4000x64_S4000x64_0_0

/-- The output buffer after the body: its one store, of the product of the two loaded blocks. -/
def out0_2 (x0 : Vec F S4000x128 .f32) (x1 : Vec F S128x64 .f32) : Vec F S4000x64 .bf16 :=
  View.canon [⟨r0_2, k0_pay1 (View.ld x0 r0_0) (View.ld x1 r0_1)⟩]

theorem cover0_2 (p0 : Vec F S4000x64 .bf16) (y : S4000x64.Idx) :
    ∃ pc ∈ ([⟨r0_2, p0⟩] : List (View.Piece (Elt F) S4000x64 .bf16)), y ∈ pc.1.set :=
  View.cover_of_tiled [⟨r0_2, p0⟩] S4000x64.size (by rfl) y

/-! ## The body's triple -/

set_option maxHeartbeats 1000000 in
/-- On whole buffers, the inputs at `x0`, `x1` and the output at anything, the body runs to the continuation with
    the inputs as they were and the output at `out0_2 x0 x1`. -/
theorem sound_kernel0 (c : Dev nD) (E : Set ℕ) (i : grid0.Coords) (arg1 : Memref sig .tc .vmem S4000x128 .f32) (harg1 : arg1.IsWhole)
    (arg2 : Memref sig .tc .vmem S128x64 .f32) (harg2 : arg2.IsWhole) (arg3 : Memref sig .tc .vmem S4000x64 .bf16) (harg3 : arg3.IsWhole)
    (x0 : Vec F S4000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` the inputs' buffers at their blocks and the
    output's at the product of those blocks; nothing owed; full shares; the invariant only carries what the body never
    touches. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second kernel region: for the row block 4000·t … 4000·t + 3999 it forms max(agg + xw · invdeg + b, 0) from the
  matching row blocks of the aggregated messages, of the first layer's product and of the inverse degrees, and the
  bias row, and multiplies the result by the whole of W₂; the output row block is one pure function of those five
  blocks. Stated at the buffer contents `V` the region is entered from: the blocks, what the body leaves in the
  output window's buffer, the body's triple, the pipeline's proof data and the body obligation.
-/
import proofs.«411392_j53214644797442_2_alg».proof.Proof.Gen.KernelIdeal.Launch
import proofs.«411392_j53214644797442_2_alg».proof.Proof.Gen.KernelIdeal.Skeleton
import proofs.«411392_j53214644797442_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the aggregated messages is in its buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The row block of the first layer's product is in its buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row block of the inverse degrees is in its buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias row is fetched once; its block index never moves. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- W₂ is fetched once; its block index never moves. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_a : Rect S4000x64 := Rect.unit (s := S4000x64) ![0, 0] S4000x64.size inb_S4000x64_S4000x64_0_0
abbrev r1_d : Rect S4000x1 := Rect.unit (s := S4000x1) ![0, 0] S4000x1.size inb_S4000x1_S4000x1_0_0
abbrev r1_b : Rect S1x64 := Rect.unit (s := S1x64) ![0, 0] S1x64.size inb_S1x64_S1x64_0_0
abbrev r1_w : Rect S64x64 := Rect.unit (s := S64x64) ![0, 0] S64x64.size inb_S64x64_S64x64_0_0

/-- The output buffer after the body: its one store. -/
def out1_5 (x0 : Vec F S4000x64 .f32) (x1 : Vec F S4000x64 .bf16) (x2 : Vec F S4000x1 .f32) (x3 : Vec F S1x64 .f32) (x4 : Vec F S64x64 .f32) : Vec F S4000x64 .bf16 :=
  View.canon [⟨r1_a, k1_pay1 (View.ld x0 r1_a) (View.ld x1 r1_a) (View.ld x2 r1_d) (View.ld x3 r1_b) (View.ld x4 r1_w)⟩]

theorem cover1_5 (p0 : Vec F S4000x64 .bf16) (y : S4000x64.Idx) :
    ∃ pc ∈ ([⟨r1_a, p0⟩] : List (View.Piece (Elt F) S4000x64 .bf16)), y ∈ pc.1.set :=
  View.cover_of_tiled [⟨r1_a, p0⟩] S4000x64.size (by rfl) y

/-! ## The body's triple -/

set_option maxHeartbeats 2000000 in
/-- On whole buffers, the inputs at `x0 … x4` and the output at anything, the body runs to the continuation with the
    inputs as they were and the output at `out1_5` of them. -/
theorem sound_kernel1 (c : Dev nD) (E : Set ℕ) (i : grid1.Coords) (arg1 : Memref sig .tc .vmem S4000x64 .f32) (harg1 : arg1.IsWhole)
    (arg2 : Memref sig .tc .vmem S4000x64 .bf16) (harg2 : arg2.IsWhole) (arg3 : Memref sig .tc .vmem S4000x1 .f32) (harg3 : arg3.IsWhole)
    (arg4 : Memref sig .tc .vmem S1x64 .f32) (harg4 : arg4.IsWhole) (arg5 : Memref sig .tc .vmem S64x64 .f32) (harg5 : arg5.IsWhole)
    (arg6 : Memref sig .tc .vmem S4000x64 .bf16) (harg6 : arg6.IsWhole)
    (x0 : Vec F S4000x64 .f32) (x1 : Vec F S4000x64 .bf16) (x2 : Vec F S4000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_relu_project_kernel i arg1 harg1 arg2 harg2 arg3 harg3 arg4 harg4 arg5 harg5 arg6 harg6) K := by
  simp only [cc1__combine_relu_project_kernel_eq_skeleton]; unfold cc1__combine_relu_project_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The arrays as the region finds them; after the body at point `t` the inputs' buffers at their blocks and the
    output's at `out1_5` of those blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Runs.lean ====
import proofs.«411392_j53214644797442_2_alg».proof.Proof.Gen.KernelIdeal.Launch
import proofs.«411392_j53214644797442_2_alg».proof.Proof.Gen.KernelIdeal.Skeleton
import proofs.«411392_j53214644797442_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the zero fill of the accumulator), from the grid coordinate. -/
abbrev cond2_0 (i : grid2.Coords) : Prop := (Scalar.cmpi .ne (Scalar.extui (Scalar.cmpi .eq (BitVec.ofNat 32 (i 0).val) 0#32)) 0#32) = 1#1
/-- It holds at the first point only: decided over the grid. -/
theorem hcond2_0 : ∀ t : Fin cfg2.N, cond2_0 (grid2.coords t) ↔ t.val % 25 = 0 :=
  (by decide +kernel : ∀ t : Fin grid2.N, cond2_0 (grid2.coords t) ↔ t.val % 25 = 0)
/-- The condition of the body's second `scf.if` (the copy of the accumulator into the output's buffer). -/
abbrev cond2_1 (i : grid2.Coords) : Prop := k2_cond2 i = 1#1
/-- It holds at the last point only: decided over the grid. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## The body's triple, case by case

Every load and every store of the body is of a whole buffer, through the rectangle at zero offsets of the buffer's own
sizes: a load reads the contents, a store made last leaves its payload. -/

/-- The zero offsets of every access of the body, however spelt. -/
theorem hz2 : (![0, 0] : Fin 2 → ℕ) = fun _ => 0 := by funext a; fin_cases a <;> rfl

/-- A store of the whole accumulator-shaped buffer, made last, covers it. -/
theorem cover2 (inb : ∀ a, (![0, 0] : Fin 2 → ℕ) a + S128x64.size a ≤ S128x64.size a) (w : S128x64.Idx → Elt F .f32)
    (L : List (View.Piece (Elt F) S128x64 .f32)) (y : S128x64.Idx) :
    ∃ p ∈ ((⟨Rect.unit (s := S128x64) ![0, 0] S128x64.size inb, w⟩ : View.Piece (Elt F) S128x64 .f32) :: L), y ∈ p.1.set :=
  ⟨_, List.mem_cons_self, View.mem_set_unit_zero hz2 inb y⟩

set_option maxHeartbeats 1000000 in
/-- The body at the FIRST point (the reset taken, the copy to the output not): on whole memrefs, the inputs' at read
    contents, the output's at contents handed back untouched, the accumulator at anything, it runs to the continuation
    holding the accumulator at the update of the zero fill by the point's blocks. -/
theorem sound_kernel2_A (c : Dev nD) (E : Set ℕ) (i : grid2.Coords)
    (arg1 : Memref sig .tc .vmem S4000x64 .f32) (harg1 : arg1.IsWhole) (arg2 : Memref sig .tc .vmem S4000x64 .bf16) (harg2 : arg2.IsWhole)
    (arg3 : Memref sig .tc .vmem S4000x1 .f32) (harg3 : arg3.IsWhole) (arg4 : Memref sig .tc .vmem S1x64 .f32) (harg4 : arg4.IsWhole)
    (arg5 : Memref sig .tc .vmem S4000x1 .i32) (harg5 : arg5.IsWhole) (arg6 : Memref sig .tc .vmem S128x64 .f32) (harg6 : arg6.IsWhole)
    (arg7 : Memref sig .tc .vmem S128x64 .f32) (harg7 : arg7.IsWhole) (hc0 : cond2_0 i) (hc1 : ¬cond2_1 i)
    (x0 : Vec F S4000x64 .f32) (x1 : Vec F S4000x64 .bf16) (x2 : Vec F S4000x1 .f32) (x3 : Vec F S1x64 .f32) (x4 : Vec F S4000x1 .i32)
    (xi5 : Vec F S128x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (k2_pay2 x0 x1 x2 x3 x4 (k2_pay1 (F := F)))) -∗ K ⟨⟩))
      ⊢ wp frame (wpE (defs₀ (F := F)) Variants.none c none) E (cc2__combine_relu_pool_kernel i arg1 harg1 arg2 harg2 arg3 harg3 arg4 harg4 arg5 harg5 arg6 harg6 arg7 harg7) K := by
  simp only [cc2__combine_relu_pool_kernel_eq_skeleton]; unfold cc2__combine_relu_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_words
  rw [View.read_writes_eq_canon _ _ _ (cover2 _ _ _)]
  rw [View.canon_cons_unit_zero (S := S128x64) hz2]
  simp only [View.readAt_eq_ld, Memref.IsWhole.read_unread, View.ld_unit_zero (S := S4000x64) hz2, View.ld_unit_zero (S := S4000x1) hz2, View.ld_unit_zero (S := S1x64) hz2, View.ld_unit_zero (S := S128x64) hz2, View.readCov_unit_zero (S := S128x64) _ hz2]

set_option maxHeartbeats 1000000 in
/-- The body at a MIDDLE point (neither the reset nor the copy taken): the accumulator, handed at the contents the
    point before left, comes back at its update by the point's blocks; the output's memref is handed back untouched. -/
theorem sound_kernel2_B (c : Dev nD) (E : Set ℕ) (i : grid2.Coords)
    (arg1 : Memref sig .tc .vmem S4000x64 .f32) (harg1 : arg1.IsWhole) (arg2 : Memref sig .tc .vmem S4000x64 .bf16) (harg2 : arg2.IsWhole)
    (arg3 : Memref sig .tc .vmem S4000x1 .f32) (harg3 : arg3.IsWhole) (arg4 : Memref sig .tc .vmem S1x64 .f32) (harg4 : arg4.IsWhole)
    (arg5 : Memref sig .tc .vmem S4000x1 .i32) (harg5 : arg5.IsWhole) (arg6 : Memref sig .tc .vmem S128x64 .f32) (harg6 : arg6.IsWhole)
    (arg7 : Memref sig .tc .vmem S128x64 .f32) (harg7 : arg7.IsWhole) (hc0 : ¬cond2_0 i) (hc1 : ¬cond2_1 i)
    (x0 : Vec F S4000x64 .f32) (x1 : Vec F S4000x64 .bf16) (x2 : Vec F S4000x1 .f32) (x3 : Vec F S1x64 .f32) (x4 : Vec F S4000x1 .i32)
    (xi5 : Vec F S128x64 .f32) (xs0 : Vec F S128x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs0
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (k2_pay2 x0 x1 x2 x3 x4 xs0)) -∗ K ⟨⟩))
      ⊢ wp frame (wpE (defs₀ (F := F)) Variants.none c none) E (cc2__combine_relu_pool_kernel i arg1 harg1 arg2 harg2 arg3 harg3 arg4 harg4 arg5 harg5 arg6 harg6 arg7 harg7) K := by
  simp only [cc2__combine_relu_pool_kernel_eq_skeleton]; unfold cc2__combine_relu_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_words
  rw [View.read_writes_eq_canon _ _ _ (cover2 _ _ _)]
  rw [View.canon_unit_zero (S := S128x64) hz2]
  simp only [View.readAt_eq_ld, Memref.IsWhole.read_unread, View.ld_unit_zero (S := S4000x64) hz2, View.ld_unit_zero (S := S4000x1) hz2, View.ld_unit_zero (S := S1x64) hz2, View.ld_unit_zero (S := S128x64) hz2, View.readCov_unit_zero (S := S128x64) _ hz2]

set_option maxHeartbeats 1000000 in
/-- The body at the LAST point (the reset not taken, the copy taken): the accumulator comes back at its update by
    the point's blocks, and the output's memref, handed at anything, holds the same. -/
theorem sound_kernel2_C (c : Dev nD) (E : Set ℕ) (i : grid2.Coords)
    (arg1 : Memref sig .tc .vmem S4000x64 .f32) (harg1 : arg1.IsWhole) (arg2 : Memref sig .tc .vmem S4000x64 .bf16) (harg2 : arg2.IsWhole)
    (arg3 : Memref sig .tc .vmem S4000x1 .f32) (harg3 : arg3.IsWhole) (arg4 : Memref sig .tc .vmem S1x64 .f32) (harg4 : arg4.IsWhole)
    (arg5 : Memref sig .tc .vmem S4000x1 .i32) (harg5 : arg5.IsWhole) (arg6 : Memref sig .tc .vmem S128x64 .f32) (harg6 : arg6.IsWhole)
    (arg7 : Memref sig .tc .vmem S128x64 .f32) (harg7 : arg7.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S4000x1 .i32)
    (xs0 : Vec F S128x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs0
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (k2_pay2 x0 x1 x2 x3 x4 xs0)
            ∗ owns (c : Thread nD τ) arg7 fullShare (k2_pay2 x0 x1 x2 x3 x4 xs0)) -∗ K ⟨⟩))
      ⊢ wp frame (wpE (defs₀ (F := F)) Variants.none c none) E (cc2__combine_relu_pool_kernel i arg1 harg1 arg2 harg2 arg3 harg3 arg4 harg4 arg5 harg5 arg6 harg6 arg7 harg7) K := by
  simp only [cc2__combine_relu_pool_kernel_eq_skeleton]; unfold cc2__combine_relu_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    rw [View.read_writes_eq_canon _ _ _ (cover2 _ _ _)]
    rw [View.canon_unit_zero (S := S128x64) hz2]
    simp only [View.readAt_eq_ld, Memref.IsWhole.read_unread, View.ld_unit_zero (S := S4000x64) hz2, View.ld_unit_zero (S := S4000x1) hz2, View.ld_unit_zero (S := S1x64) hz2, View.ld_unit_zero (S := S128x64) hz2, View.readCov_unit_zero (S := S128x64) _ hz2]
  iexists _; isplitr
  swap; · iexact HS0
  ipureintro
  sl_unfold_words
  rw [View.read_writes_eq_canon _ _ _ (cover2 _ _ _)]
  rw [View.canon_unit_zero (S := S128x64) hz2]
  simp only [View.readAt_eq_ld, Memref.IsWhole.read_unread, View.ld_unit_zero (S := S4000x64) hz2, View.ld_unit_zero (S := S4000x1) hz2, View.ld_unit_zero (S := S1x64) hz2, View.ld_unit_zero (S := S128x64) hz2, View.readCov_unit_zero (S := S128x64) _ hz2]

end Cert.KernelIdeal.Hand

end
-- ==== Proof.KI.Reg2.lean ====
import proofs.«411392_j53214644797442_2_alg».proof.Proof.KI.Reg2Runs
import proofs.«411392_j53214644797442_2_alg».proof.Proof.Gen.KernelIdeal.Launch
import proofs.«411392_j53214644797442_2_alg».proof.Proof.Gen.KernelIdeal.Skeleton
import proofs.«411392_j53214644797442_2_alg».proof.Proof.Gen.KernelIdeal.Points
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 of @main: the pooling kernel's pipeline, at the contents `V` the region is entered with

The kernel keeps a running sum in a scratch buffer across its 25 grid points: zeroed at the first point, updated at every
point by that point's blocks, copied into the output's buffer at the last point, the only one that writes the output back.
This module states what the accumulator holds after each point (`acc2`), the region invariant that carries it from point
to point (`PhiS2`), the pipeline's proof data (`dat2`) and the body obligation. -/

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: an unfetched
    window's block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Away from the last point the output window is idle (the body stores nothing into it) and is not written back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- At the last point it is live. -/
theorem liveAt2_5 : ∀ t : Fin cfg2.N, cond2_1 (grid2.coords t) → cfg2.idle 5 (grid2.coords t) = false := by decide +kernel

/-! ## The accumulator -/

/-- The scratch operand: a whole scoped buffer of the kernel's own, passed beside the windows. -/
abbrev scM2_0 : Memref sig .tc .vmem S128x64 .f32 := Memref.whole cc2_scratch0

/-- The core's scoped buffers that are no staging buffer of this call, split at the call's own accumulator: it whole at
    some contents, the remainder (the other calls' staging buffers) unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop((∃ f : Buf Val ((c : Thread nD τ).loc cc2_scratch0), ((c : Thread nD τ).loc cc2_scratch0) ↦{fullShare} f)
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The remainder of the core's scoped buffers, carried unopened through the region. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the accumulator as a memref owned at some contents. -/
theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA; rw [scopedRest2_split]; simp only [scM2_0, owns_whole]; try rfl

/-! ## What the accumulator holds after each point -/

/-- THE ACCUMULATION. What the accumulator holds after the body at position `n`: at the first point the update of the
    zero fill by that point's blocks, afterwards the update of what the point before left by this point's blocks. -/
def acc2 (c : Dev nD) : (n : ℕ) → n < cfg2.N → Vec F S128x64 .f32
  | 0, hn => k2_pay2 (iblk2 V c 0 ⟨0, hn⟩) (iblk2 V c 1 ⟨0, hn⟩) (iblk2 V c 2 ⟨0, hn⟩) (iblk2 V c 3 ⟨0, hn⟩) (iblk2 V c 4 ⟨0, hn⟩) (k2_pay1 (F := F))
  | n + 1, hn => k2_pay2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 c n (Nat.lt_of_succ_lt hn))

theorem acc2_zero (c : Dev nD) (hn : 0 < cfg2.N) :
    acc2 V c 0 hn = k2_pay2 (iblk2 V c 0 ⟨0, hn⟩) (iblk2 V c 1 ⟨0, hn⟩) (iblk2 V c 2 ⟨0, hn⟩) (iblk2 V c 3 ⟨0, hn⟩) (iblk2 V c 4 ⟨0, hn⟩) (k2_pay1 (F := F)) := rfl

theorem acc2_succ (c : Dev nD) (n : ℕ) (hn : n + 1 < cfg2.N) :
    acc2 V c (n + 1) hn = k2_pay2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 V c n (Nat.lt_of_succ_lt hn)) := rfl

/-- `acc2` at the first point, stated at the point. -/
theorem acc2_first (c : Dev nD) (t : Fin cfg2.N) (h0 : t.val = 0) :
    acc2 V c t.val t.isLt = k2_pay2 (iblk2 V c 0 t) (iblk2 V c 1 t) (iblk2 V c 2 t) (iblk2 V c 3 t) (iblk2 V c 4 t) (k2_pay1 (F := F)) := by
  obtain ⟨n, hn⟩ := t
  cases n with
  | zero => rfl
  | succ n => exact absurd h0 (Nat.succ_ne_zero n)

/-- `acc2` at a later point, stated at the point: over what the point before left. -/
theorem acc2_later (c : Dev nD) (t : Fin cfg2.N) (h0 : t.val ≠ 0) :
    acc2 V c t.val t.isLt = k2_pay2 (iblk2 V c 0 t) (iblk2 V c 1 t) (iblk2 V c 2 t) (iblk2 V c 3 t) (iblk2 V c 4 t) (acc2 V c (t.val - 1) (Nat.lt_of_le_of_lt (Nat.sub_le _ _) t.isLt)) := by
  obtain ⟨n, hn⟩ := t
  cases n with
  | zero => exact absurd rfl h0
  | succ n => rfl

/-! ## The region invariant -/

/-- The invariant before position `n`: before the first point the class's (every scoped buffer that is no staging
    buffer at anything, the generator register at some state); afterwards the same with the accumulator at what the
    point before left in it. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (acc2 V c n hn) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (acc2 V c (n - 1) (by omega)) ∗ rest2 (F := F) c) ∗ (∃ r, prngReg c r)) := by
  cases n with
  | zero => exact absurd rfl hz
  | succ n => rfl

/-! ## The pipeline's proof data -/

/-- The proof data of the region on core `c`: the arrays as the region finds them; after the body at point `t` each
    input's buffer at its block and the output's at the accumulator's contents there (consulted at the last point
    only: elsewhere the window is idle and not written back); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = acc2 V c t.val t.isLt := by dsimp only [dat2]

/-- What the output window's buffer holds after the last point's body: the whole accumulation. -/
theorem after2_5_last (c : Dev nD) (t : Fin cfg2.N) (ht : t.val = 24) :
    (dat2 V c).after 5 t = acc2 V c 24 (by rw [show cfg2.N = 25 from N_2]; decide) := by
  rw [after2_5]
  obtain ⟨n, hn⟩ := t
  dsimp only at ht
  subst ht
  rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- Each window's current staging memref at point `t`, spelled as the pipeline passes it, and its wholeness. -/
abbrev ms2_0 (t : Fin cfg2.N) : Memref sig .tc .vmem S4000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4000x1 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x64 .f32 := win2_5.stage (cfg2.slots t 5)
abbrev hs2_5 (t : Fin cfg2.N) : (ms2_5 t).IsWhole := hstage2_5 ((cfg2.slots t 5).cast nbuf2_5)

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) : (dat2 V c).leavesExact 4 t = owns (c : Thread nD τ) (ms2_4 t) fullShare (iblk2 V c 4 t) := by
  unfold Dat.leavesExact; rw [liveAt2_4 t, after2_4]

set_option maxHeartbeats 4800000 in
/-- The body at any point: the inputs' memrefs hold their blocks; the point's position says which case it is in; the
    invariant hands the body the accumulator at what the point before left (at anything at the first point) and takes it
    back at this point's contents; the rest of the scoped buffers, the generator register and the core's `owes` pass
    through unread; away from the last point the output's buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 25 := lt_of_lt_of_eq t.isLt (show cfg2.N = 25 from N_2)
  by_cases h0 : t.val % 25 = 0
  · have h1 : ¬t.val % 25 = 24 := by omega
    have hz : t.val = 0 := by omega
    rw [Dat.leavesExact_idle (dat2 V c) 5 t (idleAt2_5 t (fun h => h1 ((hcond2_1 t).mp h))) (noFlush2_5 t (fun h => h1 ((hcond2_1 t).mp h)))]
    rw [acc2_first V c t hz]
    rw [PhiS2_castSucc V c t, PhiS2_zero V c _ _ hz, PhiA2_eq]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply (sound_kernel2_A c Set.univ (grid2.coords t) _ _ _ _ _ _ _ _ _ _ _ _ _ _ ((hcond2_0 t).mpr h0) (fun h => h1 ((hcond2_1 t).mp h))
      (iblk2 V c 0 t) (iblk2 V c 1 t) (iblk2 V c 2 t) (iblk2 V c 3 t) (iblk2 V c 4 t) ((dat2 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    rw [acc2_later V c t hz]
    rw [PhiS2_castSucc V c t, PhiS2_pos V c _ _ hz]
    by_cases h1 : t.val % 25 = 24
    · rw [show (dat2 V c).leavesExact 5 t = owns (c : Thread nD τ) (ms2_5 t) fullShare ((dat2 V c).after 5 t) from by
        unfold Dat.leavesExact; rw [liveAt2_5 t ((hcond2_1 t).mpr h1)], after2_5, acc2_later V c t hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply (sound_kernel2_C c Set.univ (grid2.coords t) _ _ _ _ _ _ _ _ _ _ _ _ _ _ (fun h => h0 ((hcond2_0 t).mp h)) ((hcond2_1 t).mpr h1)
        (iblk2 V c 0 t) (iblk2 V c 1 t) (iblk2 V c 2 t) (iblk2 V c 3 t) (iblk2 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat2 V c) 5 t (idleAt2_5 t (fun h => h1 ((hcond2_1 t).mp h))) (noFlush2_5 t (fun h => h1 ((hcond2_1 t).mp h)))]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply (sound_kernel2_B c Set.univ (grid2.coords t) _ _ _ _ _ _ _ _ _ _ _ _ _ _ (fun h => h0 ((hcond2_0 t).mp h)) (fun h => h1 ((hcond2_1 t).mp h))
        (iblk2 V c 0 t) (iblk2 V c 1 t) (iblk2 V c 2 t) (iblk2 V c 3 t) (iblk2 V c 4 t) ((dat2 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]; · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Cert.KernelIdeal.Hand

end
-- ==== Proof.KI.Reg3.lean ====
/-
  The last kernel region: one grid point, every window the whole of its array. It multiplies the pooled means by
  the whole of W_l and adds the bias row, so the output array is one pure function of the three input arrays.
  Stated at the buffer contents `V` the region is entered from: the blocks, what the body leaves in the output
  window's buffer, the body's triple, the pipeline's proof data and the body obligation.
-/
import proofs.«411392_j53214644797442_2_alg».proof.Proof.Gen.KernelIdeal.Launch
import proofs.«411392_j53214644797442_2_alg».proof.Proof.Gen.KernelIdeal.Skeleton
import proofs.«411392_j53214644797442_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled means are in their buffer at the point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- W_l is in its buffer at the point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row is in its buffer at the point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole buffer -/

abbrev r3_g : Rect S128x64 := Rect.unit (s := S128x64) ![0, 0] S128x64.size inb_S128x64_S128x64_0_0
abbrev r3_w : Rect S64x128 := Rect.unit (s := S64x128) ![0, 0] S64x128.size inb_S64x128_S64x128_0_0
abbrev r3_b : Rect S1x128 := Rect.unit (s := S1x128) ![0, 0] S1x128.size inb_S1x128_S1x128_0_0
abbrev r3_o : Rect S128x128 := Rect.unit (s := S128x128) ![0, 0] S128x128.size inb_S128x128_S128x128_0_0

/-- The output buffer after the body: its one store. -/
def out3_3 (x0 : Vec F S128x64 .f32) (x1 : Vec F S64x128 .f32) (x2 : Vec F S1x128 .f32) : Vec F S128x128 .f32 :=
  View.canon [⟨r3_o, k3_pay1 (View.ld x0 r3_g) (View.ld x1 r3_w) (View.ld x2 r3_b)⟩]

theorem cover3_3 (p0 : Vec F S128x128 .f32) (y : S128x128.Idx) :
    ∃ pc ∈ ([⟨r3_o, p0⟩] : List (View.Piece (Elt F) S128x128 .f32)), y ∈ pc.1.set :=
  View.cover_of_tiled [⟨r3_o, p0⟩] S128x128.size (by rfl) y

/-! ## The body's triple -/

set_option maxHeartbeats 1000000 in
/-- On whole buffers, the inputs at `x0`, `x1`, `x2` and the output at anything, the body runs to the continuation
    with the inputs as they were and the output at `out3_3` of them. -/
theorem sound_kernel3 (c : Dev nD) (E : Set ℕ) (i : grid3.Coords) (arg1 : Memref sig .tc .vmem S128x64 .f32) (harg1 : arg1.IsWhole)
    (arg2 : Memref sig .tc .vmem S64x128 .f32) (harg2 : arg2.IsWhole) (arg3 : Memref sig .tc .vmem S1x128 .f32) (harg3 : arg3.IsWhole)
    (arg4 : Memref sig .tc .vmem S128x128 .f32) (harg4 : arg4.IsWhole)
    (x0 : Vec F S128x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__final_linear_kernel i arg1 harg1 arg2 harg2 arg3 harg3 arg4 harg4) K := by
  simp only [cc3__final_linear_kernel_eq_skeleton]; unfold cc3__final_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The arrays as the region finds them; after the body the inputs' buffers at their blocks and the output's at
    `out3_3` of those blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The whole run of @main, for any float instance: four stretches of host operations alternating with the four kernel
  regions. The buffer contents at each boundary are a fold from the launch memory: a host stretch applies its
  operations; a region leaves its input arrays as they were and each output array at the fold of its write-backs.
  Every weakly fair execution terminates without a fault, and every final state has every unscoped buffer at the last
  boundary's contents `W8`; no stretch and no region writes an argument, so the arguments end as launched.
-/
import proofs.«411392_j53214644797442_2_alg».proof.Proof.KI.Reg0
import proofs.«411392_j53214644797442_2_alg».proof.Proof.KI.Reg1
import proofs.«411392_j53214644797442_2_alg».proof.Proof.KI.Reg2
import proofs.«411392_j53214644797442_2_alg».proof.Proof.KI.Reg3
import proofs.«411392_j53214644797442_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (Vin0 m ρ) c).arrAt_in w hw _).trans (A_eq0 (Vin0 m ρ) c w))
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After the next stretch of host operations (region 1's entry). -/
abbrev W3 : Dev nD → Valuation τ sig (Elt F) := fun c => StableHlo.after hostOps1 (W2 m ρ c)
abbrev Vin1 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (Vin1 m ρ) c).arrAt w cfg1.N
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (Vin1 m ρ) c).arrAt_in w hw _).trans (A_eq1 (Vin1 m ρ) c w))
abbrev Vout1 : (c : Dev nD) → (b : Ref sig .tc) → Buf (Elt F) ((c : Thread nD τ).loc b) := fun c b => W4 m ρ c b
theorem hF1 (c : Dev nD) (w : Fin cfg1.W) : (dat1 (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)

/-- After the next stretch of host operations (region 2's entry). -/
abbrev W5 : Dev nD → Valuation τ sig (Elt F) := fun c => StableHlo.after hostOps2 (W4 m ρ c)
abbrev Vin2 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (Vin2 m ρ) c).arrAt w cfg2.N
theorem W6_arr (c : Dev nD) (w : Fin cfg2.W) :
    W6 m ρ c (Proc.devRef .tc (Pipeline.arrRef spec2 w)) = (dat2 (Vin2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (Vin2 m ρ) c).arrAt_in w hw _).trans (A_eq2 (Vin2 m ρ) c w))
abbrev Vout2 : (c : Dev nD) → (b : Ref sig .tc) → Buf (Elt F) ((c : Thread nD τ).loc b) := fun c b => W6 m ρ c b
theorem hF2 (c : Dev nD) (w : Fin cfg2.W) : (dat2 (Vin2 m ρ) c).arrAt w cfg2.N = Vout2 m ρ c (Pipeline.arrRef spec2 w) :=
  (W6_arr m ρ c w).symm
theorem hrest2 (c : Dev nD) : ∀ b, b ∉ Finset.univ.image (Pipeline.arrRef spec2) → Vout2 m ρ c b = Vin2 m ρ c b :=
  fun b hb => W6_of_ne m ρ c b fun w e => hb (Finset.mem_image.mpr ⟨w, Finset.mem_univ _, e⟩)

/-- After the next stretch of host operations (region 3's entry). -/
abbrev W7 : Dev nD → Valuation τ sig (Elt F) := fun c => StableHlo.after hostOps3 (W6 m ρ c)
abbrev Vin3 : (c : Dev nD) → (b : Ref sig .tc) → Buf (Elt F) ((c : Thread nD τ).loc b) := fun c b => W7 m ρ c b

/-- At region 3's exit: its arrays at what the pipeline leaves, every other buffer as entered. -/
def W8 (c : Dev nD) : Valuation τ sig (Elt F) :=
  Pipeline.withArrays spec3 c (W7 m ρ c) fun w => (dat3 (Vin3 m ρ) c).arrAt w cfg3.N
theorem W8_arr (c : Dev nD) (w : Fin cfg3.W) :
    W8 m ρ c (Proc.devRef .tc (Pipeline.arrRef spec3 w)) = (dat3 (Vin3 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves the region as it entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (Vin3 m ρ) c).arrAt_in w hw _).trans (A_eq3 (Vin3 m ρ) c w))
abbrev Vout3 : (c : Dev nD) → (b : Ref sig .tc) → Buf (Elt F) ((c : Thread nD τ).loc b) := fun c b => W8 m ρ c b
theorem hF3 (c : Dev nD) (w : Fin cfg3.W) : (dat3 (Vin3 m ρ) c).arrAt w cfg3.N = Vout3 m ρ c (Pipeline.arrRef spec3 w) :=
  (W8_arr m ρ c w).symm
theorem hrest3 (c : Dev nD) : ∀ b, b ∉ Finset.univ.image (Pipeline.arrRef spec3) → Vout3 m ρ c b = Vin3 m ρ c b :=
  fun b hb => W8_of_ne m ρ c b fun w e => hb (Finset.mem_image.mpr ⟨w, Finset.mem_univ _, e⟩)

/-! ## The proof data family and the thread state -/

abbrev adm4 : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm4 p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered with every unscoped buffer at `W1`, left with them at `W2`. Its
    arrays are split out of the unscoped buffers and put back at the exit contents; the generator register goes into
    the region's invariant and comes back; nothing is owed; the kernel has no semaphore of its own. -/
def reg0 : Pipeline.RegionSeg (pcfgs (F := F)) adm4 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm4 (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm4 (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at the exit contents; the generator register goes into
    the region's invariant and comes back; nothing is owed; the kernel has no semaphore of its own. -/
def reg1 : Pipeline.RegionSeg (pcfgs (F := F)) adm4 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm4 (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm4 (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers and put back at the exit contents; the generator register goes into
    the region's invariant and comes back; nothing is owed; the kernel has no semaphore of its own. -/
def reg2 : Pipeline.RegionSeg (pcfgs (F := F)) adm4 (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm4 (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m ρ 2 c).Φ 0 from hin2 (Vin2 m ρ) c); unfold Pipeline.ΦA
    iintro ⟨Hp, -, Hr⟩
    isplitl [Hr]; · iexact Hr
    iexact Hp
  hout c := by
    rw [Pipeline.ownSems0_none]; refine (show (pdats m ρ 2 c).Φ (Fin.last _) ⊢ Pipeline.ΦA spec2 c from hout2 (Vin2 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm4 (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left with them at `W8`. Its
    arrays are split out of the unscoped buffers and put back at the exit contents; the generator register goes into
    the region's invariant and comes back; nothing is owed; the kernel has no semaphore of its own. -/
def reg3 : Pipeline.RegionSeg (pcfgs (F := F)) adm4 (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm4 (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm4 (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs4 : List (Pipeline.Seg (pcfgs (F := F)) adm4 (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs4 m ρ) := (main_chain c).trans (by chain_rfl)

set_option backward.isDefEq.respectTransparency.types false in
/-- THE RUN: from any memory with zero counters every weakly fair execution of @main terminates, nothing faulting, and
    every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm4 (pdats m ρ) () cellOf_inj emb₁ defs₀ 𝒱₀ L lv m ρ main (segs4 m ρ)
    (fun c Q => by rw [main_run m ρ c])
    (by simp only [segs4, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.KI.Keep.lean ====
/-
  What no item touches. A stretch of host operations leaves every buffer it does not write as it was; a region leaves
  its input arrays and every buffer that is none of its arrays as they were. No stretch writes an argument and no
  region has an argument as an output, so each argument's buffer reaches the end holding its launch contents: the
  frame. For any float instance.
-/
import proofs.«411392_j53214644797442_2_alg».proof.Proof.KI.Run

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- A buffer the first stretch does not write. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- A buffer the second stretch does not write. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- A buffer the third stretch does not write. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- A buffer the fourth stretch does not write. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h

/-! ## The arguments end as launched -/

theorem W8_arg0 (c : Dev nD) : W8 m ρ c (Proc.devRef .tc main_arg0) = m ((c.tc : Thread nD τ).loc main_arg0) :=
  (W8_of_ne m ρ c main_arg0 (by decide)).trans <| (W7_keep m ρ c main_arg0 (by decide)).trans <| (W6_of_ne m ρ c main_arg0 (by decide)).trans <|
    (W5_keep m ρ c main_arg0 (by decide)).trans <| (W4_of_ne m ρ c main_arg0 (by decide)).trans <| (W3_keep m ρ c main_arg0 (by decide)).trans <|
    (W2_in m ρ c 0 rfl).trans <| (W1_keep m ρ c main_arg0 (by decide)).trans rfl
theorem W8_arg1 (c : Dev nD) : W8 m ρ c (Proc.devRef .tc main_arg1) = m ((c.tc : Thread nD τ).loc main_arg1) :=
  (W8_of_ne m ρ c main_arg1 (by decide)).trans <| (W7_keep m ρ c main_arg1 (by decide)).trans <| (W6_of_ne m ρ c main_arg1 (by decide)).trans <|
    (W5_keep m ρ c main_arg1 (by decide)).trans <| (W4_of_ne m ρ c main_arg1 (by decide)).trans <| (W3_keep m ρ c main_arg1 (by decide)).trans <|
    (W2_of_ne m ρ c main_arg1 (by decide)).trans <| (W1_keep m ρ c main_arg1 (by decide)).trans rfl
theorem W8_arg2 (c : Dev nD) : W8 m ρ c (Proc.devRef .tc main_arg2) = m ((c.tc : Thread nD τ).loc main_arg2) :=
  (W8_of_ne m ρ c main_arg2 (by decide)).trans <| (W7_keep m ρ c main_arg2 (by decide)).trans <| (W6_of_ne m ρ c main_arg2 (by decide)).trans <|
    (W5_keep m ρ c main_arg2 (by decide)).trans <| (W4_of_ne m ρ c main_arg2 (by decide)).trans <| (W3_keep m ρ c main_arg2 (by decide)).trans <|
    (W2_of_ne m ρ c main_arg2 (by decide)).trans <| (W1_keep m ρ c main_arg2 (by decide)).trans rfl
theorem W8_arg3 (c : Dev nD) : W8 m ρ c (Proc.devRef .tc main_arg3) = m ((c.tc : Thread nD τ).loc main_arg3) :=
  (W8_of_ne m ρ c main_arg3 (by decide)).trans <| (W7_keep m ρ c main_arg3 (by decide)).trans <| (W6_of_ne m ρ c main_arg3 (by decide)).trans <|
    (W5_keep m ρ c main_arg3 (by decide)).trans <| (W4_of_ne m ρ c main_arg3 (by decide)).trans <| (W3_keep m ρ c main_arg3 (by decide)).trans <|
    (W2_in m ρ c 1 rfl).trans <| (W1_keep m ρ c main_arg3 (by decide)).trans rfl
theorem W8_arg4 (c : Dev nD) : W8 m ρ c (Proc.devRef .tc main_arg4) = m ((c.tc : Thread nD τ).loc main_arg4) :=
  (W8_of_ne m ρ c main_arg4 (by decide)).trans <| (W7_keep m ρ c main_arg4 (by decide)).trans <| (W6_of_ne m ρ c main_arg4 (by decide)).trans <|
    (W5_keep m ρ c main_arg4 (by decide)).trans <| (W4_of_ne m ρ c main_arg4 (by decide)).trans <| (W3_keep m ρ c main_arg4 (by decide)).trans <|
    (W2_of_ne m ρ c main_arg4 (by decide)).trans <| (W1_keep m ρ c main_arg4 (by decide)).trans rfl
theorem W8_arg5 (c : Dev nD) : W8 m ρ c (Proc.devRef .tc main_arg5) = m ((c.tc : Thread nD τ).loc main_arg5) :=
  (W8_of_ne m ρ c main_arg5 (by decide)).trans <| (W7_keep m ρ c main_arg5 (by decide)).trans <| (W6_of_ne m ρ c main_arg5 (by decide)).trans <|
    (W5_keep m ρ c main_arg5 (by decide)).trans <| (W4_in m ρ c 4 rfl).trans <| (W3_keep m ρ c main_arg5 (by decide)).trans <|
    (W2_of_ne m ρ c main_arg5 (by decide)).trans <| (W1_keep m ρ c main_arg5 (by decide)).trans rfl
theorem W8_arg6 (c : Dev nD) : W8 m ρ c (Proc.devRef .tc main_arg6) = m ((c.tc : Thread nD τ).loc main_arg6) :=
  (W8_of_ne m ρ c main_arg6 (by decide)).trans <| (W7_keep m ρ c main_arg6 (by decide)).trans <| (W6_of_ne m ρ c main_arg6 (by decide)).trans <|
    (W5_keep m ρ c main_arg6 (by decide)).trans <| (W4_of_ne m ρ c main_arg6 (by decide)).trans <| (W3_keep m ρ c main_arg6 (by decide)).trans <|
    (W2_of_ne m ρ c main_arg6 (by decide)).trans <| (W1_keep m ρ c main_arg6 (by decide)).trans rfl
theorem W8_arg7 (c : Dev nD) : W8 m ρ c (Proc.devRef .tc main_arg7) = m ((c.tc : Thread nD τ).loc main_arg7) :=
  (W8_in m ρ c 1 rfl).trans <| (W7_keep m ρ c main_arg7 (by decide)).trans <| (W6_of_ne m ρ c main_arg7 (by decide)).trans <|
    (W5_keep m ρ c main_arg7 (by decide)).trans <| (W4_of_ne m ρ c main_arg7 (by decide)).trans <| (W3_keep m ρ c main_arg7 (by decide)).trans <|
    (W2_of_ne m ρ c main_arg7 (by decide)).trans <| (W1_keep m ρ c main_arg7 (by decide)).trans rfl
theorem W8_arg8 (c : Dev nD) : W8 m ρ c (Proc.devRef .tc main_arg8) = m ((c.tc : Thread nD τ).loc main_arg8) :=
  (W8_of_ne m ρ c main_arg8 (by decide)).trans <| (W7_keep m ρ c main_arg8 (by decide)).trans <| (W6_of_ne m ρ c main_arg8 (by decide)).trans <|
    (W5_keep m ρ c main_arg8 (by decide)).trans <| (W4_of_ne m ρ c main_arg8 (by decide)).trans <| (W3_keep m ρ c main_arg8 (by decide)).trans <|
    (W2_of_ne m ρ c main_arg8 (by decide)).trans <| (W1_keep m ρ c main_arg8 (by decide)).trans rfl

/-- THE FRAME: every weakly fair execution of @main terminates, nothing faulting, with every argument array as
    launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_arg0 m ρ c),
     (h c _ (mem_uc main_arg1 (by decide))).trans (W8_arg1 m ρ c),
     (h c _ (mem_uc main_arg2 (by decide))).trans (W8_arg2 m ρ c),
     (h c _ (mem_uc main_arg3 (by decide))).trans (W8_arg3 m ρ c),
     (h c _ (mem_uc main_arg4 (by decide))).trans (W8_arg4 m ρ c),
     (h c _ (mem_uc main_arg5 (by decide))).trans (W8_arg5 m ρ c),
     (h c _ (mem_uc main_arg6 (by decide))).trans (W8_arg6 m ρ c),
     (h c _ (mem_uc main_arg7 (by decide))).trans (W8_arg7 m ρ c),
     (h c _ (mem_uc main_arg8 (by decide))).trans (W8_arg8 m ρ c)⟩) (run_all m ρ)

end Cert.KernelIdeal.Hand

end
-- ==== Proof.KI.Glue.lean ====
/-
  Two spellings of one array. The kernel's host glue adds a unit axis by a reshape ([n] → [n,1], [n] → [1,n]); the
  reference adds it by a broadcast along the kept axis. Both read entry (r, 0), resp. (0, r), from entry r: the same
  function, for any element type.
-/
import proofs.«411392_j53214644797442_2_alg».proof.Proof.Gen.KernelIdeal
import proofs.«411392_j53214644797442_2_alg».proof.Proof.Gen.ReferenceIdeal.Read
import Idealize.ShloMosaic.Lib.Pipeline.Value

noncomputable section

namespace Cert.KernelIdeal.HandVal

open Idealize.ShloMosaic Idealize.ShloMosaic.TcCoe Idealize.SL.Sem
open Cert.KernelIdeal Cert.KernelIdeal.Facts₀

variable {α : Type}

/-- [100000] → [100000,1]: the reshape is the broadcast along axis 0. -/
theorem reshape_col (x : S100000.Idx → α) :
    shapeCast S100000x1 x shapeCasts_S100000_S100000x1
      = broadcastInDim S100000x1 ![0] Cert.ReferenceIdeal.Facts₀.bcast_S100000_S100000x1_0 x := by
  funext j
  have h1 : (j 1).val = 0 := by have := (j 1).isLt; simp at this; omega
  rw [shapeCast_apply x _ j (Cert.ReferenceIdeal.Read.idx_main_v42 j) (by
        rw [Shape.rowMajor_val_one, Shape.rowMajor_val_two]
        show (j 0).val = (j 0).val * 1 + (j 1).val
        omega),
    broadcastInDim_apply _ _ x j (Cert.ReferenceIdeal.Read.idx_main_v42 j) (fun a => match a with
      | ⟨0, _⟩ => by show (j 0).val = if (100000 : Nat) = 1 then 0 else (j 0).val; rw [if_neg (by decide)])]

/-- [64] → [1,64]: the reshape is the broadcast along axis 1. -/
theorem reshape_row64 (x : S64.Idx → α) :
    shapeCast S1x64 x shapeCasts_S64_S1x64
      = broadcastInDim S1x64 ![1] Cert.ReferenceIdeal.Facts₀.bcast_S64_S1x64_1 x := by
  funext j
  have h0 : (j 0).val = 0 := by have := (j 0).isLt; simp at this; omega
  rw [shapeCast_apply x _ j (Cert.ReferenceIdeal.Read.idx_main_v46 j) (by
        rw [Shape.rowMajor_val_one, Shape.rowMajor_val_two]
        show (j 1).val = (j 0).val * 64 + (j 1).val
        omega),
    broadcastInDim_apply _ _ x j (Cert.ReferenceIdeal.Read.idx_main_v46 j) (fun a => match a with
      | ⟨0, _⟩ => by show (j 1).val = if (64 : Nat) = 1 then 0 else (j 1).val; rw [if_neg (by decide)])]

/-- [128] → [1,128]: the reshape is the broadcast along axis 1. -/
theorem reshape_row128 (x : S128.Idx → α) :
    shapeCast S1x128 x shapeCasts_S128_S1x128
      = broadcastInDim S1x128 ![1] Cert.ReferenceIdeal.Facts₀.bcast_S128_S1x128_1 x := by
  funext j
  have h0 : (j 0).val = 0 := by have := (j 0).isLt; simp at this; omega
  rw [shapeCast_apply x _ j (Cert.ReferenceIdeal.Read.idx_main_v109 j) (by
        rw [Shape.rowMajor_val_one, Shape.rowMajor_val_two]
        show (j 1).val = (j 0).val * 128 + (j 1).val
        omega),
    broadcastInDim_apply _ _ x j (Cert.ReferenceIdeal.Read.idx_main_v109 j) (fun a => match a with
      | ⟨0, _⟩ => by show (j 1).val = if (128 : Nat) = 1 then 0 else (j 1).val; rw [if_neg (by decide)])]

end Cert.KernelIdeal.HandVal

end
-- ==== Proof.KI.BridgeA.lean ====
/-
  The kernel program's buffers at region 0's entry, as the reference's stages. The first stretch of host operations
  computes the edge lists, the degrees and the edge normalisation exactly as the reference does, so each buffer it
  writes is the reference's stage of the same name at the launch arguments; the inverse-degree column is the
  reference's broadcast column (a reshape and a broadcast along the kept axis are one function).
-/
import proofs.«411392_j53214644797442_2_alg».proof.Proof.KI.Keep
import proofs.«411392_j53214644797442_2_alg».proof.Proof.KI.Glue
import proofs.«411392_j53214644797442_2_alg».proof.Proof.Gen.ReferenceIdeal.Read
import Idealize.ShloMosaic.Lib.StableHlo.Run

set_option maxRecDepth 16384

noncomputable section

namespace Cert.KernelIdeal.HandVal

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg) (c : Dev nD)

/-- A buffer the first stretch does not write holds its launch contents at region 0's entry. -/
theorem w1_keep (r : Ref sig .tc) (h : r ∉ hostOps0_W) : W1 m ρ c (Proc.devRef .tc r) = m ((c.tc : Thread nD τ).loc r) :=
  (W1_keep m ρ c r h).trans rfl

set_option maxHeartbeats 4000000 in
/-- The source endpoints of the edges. -/
theorem h0_v1 : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results
  rfl

set_option maxHeartbeats 4000000 in
/-- The destination endpoints of the edges. -/
theorem h0_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results
  rfl

set_option maxHeartbeats 4000000 in
/-- The edge normalisation: the product of the two gathered inverse square roots of the degrees. -/
theorem h0_v25 : W1 m ρ c (Proc.devRef .tc main_v25) = Cert.ReferenceIdeal.Read.val_main_v26 (F := Ideal) (m ((c.tc : Thread nD τ).loc main_arg1)) := by
  show StableHlo.after hostOps0 (W0 m ρ c) (Proc.devRef .tc main_v25) = _
  after_results
  rfl

set_option maxHeartbeats 4000000 in
/-- The inverse degrees as a column. -/
theorem h0_v28 : W1 m ρ c (Proc.devRef .tc main_v28) = Cert.ReferenceIdeal.Read.val_main_v42 (F := Ideal) (m ((c.tc : Thread nD τ).loc main_arg1)) := by
  show StableHlo.after hostOps0 (W0 m ρ c) (Proc.devRef .tc main_v28) = _
  after_results
  refine Eq.trans (b := shapeCast S100000x1 (Cert.ReferenceIdeal.Read.val_main_v41 (F := Ideal) (m ((c.tc : Thread nD τ).loc main_arg1))) Cert.KernelIdeal.Facts₀.shapeCasts_S100000_S100000x1) rfl ?_
  exact (reshape_col _).trans rfl

end Cert.KernelIdeal.HandVal

end
-- ==== Proof.KI.ValMat.lean ====
/-
  The two matrix products of the graph encoder's first and last kernel regions, read entry by entry at the ideal
  values, where a float is an extended real and every operation is exact: a product of an [M,K] by a [K,N] matrix
  has at (p, q) the sum over k of the (p, k) entry times the (k, q) entry. Stated for the kernel's products (which
  accumulate into a zero splat) and for the reference's host products of the same mathematical shape, so the two
  sides meet at one sum over `Fin K`.
-/
import proofs.«411392_j53214644797442_2_alg».proof.Proof.Gen.KernelIdeal
import proofs.«411392_j53214644797442_2_alg».proof.Proof.Gen.ReferenceIdeal
import Idealize.ShloMosaic.Lib.ValueIdx
import Idealize.ShloMosaic.PureOps.Ideal.Laws

noncomputable section

namespace Cert.KernelIdeal.HandVal

open Idealize.ShloMosaic Idealize.ShloMosaic.ValueIdx

/-! ## the kernel's [4000,128] × [128,64] product: the operand indices, axis by axis -/

theorem lhs_k0_0 (i : Cert.KernelIdeal.S4000x64.Idx) (q : Cert.KernelIdeal.dot_S4000x128_S128x64_S4000x64_1_0_0_1_n_n.contr.Idx) :
    (Cert.KernelIdeal.dot_S4000x128_S128x64_S4000x64_1_0_0_1_n_n.lhsIdx i q 0).val = (i 0).val := by
  unfold DotDims.lhsIdx
  rw [dif_neg (show ¬(0 : Fin Cert.KernelIdeal.S4000x128.rank) ∈ Cert.KernelIdeal.dot_S4000x128_S128x64_S4000x64_1_0_0_1_n_n.lhsBatch by decide), dif_pos (show (0 : Fin Cert.KernelIdeal.S4000x128.rank) ∈ Cert.KernelIdeal.dot_S4000x128_S128x64_S4000x64_1_0_0_1_n_n.lhsNonContracting by decide)]
  rfl
theorem lhs_k0_1 (i : Cert.KernelIdeal.S4000x64.Idx) (q : Cert.KernelIdeal.dot_S4000x128_S128x64_S4000x64_1_0_0_1_n_n.contr.Idx) :
    (Cert.KernelIdeal.dot_S4000x128_S128x64_S4000x64_1_0_0_1_n_n.lhsIdx i q 1).val = (q ⟨0, by decide⟩).val :=
  Cert.KernelIdeal.dot_S4000x128_S128x64_S4000x64_1_0_0_1_n_n.lhsIdx_val_of_single rfl i q
theorem rhs_k0_0 (i : Cert.KernelIdeal.S4000x64.Idx) (q : Cert.KernelIdeal.dot_S4000x128_S128x64_S4000x64_1_0_0_1_n_n.contr.Idx) :
    (Cert.KernelIdeal.dot_S4000x128_S128x64_S4000x64_1_0_0_1_n_n.rhsIdx i q 0).val = (q ⟨0, by decide⟩).val :=
  Cert.KernelIdeal.dot_S4000x128_S128x64_S4000x64_1_0_0_1_n_n.rhsIdx_val_of_single rfl i q
theorem rhs_k0_1 (i : Cert.KernelIdeal.S4000x64.Idx) (q : Cert.KernelIdeal.dot_S4000x128_S128x64_S4000x64_1_0_0_1_n_n.contr.Idx) :
    (Cert.KernelIdeal.dot_S4000x128_S128x64_S4000x64_1_0_0_1_n_n.rhsIdx i q 1).val = (i 1).val := by
  unfold DotDims.rhsIdx
  rw [dif_neg (show ¬(1 : Fin Cert.KernelIdeal.S128x64.rank) ∈ Cert.KernelIdeal.dot_S4000x128_S128x64_S4000x64_1_0_0_1_n_n.rhsBatch by decide), dif_pos (show (1 : Fin Cert.KernelIdeal.S128x64.rank) ∈ Cert.KernelIdeal.dot_S4000x128_S128x64_S4000x64_1_0_0_1_n_n.rhsNonContracting by decide)]
  rfl

/-- Entry (p, q) of the product accumulated into the zero splat: the sum over the contraction coordinate k of
    the left operand at (p, k) times the right operand at (k, q). -/
theorem matmul_k0_apply {φ₁ φ₂ : FTy} (x : FVec Ideal Cert.KernelIdeal.S4000x128 φ₁) (y : FVec Ideal Cert.KernelIdeal.S128x64 φ₂) (p : Fin 4000) (q : Fin 64) :
    matmul (F := Ideal) Cert.KernelIdeal.dot_S4000x128_S128x64_S4000x64_1_0_0_1_n_n none x y (constant (F := Ideal) Cert.KernelIdeal.S4000x64 .f32 0x00000000#32) (ix2 p q)
      = ∑ k : Fin 128, x (ix2 p k) * y (ix2 k q) := by
  simp only [matmul]
  rw [Ideal.matmul_constant_zero_apply, ← Equiv.sum_comp (ValueIdx.contrEquiv1 Cert.KernelIdeal.dot_S4000x128_S128x64_S4000x64_1_0_0_1_n_n 128 rfl rfl).symm]
  refine Finset.sum_congr rfl fun k _ => ?_
  have hk := ValueIdx.contrEquiv1_symm_val Cert.KernelIdeal.dot_S4000x128_S128x64_S4000x64_1_0_0_1_n_n 128 rfl rfl k
  have el : Cert.KernelIdeal.dot_S4000x128_S128x64_S4000x64_1_0_0_1_n_n.lhsIdx (ix2 p q) ((ValueIdx.contrEquiv1 Cert.KernelIdeal.dot_S4000x128_S128x64_S4000x64_1_0_0_1_n_n 128 rfl rfl).symm k) = ix2 p k := funext fun a => Fin.ext (by
    match a with
    | ⟨0, _⟩ => exact lhs_k0_0 _ _
    | ⟨1, _⟩ => exact (lhs_k0_1 _ _).trans hk)
  have er : Cert.KernelIdeal.dot_S4000x128_S128x64_S4000x64_1_0_0_1_n_n.rhsIdx (ix2 p q) ((ValueIdx.contrEquiv1 Cert.KernelIdeal.dot_S4000x128_S128x64_S4000x64_1_0_0_1_n_n 128 rfl rfl).symm k) = ix2 k q := funext fun a => Fin.ext (by
    match a with
    | ⟨0, _⟩ => exact (rhs_k0_0 _ _).trans hk
    | ⟨1, _⟩ => exact rhs_k0_1 _ _)
  rw [el, er]

/-! ## the kernel's [128,64] × [64,128] product: the operand indices, axis by axis -/

theorem lhs_k3_0 (i : Cert.KernelIdeal.S128x128.Idx) (q : Cert.KernelIdeal.dot_S128x64_S64x128_S128x128_1_0_0_1_n_n.contr.Idx) :
    (Cert.KernelIdeal.dot_S128x64_S64x128_S128x128_1_0_0_1_n_n.lhsIdx i q 0).val = (i 0).val := by
  unfold DotDims.lhsIdx
  rw [dif_neg (show ¬(0 : Fin Cert.KernelIdeal.S128x64.rank) ∈ Cert.KernelIdeal.dot_S128x64_S64x128_S128x128_1_0_0_1_n_n.lhsBatch by decide), dif_pos (show (0 : Fin Cert.KernelIdeal.S128x64.rank) ∈ Cert.KernelIdeal.dot_S128x64_S64x128_S128x128_1_0_0_1_n_n.lhsNonContracting by decide)]
  rfl
theorem lhs_k3_1 (i : Cert.KernelIdeal.S128x128.Idx) (q : Cert.KernelIdeal.dot_S128x64_S64x128_S128x128_1_0_0_1_n_n.contr.Idx) :
    (Cert.KernelIdeal.dot_S128x64_S64x128_S128x128_1_0_0_1_n_n.lhsIdx i q 1).val = (q ⟨0, by decide⟩).val :=
  Cert.KernelIdeal.dot_S128x64_S64x128_S128x128_1_0_0_1_n_n.lhsIdx_val_of_single rfl i q
theorem rhs_k3_0 (i : Cert.KernelIdeal.S128x128.Idx) (q : Cert.KernelIdeal.dot_S128x64_S64x128_S128x128_1_0_0_1_n_n.contr.Idx) :
    (Cert.KernelIdeal.dot_S128x64_S64x128_S128x128_1_0_0_1_n_n.rhsIdx i q 0).val = (q ⟨0, by decide⟩).val :=
  Cert.KernelIdeal.dot_S128x64_S64x128_S128x128_1_0_0_1_n_n.rhsIdx_val_of_single rfl i q
theorem rhs_k3_1 (i : Cert.KernelIdeal.S128x128.Idx) (q : Cert.KernelIdeal.dot_S128x64_S64x128_S128x128_1_0_0_1_n_n.contr.Idx) :
    (Cert.KernelIdeal.dot_S128x64_S64x128_S128x128_1_0_0_1_n_n.rhsIdx i q 1).val = (i 1).val := by
  unfold DotDims.rhsIdx
  rw [dif_neg (show ¬(1 : Fin Cert.KernelIdeal.S64x128.rank) ∈ Cert.KernelIdeal.dot_S128x64_S64x128_S128x128_1_0_0_1_n_n.rhsBatch by decide), dif_pos (show (1 : Fin Cert.KernelIdeal.S64x128.rank) ∈ Cert.KernelIdeal.dot_S128x64_S64x128_S128x128_1_0_0_1_n_n.rhsNonContracting by decide)]
  rfl

/-- Entry (p, q) of the product accumulated into the zero splat: the sum over the contraction coordinate k of
    the left operand at (p, k) times the right operand at (k, q). -/
theorem matmul_k3_apply {φ₁ φ₂ : FTy} (x : FVec Ideal Cert.KernelIdeal.S128x64 φ₁) (y : FVec Ideal Cert.KernelIdeal.S64x128 φ₂) (p : Fin 128) (q : Fin 128) :
    matmul (F := Ideal) Cert.KernelIdeal.dot_S128x64_S64x128_S128x128_1_0_0_1_n_n none x y (constant (F := Ideal) Cert.KernelIdeal.S128x128 .f32 0x00000000#32) (ix2 p q)
      = ∑ k : Fin 64, x (ix2 p k) * y (ix2 k q) := by
  simp only [matmul]
  rw [Ideal.matmul_constant_zero_apply, ← Equiv.sum_comp (ValueIdx.contrEquiv1 Cert.KernelIdeal.dot_S128x64_S64x128_S128x128_1_0_0_1_n_n 64 rfl rfl).symm]
  refine Finset.sum_congr rfl fun k _ => ?_
  have hk := ValueIdx.contrEquiv1_symm_val Cert.KernelIdeal.dot_S128x64_S64x128_S128x128_1_0_0_1_n_n 64 rfl rfl k
  have el : Cert.KernelIdeal.dot_S128x64_S64x128_S128x128_1_0_0_1_n_n.lhsIdx (ix2 p q) ((ValueIdx.contrEquiv1 Cert.KernelIdeal.dot_S128x64_S64x128_S128x128_1_0_0_1_n_n 64 rfl rfl).symm k) = ix2 p k := funext fun a => Fin.ext (by
    match a with
    | ⟨0, _⟩ => exact lhs_k3_0 _ _
    | ⟨1, _⟩ => exact (lhs_k3_1 _ _).trans hk)
  have er : Cert.KernelIdeal.dot_S128x64_S64x128_S128x128_1_0_0_1_n_n.rhsIdx (ix2 p q) ((ValueIdx.contrEquiv1 Cert.KernelIdeal.dot_S128x64_S64x128_S128x128_1_0_0_1_n_n 64 rfl rfl).symm k) = ix2 k q := funext fun a => Fin.ext (by
    match a with
    | ⟨0, _⟩ => exact (rhs_k3_0 _ _).trans hk
    | ⟨1, _⟩ => exact rhs_k3_1 _ _)
  rw [el, er]

/-! ## the reference's [100000,128] × [128,64] product: the operand indices, axis by axis -/

theorem lhs_r0_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem lhs_r0_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rhs_r0_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rhs_r0_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- Entry (p, q) of the host product: the sum over the contraction coordinate k of the left operand at (p, k)
    times the right operand at (k, q). -/
theorem dot_r0_apply {φ₁ φ₂ : FTy} (x : FVec Ideal Cert.ReferenceIdeal.S100000x128 φ₁) (y : FVec Ideal Cert.ReferenceIdeal.S128x64 φ₂) (p : Fin 100000) (q : Fin 64) :
    Host.dotGeneral (F := Ideal) Cert.ReferenceIdeal.dot_S100000x128_S128x64_S100000x64_1_0_0_1_n_n none x y (ix2 p q)
      = ∑ k : Fin 128, x (ix2 p k) * y (ix2 k q) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 p q) ((ValueIdx.contrEquiv1 Cert.ReferenceIdeal.dot_S100000x128_S128x64_S100000x64_1_0_0_1_n_n 128 rfl rfl).symm k) = ix2 p k := funext fun a => Fin.ext (by
    match a with
    | ⟨0, _⟩ => exact lhs_r0_0 _ _
    | ⟨1, _⟩ => exact (lhs_r0_1 _ _).trans hk)
  have er : Cert.ReferenceIdeal.dot_S100000x128_S128x64_S100000x64_1_0_0_1_n_n.rhsIdx (ix2 p q) ((ValueIdx.contrEquiv1 Cert.ReferenceIdeal.dot_S100000x128_S128x64_S100000x64_1_0_0_1_n_n 128 rfl rfl).symm k) = ix2 k q := funext fun a => Fin.ext (by
    match a with
    | ⟨0, _⟩ => exact (rhs_r0_0 _ _).trans hk
    | ⟨1, _⟩ => exact rhs_r0_1 _ _)
  rw [el, er]

/-! ## the reference's [128,64] × [64,128] product: the operand indices, axis by axis -/

theorem lhs_r3_0 (i : Cert.ReferenceIdeal.S128x128.Idx) (q : Cert.ReferenceIdeal.dot_S128x64_S64x128_S128x128_1_0_0_1_n_n.contr.Idx) :
    (Cert.ReferenceIdeal.dot_S128x64_S64x128_S128x128_1_0_0_1_n_n.lhsIdx i q 0).val = (i 0).val := by
  unfold DotDims.lhsIdx
  rw [dif_neg (show ¬(0 : Fin Cert.ReferenceIdeal.S128x64.rank) ∈ Cert.ReferenceIdeal.dot_S128x64_S64x128_S128x128_1_0_0_1_n_n.lhsBatch by decide), dif_pos (show (0 : Fin Cert.ReferenceIdeal.S128x64.rank) ∈ Cert.ReferenceIdeal.dot_S128x64_S64x128_S128x128_1_0_0_1_n_n.lhsNonContracting by decide)]
  rfl
theorem lhs_r3_1 (i : Cert.ReferenceIdeal.S128x128.Idx) (q : Cert.ReferenceIdeal.dot_S128x64_S64x128_S128x128_1_0_0_1_n_n.contr.Idx) :
    (Cert.ReferenceIdeal.dot_S128x64_S64x128_S128x128_1_0_0_1_n_n.lhsIdx i q 1).val = (q ⟨0, by decide⟩).val :=
  Cert.ReferenceIdeal.dot_S128x64_S64x128_S128x128_1_0_0_1_n_n.lhsIdx_val_of_single rfl i q
theorem rhs_r3_0 (i : Cert.ReferenceIdeal.S128x128.Idx) (q : Cert.ReferenceIdeal.dot_S128x64_S64x128_S128x128_1_0_0_1_n_n.contr.Idx) :
    (Cert.ReferenceIdeal.dot_S128x64_S64x128_S128x128_1_0_0_1_n_n.rhsIdx i q 0).val = (q ⟨0, by decide⟩).val :=
  Cert.ReferenceIdeal.dot_S128x64_S64x128_S128x128_1_0_0_1_n_n.rhsIdx_val_of_single rfl i q
theorem rhs_r3_1 (i : Cert.ReferenceIdeal.S128x128.Idx) (q : Cert.ReferenceIdeal.dot_S128x64_S64x128_S128x128_1_0_0_1_n_n.contr.Idx) :
    (Cert.ReferenceIdeal.dot_S128x64_S64x128_S128x128_1_0_0_1_n_n.rhsIdx i q 1).val = (i 1).val := by
  unfold DotDims.rhsIdx
  rw [dif_neg (show ¬(1 : Fin Cert.ReferenceIdeal.S64x128.rank) ∈ Cert.ReferenceIdeal.dot_S128x64_S64x128_S128x128_1_0_0_1_n_n.rhsBatch by decide), dif_pos (show (1 : Fin Cert.ReferenceIdeal.S64x128.rank) ∈ Cert.ReferenceIdeal.dot_S128x64_S64x128_S128x128_1_0_0_1_n_n.rhsNonContracting by decide)]
  rfl

/-- Entry (p, q) of the host product: the sum over the contraction coordinate k of the left operand at (p, k)
    times the right operand at (k, q). -/
theorem dot_r3_apply {φ₁ φ₂ : FTy} (x : FVec Ideal Cert.ReferenceIdeal.S128x64 φ₁) (y : FVec Ideal Cert.ReferenceIdeal.S64x128 φ₂) (p : Fin 128) (q : Fin 128) :
    Host.dotGeneral (F := Ideal) Cert.ReferenceIdeal.dot_S128x64_S64x128_S128x128_1_0_0_1_n_n none x y (ix2 p q)
      = ∑ k : Fin 64, x (ix2 p k) * y (ix2 k q) := by
  simp only [Host.dotGeneral]
  rw [Ideal.dotGeneral_apply, ← Equiv.sum_comp (ValueIdx.contrEquiv1 Cert.ReferenceIdeal.dot_S128x64_S64x128_S128x128_1_0_0_1_n_n 64 rfl rfl).symm]
  refine Finset.sum_congr rfl fun k _ => ?_
  have hk := ValueIdx.contrEquiv1_symm_val Cert.ReferenceIdeal.dot_S128x64_S64x128_S128x128_1_0_0_1_n_n 64 rfl rfl k
  have el : Cert.ReferenceIdeal.dot_S128x64_S64x128_S128x128_1_0_0_1_n_n.lhsIdx (ix2 p q) ((ValueIdx.contrEquiv1 Cert.ReferenceIdeal.dot_S128x64_S64x128_S128x128_1_0_0_1_n_n 64 rfl rfl).symm k) = ix2 p k := funext fun a => Fin.ext (by
    match a with
    | ⟨0, _⟩ => exact lhs_r3_0 _ _
    | ⟨1, _⟩ => exact (lhs_r3_1 _ _).trans hk)
  have er : Cert.ReferenceIdeal.dot_S128x64_S64x128_S128x128_1_0_0_1_n_n.rhsIdx (ix2 p q) ((ValueIdx.contrEquiv1 Cert.ReferenceIdeal.dot_S128x64_S64x128_S128x128_1_0_0_1_n_n 64 rfl rfl).symm k) = ix2 k q := funext fun a => Fin.ext (by
    match a with
    | ⟨0, _⟩ => exact (rhs_r3_0 _ _).trans hk
    | ⟨1, _⟩ => exact rhs_r3_1 _ _)
  rw [el, er]

end Cert.KernelIdeal.HandVal

end
-- ==== Proof.KI.Val0.lean ====
/-
  The value of the first kernel region at the ideal values, where a float is an extended real and every operation
  is exact. Grid point t multiplies rows 4000·t … 4000·t + 3999 of x by W₁ and writes that row block of the output;
  the roundings are the identity here, so the block is the exact product. The 25 row blocks tile the output array,
  hence after the region the array is the product x · W₁ of the arrays the region is entered from, which is what
  the reference's host product computes.
-/
import proofs.«411392_j53214644797442_2_alg».proof.Proof.KI.Reg0
import proofs.«411392_j53214644797442_2_alg».proof.Proof.KI.ValMat
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The product x · W₁, entry by entry: row r, column s is the sum over k of x at (r, k) times W₁ at (k, s). -/
abbrev G0 (x : S100000x128.Idx → EReal) (w : S128x64.Idx → EReal) : S100000x64.Idx → EReal :=
  fun i => ∑ k : Fin 128, x (ix2 (i 0) k) * w (ix2 k (i 1))

/-- The body's payload at (p, q): the roundings are the identity at the ideal values, so it is the product of the
    two loaded blocks there. -/
theorem pay0_apply (x0 : Vec Ideal S4000x128 .f32) (x1 : Vec Ideal S128x64 .f32) (p : Fin 4000) (q : Fin 64) :
    k0_pay1 x0 x1 (ix2 p q) = ∑ k : Fin 128, x0 (ix2 p k) * x1 (ix2 k q) := by
  unfold k0_pay1
  rw [truncf_apply, matmul_k0_apply]
  rfl

/-- The printed index maps over the 25 grid points: the row block of x moves with the output's row block, which is
    the point's own number; every other block index is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product of the arrays the region is entered from. -/
theorem flushed0_eq (c : Dev nD) (t : Fin cfg0.N) :
    (dat0 (F := Ideal) V c).flushed 2 t = ((cfg0.win 2).blk t).view.read (Elt Ideal) (G0 (V c main_arg0) (V c main_arg3)) := by
  show (cfg0.win 2).cut (grid0.coords t) ((dat0 (F := Ideal) V c).after 2 t) = _
  rw [after0_2]
  unfold out0_2
  rw [View.canon_unit_zero hz0]
  simp only [View.ld_unit_zero (S := S4000x128) hz0, View.ld_unit_zero (S := S128x64) hz0]
  obtain ⟨e0, e1, e2, e3, e4, e5⟩ := idx_facts0 t
  funext j
  obtain ⟨p, q, rfl⟩ : ∃ (p : Fin 4000) (q : Fin 64), j = ix2 p q := ⟨j 0, j 1, eq_ix2 j⟩
  show k0_pay1 (iblk0 V c 0 t) (iblk0 V c 1 t) (ix2 p q) = G0 (V c main_arg0) (V c main_arg3) (((cfg0.win 2).blk t).view.emb (ix2 p q))
  rw [pay0_apply]
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  have hx : iblk0 V c 0 t (ix2 p k) = V c main_arg0 (ix2 ((((cfg0.win 2).blk t).view.emb (ix2 p q)) 0) k) :=
      congrArg (V c main_arg0) h0
  have hw : iblk0 V c 1 t (ix2 k q) = V c main_arg3 (ix2 k ((((cfg0.win 2).blk t).view.emb (ix2 p q)) 1)) :=
      congrArg (V c main_arg3) h1
  rw [hx, hw]

/-- An index of the array is in point t's block iff each coordinate is in the block's range on its axis. -/
theorem mem_blk0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v29).slice (win0_2.rect t)).set ↔ _
  rw [View.set_slice_whole, Rect.mem_set_unit]
  exact Iff.rfl

/-- The 25 row blocks tile the array: row r lies in the block of point r / 4000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 4000 < 25 := by omega
  let t : Fin cfg0.N := ⟨(i 0).val / 4000, ht⟩
  obtain ⟨e0, e1, e2, e3, e4, e5⟩ := idx_facts0 t
  have e4' : win0_2.index t (0 : Fin 2) = (i 0).val / 4000 := e4
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The output array after the region is the product x · W₁ of the arrays it is entered from, entry by entry. -/
theorem final0 (c : Dev nD) : (dat0 (F := Ideal) V c).arrAt 2 cfg0.N = G0 (V c main_arg0) (V c main_arg3) :=
  (dat0 (F := Ideal) V c).arrAt_eq_of_cover 2 (G0 (V c main_arg0) (V c main_arg3)) (fun t _ => flushed0_eq V c t) cover0

/-- The reference's host product is the same function. -/
theorem ref0_eq (x : S100000x128.Idx → EReal) (w : S128x64.Idx → EReal) :
    Host.dotGeneral (F := Ideal) (φ₁ := .f32) (φ₂ := .f32) Cert.ReferenceIdeal.dot_S100000x128_S128x64_S100000x64_1_0_0_1_n_n none x w = G0 x w := by
  funext i
  obtain ⟨p, q, rfl⟩ : ∃ (p : Fin 100000) (q : Fin 64), i = ix2 p q := ⟨i 0, i 1, eq_ix2 i⟩
  exact dot_r0_apply x w p q

/-- Region 0: the output array after the region is the reference's product of x and W₁ as the region finds them. -/
theorem arrAt0_out (c : Dev nD) :
    (dat0 (F := Ideal) V c).arrAt 2 cfg0.N
      = Host.dotGeneral (F := Ideal) (φ₁ := .f32) (φ₂ := .f32) Cert.ReferenceIdeal.dot_S100000x128_S128x64_S100000x64_1_0_0_1_n_n none (V c main_arg0) (V c main_arg3) :=
  (final0 V c).trans (ref0_eq _ _).symm

end Cert.KernelIdeal.HandVal
end
-- ==== Proof.KI.BridgeB.lean ====
/-
  Through region 0 and the second stretch of host operations. Region 0 leaves the product x · W₁, the reference's
  first matrix product; the second stretch gathers its rows along the edges, scales them by the edge normalisation and
  sums them by destination, exactly as the reference does, so the aggregated messages are the reference's stage.
-/
import proofs.«411392_j53214644797442_2_alg».proof.Proof.KI.BridgeA
import proofs.«411392_j53214644797442_2_alg».proof.Proof.KI.Val0

set_option maxRecDepth 16384

noncomputable section

namespace Cert.KernelIdeal.HandVal

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg) (c : Dev nD)

/-- x leaves region 0 as launched. -/
theorem w2_arg0 : W2 m ρ c (Proc.devRef .tc main_arg0) = (m ((c.tc : Thread nD τ).loc main_arg0)) :=
  (W2_in m ρ c 0 rfl).trans (w1_keep m ρ c main_arg0 (by decide))

/-- W₁ leaves region 0 as launched. -/
theorem w2_arg3 : W2 m ρ c (Proc.devRef .tc main_arg3) = (m ((c.tc : Thread nD τ).loc main_arg3)) :=
  (W2_in m ρ c 1 rfl).trans (w1_keep m ρ c main_arg3 (by decide))

/-- An argument that is no array of region 0 leaves it as launched. -/
theorem w2_keep (r : Ref sig .tc) (h : r ∉ hostOps0_W) (hne : ∀ w, Pipeline.arrRef spec0 w ≠ r) : W2 m ρ c (Proc.devRef .tc r) = m ((c.tc : Thread nD τ).loc r) :=
  (W2_of_ne m ρ c r hne).trans (w1_keep m ρ c r h)

set_option maxHeartbeats 4000000 in
/-- Region 0's output is the reference's product x · W₁. -/
theorem r0 : W2 m ρ c (Proc.devRef .tc main_v29) = Cert.ReferenceIdeal.Read.val_main_v4 (F := Ideal) (m ((c.tc : Thread nD τ).loc main_arg0)) (m ((c.tc : Thread nD τ).loc main_arg3)) :=
  (W2_arr m ρ c 2).trans ((arrAt0_out (Vin0 m ρ) c).trans (by
    rw [show Vin0 m ρ c main_arg0 = (m ((c.tc : Thread nD τ).loc main_arg0)) from w1_keep m ρ c main_arg0 (by decide),
      show Vin0 m ρ c main_arg3 = (m ((c.tc : Thread nD τ).loc main_arg3)) from w1_keep m ρ c main_arg3 (by decide)]
    rfl))

/-- The source endpoints, untouched by region 0. -/
theorem w2_v1 : W2 m ρ c (Proc.devRef .tc main_v1) = Cert.ReferenceIdeal.Read.val_main_v1 (F := Ideal) (m ((c.tc : Thread nD τ).loc main_arg1)) :=
  (W2_of_ne m ρ c main_v1 (by decide)).trans (h0_v1 m ρ c)

/-- The destination endpoints, untouched by region 0. -/
theorem w2_v3 : W2 m ρ c (Proc.devRef .tc main_v3) = Cert.ReferenceIdeal.Read.val_main_v3 (F := Ideal) (m ((c.tc : Thread nD τ).loc main_arg1)) :=
  (W2_of_ne m ρ c main_v3 (by decide)).trans (h0_v3 m ρ c)

/-- The edge normalisation, untouched by region 0. -/
theorem w2_v25 : W2 m ρ c (Proc.devRef .tc main_v25) = Cert.ReferenceIdeal.Read.val_main_v26 (F := Ideal) (m ((c.tc : Thread nD τ).loc main_arg1)) :=
  (W2_of_ne m ρ c main_v25 (by decide)).trans (h0_v25 m ρ c)

/-- The inverse-degree column, untouched by region 0. -/
theorem w2_v28 : W2 m ρ c (Proc.devRef .tc main_v28) = Cert.ReferenceIdeal.Read.val_main_v42 (F := Ideal) (m ((c.tc : Thread nD τ).loc main_arg1)) :=
  (W2_of_ne m ρ c main_v28 (by decide)).trans (h0_v28 m ρ c)

set_option maxHeartbeats 4000000 in
/-- The first layer's aggregated messages. -/
theorem h1_v43 : W3 m ρ c (Proc.devRef .tc main_v43) = Cert.ReferenceIdeal.Read.val_main_v39 (F := Ideal) (m ((c.tc : Thread nD τ).loc main_arg0)) (m ((c.tc : Thread nD τ).loc main_arg1)) (m ((c.tc : Thread nD τ).loc main_arg3)) := by
  show StableHlo.after hostOps1 (W2 m ρ c) (Proc.devRef .tc main_v43) = _
  after_results
  rw [w2_v1, r0, w2_v25, w2_v3]
  rfl

set_option maxHeartbeats 4000000 in
/-- The first bias as a row. -/
theorem h1_v44 : W3 m ρ c (Proc.devRef .tc main_v44) = Cert.ReferenceIdeal.Read.val_main_v46 (F := Ideal) (m ((c.tc : Thread nD τ).loc main_arg4)) := by
  show StableHlo.after hostOps1 (W2 m ρ c) (Proc.devRef .tc main_v44) = _
  after_results
  refine Eq.trans (b := shapeCast S1x64 (m ((c.tc : Thread nD τ).loc main_arg4)) Cert.KernelIdeal.Facts₀.shapeCasts_S64_S1x64) ?_ ((reshape_row64 _).trans rfl)
  exact congrArg (fun (z : S64.Idx → Elt Ideal .f32) => shapeCast S1x64 z Cert.KernelIdeal.Facts₀.shapeCasts_S64_S1x64)
    (w2_keep m ρ c main_arg4 (by decide) (by decide))

/-- The product x · W₁, untouched by the second stretch. -/
theorem w3_v29 : W3 m ρ c (Proc.devRef .tc main_v29) = Cert.ReferenceIdeal.Read.val_main_v4 (F := Ideal) (m ((c.tc : Thread nD τ).loc main_arg0)) (m ((c.tc : Thread nD τ).loc main_arg3)) :=
  (W3_keep m ρ c main_v29 (by decide)).trans (r0 m ρ c)

/-- The inverse-degree column, untouched by the second stretch. -/
theorem w3_v28 : W3 m ρ c (Proc.devRef .tc main_v28) = Cert.ReferenceIdeal.Read.val_main_v42 (F := Ideal) (m ((c.tc : Thread nD τ).loc main_arg1)) :=
  (W3_keep m ρ c main_v28 (by decide)).trans (w2_v28 m ρ c)

/-- The source endpoints, untouched by the second stretch. -/
theorem w3_v1 : W3 m ρ c (Proc.devRef .tc main_v1) = Cert.ReferenceIdeal.Read.val_main_v1 (F := Ideal) (m ((c.tc : Thread nD τ).loc main_arg1)) :=
  (W3_keep m ρ c main_v1 (by decide)).trans (w2_v1 m ρ c)

/-- The destination endpoints, untouched by the second stretch. -/
theorem w3_v3 : W3 m ρ c (Proc.devRef .tc main_v3) = Cert.ReferenceIdeal.Read.val_main_v3 (F := Ideal) (m ((c.tc : Thread nD τ).loc main_arg1)) :=
  (W3_keep m ρ c main_v3 (by decide)).trans (w2_v3 m ρ c)

/-- The edge normalisation, untouched by the second stretch. -/
theorem w3_v25 : W3 m ρ c (Proc.devRef .tc main_v25) = Cert.ReferenceIdeal.Read.val_main_v26 (F := Ideal) (m ((c.tc : Thread nD τ).loc main_arg1)) :=
  (W3_keep m ρ c main_v25 (by decide)).trans (w2_v25 m ρ c)

/-- An argument the first two stretches do not write and that is no array of region 0 holds its launch contents at region 1's entry. -/
theorem w3_keep (r : Ref sig .tc) (h0 : r ∉ hostOps0_W) (h1 : r ∉ hostOps1_W) (hne : ∀ w, Pipeline.arrRef spec0 w ≠ r) : W3 m ρ c (Proc.devRef .tc r) = m ((c.tc : Thread nD τ).loc r) :=
  (W3_keep m ρ c r h1).trans (w2_keep m ρ c r h0 hne)

end Cert.KernelIdeal.HandVal

end
-- ==== Proof.KI.Val1.lean ====
/-
  The value of the second kernel region at the ideal floats. Each of the 25 grid points writes rows 4000·t … 4000·t + 3999
  of the output; at the ideal floats (rounding and widening are the identity, the matrix product is the exact sum) that row
  block is the same rows of  max(agg + xw · invdeg + b, 0) · W₂,  the inverse degrees' column and the bias row spread over
  the array. The blocks tile the array (row r lies in the block of point r / 4000), so the output array after the region
  is that one function of the five arrays the region is entered from, written with the reference's own product and
  broadcasts.
-/
import proofs.«411392_j53214644797442_2_alg».proof.Proof.KI.Reg1
import proofs.«411392_j53214644797442_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Idealize.ShloMosaic Idealize.ShloMosaic.TcCoe Idealize.SL.Sem
open Idealize.ShloMosaic.Pipeline (Dat)
open Cert.KernelIdeal Cert.KernelIdeal.Gen Cert.KernelIdeal.Hand
open Idealize.ShloMosaic.ValueIdx

open Idealize.ShloMosaic.ValueIdx

/-! ## The block's product at an index -/

theorem lhs_blk_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_blk_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_blk_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_blk_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The block's product onto the zero splat, read at row `p`, column `q`: the sum over the 64 inner indices. -/
theorem mm_blk_apply (l : FVec Ideal S4000x64 .bf16) (r : FVec Ideal S64x64 .bf16) (p : Fin 4000) (q : Fin 64) :
    matmul dot_S4000x64_S64x64_S4000x64_1_0_0_1_n_n none l r (constant (F := Ideal) S4000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_blk_0 _ _).trans hk
    | ⟨1, _⟩ => exact rhs_blk_1 _ _)
  rw [el, er]

/-- The inverse degrees' column spread over the 64 columns, read at an index. -/
theorem bcast_col_blk_apply (x : FVec Ideal S4000x1 .f32) (p : Fin 4000) (q : Fin 64) :
    broadcastTo S4000x64 x broadcasts_S4000x1_S4000x64 (ix2 p q) = x (ix2 p 0) :=
  broadcastTo_apply x _ (ix2 p q) (ix2 p 0) (fun a => match a with | ⟨0, _⟩ => rfl | ⟨1, _⟩ => rfl)

/-- The bias row spread over the 4000 rows, read at an index. -/
theorem bcast_row_blk_apply (x : FVec Ideal S1x64 .f32) (p : Fin 4000) (q : Fin 64) :
    broadcastTo S4000x64 x broadcasts_S1x64_S4000x64 (ix2 p q) = x (ix2 0 q) :=
  broadcastTo_apply x _ (ix2 p q) (ix2 0 q) (fun a => match a with | ⟨0, _⟩ => rfl | ⟨1, _⟩ => rfl)

/-- The body's payload at row `p`, column `q` of the block. -/
theorem pay1_apply (x0 : Vec Ideal S4000x64 .f32) (x1 : Vec Ideal S4000x64 .bf16) (x2 : Vec Ideal S4000x1 .f32) (x3 : Vec Ideal S1x64 .f32)
    (x4 : Vec Ideal S64x64 .f32) (p : Fin 4000) (q : Fin 64) :
    k1_pay1 (F := Ideal) x0 x1 x2 x3 x4 (ix2 p q)
      = ∑ k : Fin 64, max (x0 (ix2 p k) + x1 (ix2 p k) * x2 (ix2 p 0) + x3 (ix2 0 k)) 0 * x4 (ix2 k q) := by
  unfold k1_pay1
  simp only [truncf_apply, shapeCast_self]
  rw [mm_blk_apply]
  refine Finset.sum_congr rfl fun k _ => ?_
  simp only [truncf_apply, extf_apply, maximumf_apply, addf_apply, mulf_apply, broadcast_apply, bcast_col_blk_apply, bcast_row_blk_apply]
  rw [Ideal.ofBits_def, Ideal.ofBits_zero_f32]

/-! ## The reference's side at an index -/

theorem lhs_ref_0 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin S100000x64.rank) ∈ Cert.ReferenceIdeal.dot_S100000x64_S64x64_S100000x64_1_0_0_1_n_n.lhsBatch by decide), dif_pos (show (0 : Fin S100000x64.rank) ∈ Cert.ReferenceIdeal.dot_S100000x64_S64x64_S100000x64_1_0_0_1_n_n.lhsNonContracting by decide)]
  rfl
theorem lhs_ref_1 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhs_ref_0 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhs_ref_1 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin S64x64.rank) ∈ Cert.ReferenceIdeal.dot_S100000x64_S64x64_S100000x64_1_0_0_1_n_n.rhsBatch by decide), dif_pos (show (1 : Fin S64x64.rank) ∈ Cert.ReferenceIdeal.dot_S100000x64_S64x64_S100000x64_1_0_0_1_n_n.rhsNonContracting by decide)]
  rfl

/-- The whole array's product read at row `P`, column `q`: the sum over the 64 inner indices. -/
theorem dot_ref_apply (y : FVec Ideal S100000x64 .f32) (W : FVec Ideal S64x64 .f32) (P : Fin 100000) (q : Fin 64) :
    Host.dotGeneral (F := Ideal) Cert.ReferenceIdeal.dot_S100000x64_S64x64_S100000x64_1_0_0_1_n_n none y W (ix2 P q) = ∑ k : Fin 64, y (ix2 P k) * W (ix2 k q) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 P q) ((ValueIdx.contrEquiv1 Cert.ReferenceIdeal.dot_S100000x64_S64x64_S100000x64_1_0_0_1_n_n 64 rfl rfl).symm k) = ix2 P k := funext fun a => Fin.ext (by
    match a with
    | ⟨0, _⟩ => exact lhs_ref_0 _ _
    | ⟨1, _⟩ => exact (lhs_ref_1 _ _).trans hk)
  have er : Cert.ReferenceIdeal.dot_S100000x64_S64x64_S100000x64_1_0_0_1_n_n.rhsIdx (ix2 P q) ((ValueIdx.contrEquiv1 Cert.ReferenceIdeal.dot_S100000x64_S64x64_S100000x64_1_0_0_1_n_n 64 rfl rfl).symm k) = ix2 k q := funext fun a => Fin.ext (by
    match a with
    | ⟨0, _⟩ => exact (rhs_ref_0 _ _).trans hk
    | ⟨1, _⟩ => exact rhs_ref_1 _ _)
  rw [el, er]

/-- The layer's activation over the whole array: max(agg + xw · invdeg + b, 0), the column of inverse degrees and the bias
    row spread by the reference's own broadcasts. -/
def act1 (a xw : FVec Ideal S100000x64 .f32) (d : FVec Ideal S100000x1 .f32) (b : FVec Ideal S1x64 .f32) : FVec Ideal S100000x64 .f32 :=
  maximumf (addf (addf a (mulf xw (broadcastInDim S100000x64 ![0, 1] Cert.ReferenceIdeal.Facts₀.bcast_S100000x1_S100000x64_0_1 d)))
                 (broadcastInDim S100000x64 ![0, 1] Cert.ReferenceIdeal.Facts₀.bcast_S1x64_S100000x64_0_1 b))
           (broadcastInDim S100000x64 ![] Cert.ReferenceIdeal.Facts₀.bcast_S_S100000x64 (constant (F := Ideal) S_ .f32 0x00000000#32))

theorem act1_apply (a xw : FVec Ideal S100000x64 .f32) (d : FVec Ideal S100000x1 .f32) (b : FVec Ideal S1x64 .f32) (P : Fin 100000) (k : Fin 64) :
    act1 a xw d b (ix2 P k) = max (a (ix2 P k) + xw (ix2 P k) * d (ix2 P 0) + b (ix2 0 k)) 0 := by
  unfold act1
  simp only [maximumf_apply, addf_apply, mulf_apply]
  rw [broadcastInDim_apply ![0, 1] Cert.ReferenceIdeal.Facts₀.bcast_S100000x1_S100000x64_0_1 d (ix2 P k) (ix2 P 0) (fun a => match a with | ⟨0, _⟩ => rfl | ⟨1, _⟩ => rfl),
    broadcastInDim_apply ![0, 1] Cert.ReferenceIdeal.Facts₀.bcast_S1x64_S100000x64_0_1 b (ix2 P k) (ix2 0 k) (fun a => match a with | ⟨0, _⟩ => rfl | ⟨1, _⟩ => rfl),
    broadcastInDim_apply ![] Cert.ReferenceIdeal.Facts₀.bcast_S_S100000x64 (constant (F := Ideal) S_ .f32 0x00000000#32) (ix2 P k) ix0 (fun a => a.elim0),
    constant_apply, Ideal.ofBits_zero_f32]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- What the output array ends holding: the reference's product of the activation array with W₂. -/
def G1 (c : Dev nD) : S100000x64.Idx → Elt Ideal .bf16 :=
  Host.dotGeneral (F := Ideal) (φ₁ := .f32) (φ₂ := .f32) Cert.ReferenceIdeal.dot_S100000x64_S64x64_S100000x64_1_0_0_1_n_n none
    (act1 (V c main_v43) (V c main_v29) (V c main_v28) (V c main_v44)) (V c main_arg5)

/-- The windows' index maps, decided over the 25 grid points: the three row-blocked inputs and the output sit at row block
    `t`, column block 0; the bias row and W₂ at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `G1`. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero zero_offsets]
  simp only [View.ld_unit_zero (S := S4000x64) zero_offsets, View.ld_unit_zero (S := S4000x1) zero_offsets,
    View.ld_unit_zero (S := S1x64) zero_offsets, View.ld_unit_zero (S := S64x64) zero_offsets]
  obtain ⟨e00, e01, e10, e11, e20, e21, e30, e31, e40, e41, e50, e51⟩ := idx_facts1 t
  have ht : t.val < 25 := t.isLt
  funext j
  obtain ⟨p, q, rfl⟩ : ∃ (p : Fin 4000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = G1 V c (((cfg1.win 5).blk t).view.emb (ix2 p q))
  rw [pay1_apply]
  have hp : p.val < 4000 := p.isLt
  have hP : t.val * 4000 + p.val < 100000 := by omega
  have hemb : ((cfg1.win 5).blk t).view.emb (ix2 p q) = ix2 (⟨t.val * 4000 + p.val, hP⟩ : Fin 100000) q := by
      funext a; apply Fin.ext
      match a with
      | ⟨0, _⟩ => show win1_5.index t (0 : Fin 2) * 4000 + 1 * p.val = t.val * 4000 + p.val; omega
      | ⟨1, _⟩ => show win1_5.index t (1 : Fin 2) * 64 + 1 * q.val = q.val; omega
  rw [hemb]
  unfold G1
  rw [dot_ref_apply]
  refine Finset.sum_congr rfl fun k _ => ?_
  rw [act1_apply]
  have h0 : iblk1 V c 0 t (ix2 p k) = V c main_v43 (ix2 (⟨t.val * 4000 + p.val, hP⟩ : Fin 100000) k) := by
    show V c main_v43 (((cfg1.win 0).blk t).view.emb (ix2 p k)) = _
    exact congrArg (V c main_v43) (by
      funext a; apply Fin.ext
      match a with
      | ⟨0, _⟩ => show win1_0.index t (0 : Fin 2) * 4000 + 1 * p.val = t.val * 4000 + p.val; omega
      | ⟨1, _⟩ => show win1_0.index t (1 : Fin 2) * 64 + 1 * k.val = k.val; omega)
  have h1 : iblk1 V c 1 t (ix2 p k) = V c main_v29 (ix2 (⟨t.val * 4000 + p.val, hP⟩ : Fin 100000) k) := by
    show V c main_v29 (((cfg1.win 1).blk t).view.emb (ix2 p k)) = _
    exact congrArg (V c main_v29) (by
      funext a; apply Fin.ext
      match a with
      | ⟨0, _⟩ => show win1_1.index t (0 : Fin 2) * 4000 + 1 * p.val = t.val * 4000 + p.val; omega
      | ⟨1, _⟩ => show win1_1.index t (1 : Fin 2) * 64 + 1 * k.val = k.val; omega)
  have h2 : iblk1 V c 2 t (ix2 p 0) = V c main_v28 (ix2 (⟨t.val * 4000 + p.val, hP⟩ : Fin 100000) 0) := by
    show V c main_v28 (((cfg1.win 2).blk t).view.emb (ix2 p 0)) = _
    exact congrArg (V c main_v28) (by
      funext a; apply Fin.ext
      match a with
      | ⟨0, _⟩ => show win1_2.index t (0 : Fin 2) * 4000 + 1 * p.val = t.val * 4000 + p.val; omega
      | ⟨1, _⟩ => show win1_2.index t (1 : Fin 2) * 1 + 1 * 0 = 0; omega)
  have h3 : iblk1 V c 3 t (ix2 0 k) = V c main_v44 (ix2 0 k) := by
    show V c main_v44 (((cfg1.win 3).blk t).view.emb (ix2 0 k)) = _
    exact congrArg (V c main_v44) (by
      funext a; apply Fin.ext
      match a with
      | ⟨0, _⟩ => show win1_3.index t (0 : Fin 2) * 1 + 1 * 0 = 0; omega
      | ⟨1, _⟩ => show win1_3.index t (1 : Fin 2) * 64 + 1 * k.val = k.val; omega)
  have h4 : iblk1 V c 4 t (ix2 k q) = V c main_arg5 (ix2 k q) := by
    show V c main_arg5 (((cfg1.win 4).blk t).view.emb (ix2 k q)) = _
    exact congrArg (V c main_arg5) (by
      funext a; apply Fin.ext
      match a with
      | ⟨0, _⟩ => show win1_4.index t (0 : Fin 2) * 64 + 1 * k.val = k.val; omega
      | ⟨1, _⟩ => show win1_4.index t (1 : Fin 2) * 64 + 1 * q.val = q.val; omega)
  rw [h0, h1, h2, h3, h4]

/-- An index of the array is in point `t`'s block iff each coordinate is in the block's range on its axis. -/
theorem mem_blk1 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v45).slice (win1_5.rect t)).set ↔ _
  rw [View.set_slice_whole, Rect.mem_set_unit]
  exact Iff.rfl

/-- Every index of the array is in some point's block: row `r` is in the block of point `r / 4000`. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, et⟩ : ∃ t : Fin cfg1.N, t.val = (i 0).val / 4000 :=
    ⟨⟨(i 0).val / 4000, by rw [show cfg1.N = 25 from N_1]; omega⟩, rfl⟩
  obtain ⟨-, -, -, -, -, -, -, -, -, -, e50, e51⟩ := idx_facts1 t
  refine ⟨t, flush1_5 t, ?_⟩
  rw [mem_blk1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

/-- The output array after the region is `G1` of the arrays the region is entered from. -/
theorem arrAt1_G1 (c : Dev nD) : (dat1 (F := Ideal) V c).arrAt 5 cfg1.N = G1 V c :=
  (dat1 (F := Ideal) V c).arrAt_eq_of_cover 5 (G1 V c) (fun t _ => flushed1_eq V c t) cover1

/-- The same with `G1` written out: the reference's product, with W₂, of max(agg + xw · invdeg + b, 0). -/
theorem arrAt1_out (c : Dev nD) :
    (Cert.KernelIdeal.Hand.dat1 (F := Ideal) V c).arrAt 5 cfg1.N =
      Host.dotGeneral (F := Ideal) (φ₁ := .f32) (φ₂ := .f32) Cert.ReferenceIdeal.dot_S100000x64_S64x64_S100000x64_1_0_0_1_n_n none
        (maximumf (addf (addf (V c main_v43) (mulf (V c main_v29) (broadcastInDim S100000x64 ![0, 1] Cert.ReferenceIdeal.Facts₀.bcast_S100000x1_S100000x64_0_1 (V c main_v28))))
                       (broadcastInDim S100000x64 ![0, 1] Cert.ReferenceIdeal.Facts₀.bcast_S1x64_S100000x64_0_1 (V c main_v44)))
                  (broadcastInDim S100000x64 ![] Cert.ReferenceIdeal.Facts₀.bcast_S_S100000x64 (constant (F := Ideal) S_ .f32 0x00000000#32)))
        (V c main_arg5) :=
  arrAt1_G1 V c

end Cert.KernelIdeal.HandVal

end
-- ==== Proof.KI.BridgeC.lean ====
/-
  Through region 1 and the third stretch of host operations. Region 1 leaves relu(agg + xw · invdeg + b) · W₂, the
  reference's second matrix product; the third stretch aggregates it along the edges as the reference does (the
  reference computes the degrees and the edge normalisation a second time, by the same operations of the same
  argument: the same values).
-/
import proofs.«411392_j53214644797442_2_alg».proof.Proof.KI.BridgeB
import proofs.«411392_j53214644797442_2_alg».proof.Proof.KI.Val1

set_option maxRecDepth 16384

noncomputable section

namespace Cert.KernelIdeal.HandVal

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg) (c : Dev nD)

set_option maxHeartbeats 4000000 in
/-- Region 1's output is the reference's second product. -/
theorem r1 : W4 m ρ c (Proc.devRef .tc main_v45) = Cert.ReferenceIdeal.Read.val_main_v50 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (W4_arr m ρ c 5).trans ((arrAt1_out (Vin1 m ρ) c).trans (by
    rw [show Vin1 m ρ c main_v43 = _ from h1_v43 m ρ c, show Vin1 m ρ c main_v29 = _ from w3_v29 m ρ c,
      show Vin1 m ρ c main_v28 = _ from w3_v28 m ρ c, show Vin1 m ρ c main_v44 = _ from h1_v44 m ρ c,
      show Vin1 m ρ c main_arg5 = _ from w3_keep m ρ c main_arg5 (by decide) (by decide) (by decide)]
    rfl))

/-- The source endpoints, untouched by region 1. -/
theorem w4_v1 : W4 m ρ c (Proc.devRef .tc main_v1) = Cert.ReferenceIdeal.Read.val_main_v1 (F := Ideal) (m ((c.tc : Thread nD τ).loc main_arg1)) :=
  (W4_of_ne m ρ c main_v1 (by decide)).trans (w3_v1 m ρ c)

/-- The destination endpoints, untouched by region 1. -/
theorem w4_v3 : W4 m ρ c (Proc.devRef .tc main_v3) = Cert.ReferenceIdeal.Read.val_main_v3 (F := Ideal) (m ((c.tc : Thread nD τ).loc main_arg1)) :=
  (W4_of_ne m ρ c main_v3 (by decide)).trans (w3_v3 m ρ c)

/-- The edge normalisation, untouched by region 1. -/
theorem w4_v25 : W4 m ρ c (Proc.devRef .tc main_v25) = Cert.ReferenceIdeal.Read.val_main_v26 (F := Ideal) (m ((c.tc : Thread nD τ).loc main_arg1)) :=
  (W4_of_ne m ρ c main_v25 (by decide)).trans (w3_v25 m ρ c)

/-- The inverse-degree column, an input of region 1. -/
theorem w4_v28 : W4 m ρ c (Proc.devRef .tc main_v28) = Cert.ReferenceIdeal.Read.val_main_v42 (F := Ideal) (m ((c.tc : Thread nD τ).loc main_arg1)) :=
  (W4_in m ρ c 2 rfl).trans (w3_v28 m ρ c)

/-- An argument the first two stretches do not write and that is no array of regions 0 and 1 leaves region 1 as launched. -/
theorem w4_keep (r : Ref sig .tc) (h0 : r ∉ hostOps0_W) (h1 : r ∉ hostOps1_W) (hne0 : ∀ w, Pipeline.arrRef spec0 w ≠ r) (hne1 : ∀ w, Pipeline.arrRef spec1 w ≠ r) : W4 m ρ c (Proc.devRef .tc r) = m ((c.tc : Thread nD τ).loc r) :=
  (W4_of_ne m ρ c r hne1).trans (w3_keep m ρ c r h0 h1 hne0)

set_option maxHeartbeats 4000000 in
/-- The second layer's aggregated messages. -/
theorem h2_v59 : W5 m ρ c (Proc.devRef .tc main_v59) = Cert.ReferenceIdeal.Read.val_main_v85 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps2 (W4 m ρ c) (Proc.devRef .tc main_v59) = _
  after_results
  rw [w4_v1 m ρ c, r1 m ρ c, w4_v25 m ρ c, w4_v3 m ρ c]
  rfl

set_option maxHeartbeats 4000000 in
/-- The second bias as a row. -/
theorem h2_v60 : W5 m ρ c (Proc.devRef .tc main_v60) = Cert.ReferenceIdeal.Read.val_main_v92 (F := Ideal) (m ((c.tc : Thread nD τ).loc main_arg6)) := by
  show StableHlo.after hostOps2 (W4 m ρ c) (Proc.devRef .tc main_v60) = _
  after_results
  refine Eq.trans (b := shapeCast S1x64 ((m ((c.tc : Thread nD τ).loc main_arg6)) : (⟨S64, .f32⟩ : BufTy).Contents (Elt Ideal)) Cert.KernelIdeal.Facts₀.shapeCasts_S64_S1x64) ?_ ((reshape_row64 _).trans rfl)
  exact congrArg (fun z => shapeCast S1x64 z Cert.KernelIdeal.Facts₀.shapeCasts_S64_S1x64)
    (w4_keep m ρ c main_arg6 (by decide) (by decide) (by decide) (by decide))

set_option maxHeartbeats 4000000 in
/-- The graph ids as a column. -/
theorem h2_v61 : W5 m ρ c (Proc.devRef .tc main_v61) = Cert.ReferenceIdeal.Read.val_main_v97 (F := Ideal) (m ((c.tc : Thread nD τ).loc main_arg2)) := by
  show StableHlo.after hostOps2 (W4 m ρ c) (Proc.devRef .tc main_v61) = _
  after_results
  refine Eq.trans (b := shapeCast S100000x1 ((m ((c.tc : Thread nD τ).loc main_arg2)) : (⟨S100000, .i32⟩ : BufTy).Contents (Elt Ideal)) Cert.KernelIdeal.Facts₀.shapeCasts_S100000_S100000x1) ?_ ((reshape_col _).trans rfl)
  exact congrArg (fun z => shapeCast S100000x1 z Cert.KernelIdeal.Facts₀.shapeCasts_S100000_S100000x1)
    (w4_keep m ρ c main_arg2 (by decide) (by decide) (by decide) (by decide))

/-- The second product, untouched by the third stretch. -/
theorem w5_v45 : W5 m ρ c (Proc.devRef .tc main_v45) = Cert.ReferenceIdeal.Read.val_main_v50 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (W5_keep m ρ c main_v45 (by decide)).trans (r1 m ρ c)

set_option maxHeartbeats 4000000 in
/-- The inverse-degree column is the one the reference computes again for the second layer. -/
theorem w5_v28 : W5 m ρ c (Proc.devRef .tc main_v28) = Cert.ReferenceIdeal.Read.val_main_v88 (F := Ideal) (m ((c.tc : Thread nD τ).loc main_arg1)) :=
  (((W5_keep m ρ c main_v28 (by decide)).trans (w4_v28 m ρ c) :
    W5 m ρ c (Proc.devRef .tc main_v28) = Cert.ReferenceIdeal.Read.val_main_v42 (F := Ideal) (m ((c.tc : Thread nD τ).loc main_arg1)))).trans rfl

/-- An argument no stretch so far writes and that is no array of regions 0 and 1 holds its launch contents at region 2's entry. -/
theorem w5_keep (r : Ref sig .tc) (h0 : r ∉ hostOps0_W) (h1 : r ∉ hostOps1_W) (h2 : r ∉ hostOps2_W) (hne0 : ∀ w, Pipeline.arrRef spec0 w ≠ r) (hne1 : ∀ w, Pipeline.arrRef spec1 w ≠ r) : W5 m ρ c (Proc.devRef .tc r) = m ((c.tc : Thread nD τ).loc r) :=
  (W5_keep m ρ c r h2).trans (w4_keep m ρ c r h0 h1 hne0 hne1)

end Cert.KernelIdeal.HandVal

end
-- ==== Proof.KI.Val2Math.lean ====
/-
  The pooling kernel's arithmetic at the exact values. One step of its body adds to the carried [128,64] block the
  product of the transposed one-hot matrix of a block's 4000 graph ids (lane g of row r is 1 where the id is g, else 0)
  with the block's activations max(agg + xw · invdeg + bias, 0): at (g, j) that is the carried value plus the sum over
  the rows r of (id r = g ? 1 : 0) · activation (r, j). The carried block starts at zero, so after the positions up to
  n it holds the sum over those positions' blocks and their rows of the one-hot products.
-/
import proofs.«411392_j53214644797442_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.HandVal

open Idealize.ShloMosaic Idealize.ShloMosaic.TcCoe Idealize.SL.Sem Idealize.ShloMosaic.ValueIdx
open Cert.KernelIdeal Cert.KernelIdeal.Gen

theorem lhs_k2_0 (i : S128x64.Idx) (q : dot_S4000x128_S4000x64_S128x64_0_0_1_1_n_n.contr.Idx) :
    (dot_S4000x128_S4000x64_S128x64_0_0_1_1_n_n.lhsIdx i q 0).val = (q ⟨0, by decide⟩).val :=
  dot_S4000x128_S4000x64_S128x64_0_0_1_1_n_n.lhsIdx_val_of_single rfl i q

theorem lhs_k2_1 (i : S128x64.Idx) (q : dot_S4000x128_S4000x64_S128x64_0_0_1_1_n_n.contr.Idx) :
    (dot_S4000x128_S4000x64_S128x64_0_0_1_1_n_n.lhsIdx i q 1).val = (i 0).val := by
  unfold DotDims.lhsIdx
  rw [dif_neg (show ¬(1 : Fin S4000x128.rank) ∈ dot_S4000x128_S4000x64_S128x64_0_0_1_1_n_n.lhsBatch by decide), dif_pos (show (1 : Fin S4000x128.rank) ∈ dot_S4000x128_S4000x64_S128x64_0_0_1_1_n_n.lhsNonContracting by decide)]
  rfl

theorem rhs_k2_0 (i : S128x64.Idx) (q : dot_S4000x128_S4000x64_S128x64_0_0_1_1_n_n.contr.Idx) :
    (dot_S4000x128_S4000x64_S128x64_0_0_1_1_n_n.rhsIdx i q 0).val = (q ⟨0, by decide⟩).val :=
  dot_S4000x128_S4000x64_S128x64_0_0_1_1_n_n.rhsIdx_val_of_single rfl i q

theorem rhs_k2_1 (i : S128x64.Idx) (q : dot_S4000x128_S4000x64_S128x64_0_0_1_1_n_n.contr.Idx) :
    (dot_S4000x128_S4000x64_S128x64_0_0_1_1_n_n.rhsIdx i q 1).val = (i 1).val := by
  unfold DotDims.rhsIdx
  rw [dif_neg (show ¬(1 : Fin S4000x64.rank) ∈ dot_S4000x128_S4000x64_S128x64_0_0_1_1_n_n.rhsBatch by decide), dif_pos (show (1 : Fin S4000x64.rank) ∈ dot_S4000x128_S4000x64_S128x64_0_0_1_1_n_n.rhsNonContracting by decide)]
  rfl

/-- The one-hot weight: 1 where the id word is the lane's number, 0 elsewhere. -/
def hot (w : BitVec 32) (g : Fin 128) : EReal := if w = BitVec.ofNat 32 g.val then 1 else 0

/-- A row of the activation: max(agg + xw · invdeg + bias, 0) at row r, column j of a block. -/
def act (a : Vec Ideal S4000x64 .f32) (x : Vec Ideal S4000x64 .bf16) (d : Vec Ideal S4000x1 .f32)
    (b : Vec Ideal S1x64 .f32) (r : Fin 4000) (j : Fin 64) : EReal :=
  max (a (ix2 r j) + x (ix2 r j) * d (ix2 r 0) + b (ix2 0 j)) 0

/-- The one-bit word of an equality test, widened to 32 bits and converted as a signed integer, is 1 where the two
    words agree and 0 elsewhere. -/
theorem onehot_word (w v : BitVec 32) :
    FloatOps.sitofp (F := Ideal) .f32 ((IntOp.cmpi .eq w v).setWidth 32) = if w = v then (1 : EReal) else 0 := by
  show (((((IntOp.cmpi .eq w v).setWidth 32).toInt : ℤ) : ℝ) : EReal) = _
  by_cases h : w = v
  · rw [if_pos h]
    have e : IntOp.cmpi .eq w v = 1#1 := by simp [IntOp.cmpi, h]
    have e1 : ((1#1 : BitVec 1).setWidth 32).toInt = 1 := by decide
    rw [e, e1, Int.cast_one, EReal.coe_one]
  · rw [if_neg h]
    have e : IntOp.cmpi .eq w v = 0#1 := by
      show BitVec.ofBool (w == v) = 0#1
      rw [beq_eq_false_iff_ne.mpr h]; rfl
    have e1 : ((0#1 : BitVec 1).setWidth 32).toInt = 0 := by decide
    rw [e, e1, Int.cast_zero, EReal.coe_zero]

/-- The accumulator's first value: zeros. -/
theorem k2_pay1_apply (i : S128x64.Idx) : k2_pay1 (F := Ideal) i = 0 := by
  unfold Gen.k2_pay1
  simp only [shapeCast_self]
  exact Ideal.ofBits_zero_f32

/-- One step of the pooling body at an index: the carried value plus, over the block's 4000 rows, the one-hot weight
    of the row's id against lane g times the row's activation at column j (the product contracts the row axis of both
    operands). -/
theorem k2_pay2_apply (a : Vec Ideal S4000x64 .f32) (x : Vec Ideal S4000x64 .bf16) (d : Vec Ideal S4000x1 .f32)
    (b : Vec Ideal S1x64 .f32) (ids : Vec Ideal S4000x1 .i32) (acc : Vec Ideal S128x64 .f32) (g : Fin 128) (j : Fin 64) :
    k2_pay2 (F := Ideal) a x d b ids acc (ix2 g j)
      = acc (ix2 g j) + ∑ r : Fin 4000, hot (ids (ix2 r 0)) g * act a x d b r j := by
  unfold Gen.k2_pay2
  simp only [shapeCast_self]
  rw [addf_apply]
  congr 1
  simp only [matmul]
  rw [Ideal.matmul_constant_zero_apply, ← Equiv.sum_comp (contrEquiv1 dot_S4000x128_S4000x64_S128x64_0_0_1_1_n_n 4000 rfl rfl).symm]
  refine Finset.sum_congr rfl fun r _ => ?_
  have hk := contrEquiv1_symm_val dot_S4000x128_S4000x64_S128x64_0_0_1_1_n_n 4000 rfl rfl r
  have el : dot_S4000x128_S4000x64_S128x64_0_0_1_1_n_n.lhsIdx (ix2 g j) ((contrEquiv1 dot_S4000x128_S4000x64_S128x64_0_0_1_1_n_n 4000 rfl rfl).symm r) = ix2 r g := funext fun a => Fin.ext (by
    match a with
    | ⟨0, _⟩ => exact (lhs_k2_0 _ _).trans hk
    | ⟨1, _⟩ => exact lhs_k2_1 _ _)
  have er : dot_S4000x128_S4000x64_S128x64_0_0_1_1_n_n.rhsIdx (ix2 g j) ((contrEquiv1 dot_S4000x128_S4000x64_S128x64_0_0_1_1_n_n 4000 rfl rfl).symm r) = ix2 r j := funext fun a => Fin.ext (by
    match a with
    | ⟨0, _⟩ => exact (rhs_k2_0 _ _).trans hk
    | ⟨1, _⟩ => exact rhs_k2_1 _ _)
  rw [el, er]
  have hd : broadcastTo S4000x64 d broadcasts_S4000x1_S4000x64 (ix2 r j) = d (ix2 r 0) :=
    broadcastTo_apply d broadcasts_S4000x1_S4000x64 (ix2 r j) (ix2 r 0) (fun a => by
      match a with
      | ⟨0, _⟩ => show r.val = if (4000 : ℕ) = 1 then 0 else r.val; rw [if_neg (by decide)]
      | ⟨1, _⟩ => show (0 : ℕ) = if (1 : ℕ) = 1 then 0 else j.val; rw [if_pos rfl])
  have hb : broadcastTo S4000x64 b broadcasts_S1x64_S4000x64 (ix2 r j) = b (ix2 0 j) :=
    broadcastTo_apply b broadcasts_S1x64_S4000x64 (ix2 r j) (ix2 0 j) (fun a => by
      match a with
      | ⟨0, _⟩ => show (0 : ℕ) = if (1 : ℕ) = 1 then 0 else r.val; rw [if_pos rfl]
      | ⟨1, _⟩ => show j.val = if (64 : ℕ) = 1 then 0 else j.val; rw [if_neg (by decide)])
  have hi : broadcastTo S4000x128 ids broadcasts_S4000x1_S4000x128 (ix2 r g) = ids (ix2 r 0) :=
    broadcastTo_apply ids broadcasts_S4000x1_S4000x128 (ix2 r g) (ix2 r 0) (fun a => by
      match a with
      | ⟨0, _⟩ => show r.val = if (4000 : ℕ) = 1 then 0 else r.val; rw [if_neg (by decide)]
      | ⟨1, _⟩ => show (0 : ℕ) = if (1 : ℕ) = 1 then 0 else g.val; rw [if_pos rfl])
  refine congrArg₂ (· * ·) ?_ ?_
  · show FloatOps.sitofp (F := Ideal) .f32 ((IntOp.cmpi .eq (broadcastTo S4000x128 ids broadcasts_S4000x1_S4000x128 (ix2 r g)) (iota .tc S4000x128 32 [1] iota_S4000x128_d1_w32 (ix2 r g))).setWidth 32) = _
    rw [onehot_word, iota_single_apply, hi]
    rfl
  · show max (a (ix2 r j) + x (ix2 r j) * broadcastTo S4000x64 d broadcasts_S4000x1_S4000x64 (ix2 r j) + broadcastTo S4000x64 b broadcasts_S1x64_S4000x64 (ix2 r j)) (Ideal.ofBits .f32 0#32) = _
    rw [hd, hb, Ideal.ofBits_zero_f32]
    rfl

/-- The accumulation over the grid: a family obeying the body's recurrence holds, after position n, the sum over the
    positions up to n and over each block's rows of the one-hot products. -/
theorem fold_pay2 {N : ℕ} (A : Fin N → Vec Ideal S4000x64 .f32) (X : Fin N → Vec Ideal S4000x64 .bf16)
    (D : Fin N → Vec Ideal S4000x1 .f32) (B : Fin N → Vec Ideal S1x64 .f32) (I : Fin N → Vec Ideal S4000x1 .i32)
    (acc : (n : ℕ) → n < N → Vec Ideal S128x64 .f32)
    (h0 : ∀ hn : 0 < N, acc 0 hn = k2_pay2 (A ⟨0, hn⟩) (X ⟨0, hn⟩) (D ⟨0, hn⟩) (B ⟨0, hn⟩) (I ⟨0, hn⟩) (k2_pay1 (F := Ideal)))
    (hs : ∀ (n : ℕ) (hn : n + 1 < N), acc (n + 1) hn = k2_pay2 (A ⟨n + 1, hn⟩) (X ⟨n + 1, hn⟩) (D ⟨n + 1, hn⟩) (B ⟨n + 1, hn⟩) (I ⟨n + 1, hn⟩) (acc n (Nat.lt_of_succ_lt hn)))
    (n : ℕ) (hn : n < N) (g : Fin 128) (j : Fin 64) :
    acc n hn (ix2 g j) = ∑ t : Fin N, if t.val ≤ n then ∑ r : Fin 4000, hot (I t (ix2 r 0)) g * act (A t) (X t) (D t) (B t) r j else 0 := by
  induction n with
  | zero =>
    rw [h0 hn, k2_pay2_apply, k2_pay1_apply, zero_add, Finset.sum_eq_single (⟨0, hn⟩ : Fin N)]
    · rw [if_pos (Nat.le_refl 0)]
    · intro t _ ht
      rw [if_neg]
      intro h0'
      exact ht (Fin.ext (Nat.le_zero.mp h0'))
    · intro h; exact absurd (Finset.mem_univ _) h
  | succ n ih =>
    rw [hs n hn, k2_pay2_apply, ih (Nat.lt_of_succ_lt hn)]
    have split : ∀ t : Fin N, (if t.val ≤ n + 1 then ∑ r : Fin 4000, hot (I t (ix2 r 0)) g * act (A t) (X t) (D t) (B t) r j else 0)
        = (if t.val ≤ n then ∑ r : Fin 4000, hot (I t (ix2 r 0)) g * act (A t) (X t) (D t) (B t) r j else 0)
          + (if t = (⟨n + 1, hn⟩ : Fin N) then ∑ r : Fin 4000, hot (I t (ix2 r 0)) g * act (A t) (X t) (D t) (B t) r j else 0) := by
      intro t
      by_cases h1 : t.val ≤ n
      · have h2 : t ≠ (⟨n + 1, hn⟩ : Fin N) := fun e => by rw [e] at h1; exact Nat.not_succ_le_self n h1
        rw [if_pos h1, if_pos (Nat.le_succ_of_le h1), if_neg h2, add_zero]
      · by_cases h2 : t = (⟨n + 1, hn⟩ : Fin N)
        · rw [if_neg h1, if_pos h2, if_pos (by rw [h2]), zero_add]
        · have h3 : ¬ t.val ≤ n + 1 := fun h => h2 (Fin.ext (by show t.val = n + 1; omega))
          rw [if_neg h1, if_neg h2, if_neg h3, add_zero]
    rw [Finset.sum_congr rfl (fun t _ => split t), Finset.sum_add_distrib, Finset.sum_ite_eq' Finset.univ (⟨n + 1, hn⟩ : Fin N), if_pos (Finset.mem_univ _)]

end Cert.KernelIdeal.HandVal
-- ==== Proof.KI.Val2Ref.lean ====
/-
  The reference's segment sum at the exact values. The scatter's dimension numbers send update element (i, q) to the
  result element (id i, q), the id word read as a signed integer and not clamped; an id outside 0 … 127 lands nowhere.
  So the result at (g, j) is the operand there plus the sum over the 100000 rows whose id is g of the update's
  element (i, j). A lane number 0 … 127 written as a 32-bit word is that number when read signed, so "the id word is
  lane g's number" and "the id read signed is g" are the same condition.
-/
import proofs.«411392_j53214644797442_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.HandVal

open Idealize.ShloMosaic Idealize.SL.Sem Idealize.ShloMosaic.ValueIdx
open Cert.ReferenceIdeal

theorem seg_start0 (p : S100000x64.Idx) (idx : IVec S100000x1 32) :
    scatter_S128x64_S100000x1_S100000x64_1_0_0_1.start p idx 0 = (idx (ix2 (p 0) 0)).toInt := by
  unfold ScatterDims.start
  rw [dif_pos (show (0 : Fin S128x64.rank) ∈ scatter_S128x64_S100000x1_S100000x64_1_0_0_1.scatterDimsToOperandDims by decide)]
  refine congrArg (fun k => (idx k).toInt) (funext fun b => ?_)
  match b with
  | ⟨0, _⟩ => exact Fin.ext rfl
  | ⟨1, _⟩ => exact Fin.ext rfl

theorem seg_start1 (p : S100000x64.Idx) (idx : IVec S100000x1 32) :
    scatter_S128x64_S100000x1_S100000x64_1_0_0_1.start p idx 1 = 0 := by
  unfold ScatterDims.start
  rw [dif_neg (show ¬ (1 : Fin S128x64.rank) ∈ scatter_S128x64_S100000x1_S100000x64_1_0_0_1.scatterDimsToOperandDims by decide)]

theorem seg_window0 (p : S100000x64.Idx) :
    scatter_S128x64_S100000x1_S100000x64_1_0_0_1.window p 0 = 0 := by
  unfold ScatterDims.window
  rw [dif_neg (show ¬ (0 : Fin S128x64.rank) ∈ scatter_S128x64_S100000x1_S100000x64_1_0_0_1.sKept by decide)]

theorem seg_window1 (p : S100000x64.Idx) :
    scatter_S128x64_S100000x1_S100000x64_1_0_0_1.window p 1 = (p 1).val := by
  unfold ScatterDims.window
  rw [dif_pos (show (1 : Fin S128x64.rank) ∈ scatter_S128x64_S100000x1_S100000x64_1_0_0_1.sKept by decide)]
  rfl

/-- Where an update row lands: update (i, q) goes to result element (id i, q), the id read signed; it lands on
    (g, j) exactly when the row's id is g and q = j (an id outside 0 … 127 lands nowhere). -/
theorem seg_resultIdx_iff (p : S100000x64.Idx) (idx : IVec S100000x1 32) (g : Fin 128) (j : Fin 64) :
    scatter_S128x64_S100000x1_S100000x64_1_0_0_1.resultIdx? p idx = some (ix2 g j)
      ↔ (idx (ix2 (p 0) 0)).toInt = (g.val : ℤ) ∧ p 1 = j := by
  have hg : g.val < 128 := g.isLt
  have hj : j.val < 64 := j.isLt
  have hp1 : (p 1).val < 64 := (p 1).isLt
  unfold ScatterDims.resultIdx?
  constructor
  · intro h
    split at h
    · rename_i hall
      have e := Option.some.inj h
      have e0 : (scatter_S128x64_S100000x1_S100000x64_1_0_0_1.start p idx 0 + scatter_S128x64_S100000x1_S100000x64_1_0_0_1.window p 0).toNat = g.val :=
        congrArg (fun f => (f 0).val) e
      have e1 : (scatter_S128x64_S100000x1_S100000x64_1_0_0_1.start p idx 1 + scatter_S128x64_S100000x1_S100000x64_1_0_0_1.window p 1).toNat = j.val :=
        congrArg (fun f => (f 1).val) e
      have h0 := (hall 0).1
      rw [seg_start0, seg_window0] at e0 h0
      rw [seg_start1, seg_window1] at e1
      refine ⟨by omega, Fin.ext (by omega)⟩
    · exact absurd h (by simp)
  · rintro ⟨hx, hq⟩
    have hq' : (p 1).val = j.val := congrArg Fin.val hq
    have hall : ∀ a, 0 ≤ scatter_S128x64_S100000x1_S100000x64_1_0_0_1.start p idx a + scatter_S128x64_S100000x1_S100000x64_1_0_0_1.window p a
        ∧ scatter_S128x64_S100000x1_S100000x64_1_0_0_1.start p idx a + scatter_S128x64_S100000x1_S100000x64_1_0_0_1.window p a < S128x64.size a := by
      intro a
      match a with
      | ⟨0, _⟩ =>
        show 0 ≤ scatter_S128x64_S100000x1_S100000x64_1_0_0_1.start p idx 0 + scatter_S128x64_S100000x1_S100000x64_1_0_0_1.window p 0
          ∧ scatter_S128x64_S100000x1_S100000x64_1_0_0_1.start p idx 0 + scatter_S128x64_S100000x1_S100000x64_1_0_0_1.window p 0 < (128 : ℕ)
        rw [seg_start0, seg_window0]; omega
      | ⟨1, _⟩ =>
        show 0 ≤ scatter_S128x64_S100000x1_S100000x64_1_0_0_1.start p idx 1 + scatter_S128x64_S100000x1_S100000x64_1_0_0_1.window p 1
          ∧ scatter_S128x64_S100000x1_S100000x64_1_0_0_1.start p idx 1 + scatter_S128x64_S100000x1_S100000x64_1_0_0_1.window p 1 < (64 : ℕ)
        rw [seg_start1, seg_window1]; omega
    rw [dif_pos hall]
    refine congrArg some (funext fun a => Fin.ext ?_)
    match a with
    | ⟨0, _⟩ =>
      show (scatter_S128x64_S100000x1_S100000x64_1_0_0_1.start p idx 0 + scatter_S128x64_S100000x1_S100000x64_1_0_0_1.window p 0).toNat = g.val
      rw [seg_start0, seg_window0]; omega
    | ⟨1, _⟩ =>
      show (scatter_S128x64_S100000x1_S100000x64_1_0_0_1.start p idx 1 + scatter_S128x64_S100000x1_S100000x64_1_0_0_1.window p 1).toNat = j.val
      rw [seg_start1, seg_window1]; omega

/-- The reference's segment sum at an index: the operand there plus the sum, over the 100000 rows whose id (read
    signed) is g, of the update row's column j. -/
theorem seg_sum_apply (x : FVec Ideal S128x64 .f32) (idx : IVec S100000x1 32) (upd : FVec Ideal S100000x64 .f32)
    (g : Fin 128) (j : Fin 64) :
    Host.scatterAdd scatter_S128x64_S100000x1_S100000x64_1_0_0_1 x idx upd (ix2 g j)
      = x (ix2 g j) + ∑ i : Fin 100000, if (idx (ix2 i 0)).toInt = (g.val : ℤ) then upd (ix2 i j) else 0 := by
  show Ideal.hostScatterAdd scatter_S128x64_S100000x1_S100000x64_1_0_0_1 x idx upd (ix2 g j) = _
  unfold Ideal.hostScatterAdd
  refine congrArg (x (ix2 g j) + ·) ?_
  rw [Finset.sum_filter, sum_idx2]
  refine Finset.sum_congr rfl fun i _ => ?_
  have hc : ∀ b : Fin 64,
      (if scatter_S128x64_S100000x1_S100000x64_1_0_0_1.resultIdx? (ix2 i b) idx = some (ix2 g j) then upd (ix2 i b) else 0)
        = if ((idx (ix2 i 0)).toInt = (g.val : ℤ) ∧ b = j) then upd (ix2 i b) else 0 :=
    fun b => if_congr (seg_resultIdx_iff (ix2 i b) idx g j) rfl rfl
  rw [Finset.sum_congr rfl (fun b _ => hc b)]
  by_cases h : (idx (ix2 i 0)).toInt = (g.val : ℤ)
  · rw [if_pos h, Finset.sum_eq_single j]
    · exact if_pos ⟨h, rfl⟩
    · intro q _ hq
      exact if_neg fun hh => hq hh.2
    · intro hh; exact absurd (Finset.mem_univ _) hh
  · rw [if_neg h]
    exact Finset.sum_eq_zero fun q _ => if_neg fun hh => h hh.1

/-- A lane's number as a 32-bit word, read signed, is the number. -/
theorem toInt_lane (g : Fin 128) : (BitVec.ofNat 32 g.val).toInt = (g.val : ℤ) := by
  have hg := g.isLt
  rw [BitVec.toInt_eq_toNat_cond, BitVec.toNat_ofNat]
  have e : g.val % 2 ^ 32 = g.val := Nat.mod_eq_of_lt (by omega)
  rw [e, if_pos (by omega)]

/-- An id word is a lane's number exactly when, read signed, it is that number. -/
theorem word_eq_lane_iff (w : BitVec 32) (g : Fin 128) : w = BitVec.ofNat 32 g.val ↔ w.toInt = (g.val : ℤ) := by
  rw [← toInt_lane g]
  exact BitVec.toInt_inj.symm

end Cert.KernelIdeal.HandVal
-- ==== Proof.KI.Val2.lean ====
/-
  The value of the pooling region at the exact values. The region's 25 grid points each add, to one carried [128,64]
  block, the product of the transposed one-hot matrix of their 4000 rows' graph ids with the rows' activations
  max(agg + xw · invdeg + bias, 0); the block is written back once, after the last point, and covers the whole output
  array. Row r of point t's blocks is row 4000·t + r of the arrays, so the carried block ends, at (g, j), as the sum over
  all 100000 rows of (id = g ? 1 : 0) · activation (row, j): a one-hot product keeps the value where the id is g and is
  zero elsewhere, and a sum over 25 blocks of 4000 rows is the sum over the 100000 rows (only commutativity and
  associativity of the sum are used). That is the reference's segment sum of the activation rows by the ids onto zeros.
-/
import proofs.«411392_j53214644797442_2_alg».proof.Proof.KI.Reg2
import proofs.«411392_j53214644797442_2_alg».proof.Proof.KI.Val2Math
import proofs.«411392_j53214644797442_2_alg».proof.Proof.KI.Val2Ref
import proofs.«411392_j53214644797442_2_alg».proof.Proof.Gen.KernelIdeal.Launch
import proofs.«411392_j53214644797442_2_alg».proof.Proof.Gen.KernelIdeal.Points
import proofs.«411392_j53214644797442_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Idealize.ShloMosaic Idealize.ShloMosaic.TcCoe Idealize.SL.Sem
open Idealize.ShloMosaic.Pipeline (Dat)
open Cert.KernelIdeal Cert.KernelIdeal.Gen Cert.KernelIdeal.Hand
open Idealize.ShloMosaic.ValueIdx

/-! ## The activation array, in the reference's own operations -/

/-- max(agg + xw · invdeg + bias, 0) over the whole arrays: the inverse degrees' column and the bias row spread over
    the array, the zero a spread scalar. -/
def act2 (a xw : FVec Ideal S100000x64 .f32) (d : FVec Ideal S100000x1 .f32) (b : FVec Ideal S1x64 .f32) : FVec Ideal S100000x64 .f32 :=
  maximumf (addf (addf a (mulf xw (broadcastInDim S100000x64 ![0, 1] Cert.ReferenceIdeal.Facts₀.bcast_S100000x1_S100000x64_0_1 d)))
                 (broadcastInDim S100000x64 ![0, 1] Cert.ReferenceIdeal.Facts₀.bcast_S1x64_S100000x64_0_1 b))
           (broadcastInDim S100000x64 ![] Cert.ReferenceIdeal.Facts₀.bcast_S_S100000x64 (constant (F := Ideal) S_ .f32 0x00000000#32))

/-- … read at row P, column k. -/
theorem act2_apply (a xw : FVec Ideal S100000x64 .f32) (d : FVec Ideal S100000x1 .f32) (b : FVec Ideal S1x64 .f32)
    (P : Fin 100000) (k : Fin 64) :
    act2 a xw d b (ix2 P k) = max (a (ix2 P k) + xw (ix2 P k) * d (ix2 P 0) + b (ix2 0 k)) 0 := by
  have hd : broadcastInDim S100000x64 ![0, 1] Cert.ReferenceIdeal.Facts₀.bcast_S100000x1_S100000x64_0_1 d (ix2 P k) = d (ix2 P 0) :=
    broadcastInDim_apply ![0, 1] _ d (ix2 P k) (ix2 P 0) (fun x => by
      match x with
      | ⟨0, _⟩ => show P.val = if (100000 : ℕ) = 1 then 0 else P.val; rw [if_neg (by decide)]
      | ⟨1, _⟩ => show (0 : ℕ) = if (1 : ℕ) = 1 then 0 else k.val; rw [if_pos rfl])
  have hb : broadcastInDim S100000x64 ![0, 1] Cert.ReferenceIdeal.Facts₀.bcast_S1x64_S100000x64_0_1 b (ix2 P k) = b (ix2 0 k) :=
    broadcastInDim_apply ![0, 1] _ b (ix2 P k) (ix2 0 k) (fun x => by
      match x with
      | ⟨0, _⟩ => show (0 : ℕ) = if (1 : ℕ) = 1 then 0 else P.val; rw [if_pos rfl]
      | ⟨1, _⟩ => show k.val = if (64 : ℕ) = 1 then 0 else k.val; rw [if_neg (by decide)])
  show max (a (ix2 P k) + xw (ix2 P k) * broadcastInDim S100000x64 ![0, 1] Cert.ReferenceIdeal.Facts₀.bcast_S100000x1_S100000x64_0_1 d (ix2 P k)
      + broadcastInDim S100000x64 ![0, 1] Cert.ReferenceIdeal.Facts₀.bcast_S1x64_S100000x64_0_1 b (ix2 P k)) (Ideal.ofBits .f32 0x00000000#32) = _
  rw [hd, hb, Ideal.ofBits_zero_f32]

/-! ## Sums over the row blocks -/

/-- A sum over 25 blocks of 4000 rows is the sum over the 100000 rows. -/
theorem sum_blocks2 {M : Type*} [AddCommMonoid M] {N : ℕ} (hN : N = 25) (f : Fin 100000 → M) :
    ∑ t : Fin N, ∑ r : Fin 4000, f ⟨t.val * 4000 + r.val, by have := t.isLt; have := r.isLt; omega⟩ = ∑ i : Fin 100000, f i := by
  subst hN
  rw [← Fintype.sum_prod_type']
  exact Fintype.sum_equiv (finProdFinEquiv.trans (finCongr (by norm_num : 25 * 4000 = 100000))) _ _
    (fun x => congrArg f (Fin.ext (by
      show x.1.val * 4000 + x.2.val = x.2.val + 4000 * x.1.val
      omega)))

/-- A one-hot weight times a value keeps the value where the id read signed is the lane, and is zero elsewhere. -/
theorem hot_mul (w : BitVec 32) (g : Fin 128) (v : EReal) : hot w g * v = if w.toInt = (g.val : ℤ) then v else 0 := by
  unfold hot
  by_cases h : w = BitVec.ofNat 32 g.val
  · rw [if_pos h, if_pos ((word_eq_lane_iff w g).mp h), one_mul]
  · rw [if_neg h, if_neg (fun h' => h ((word_eq_lane_iff w g).mpr h')), zero_mul]

/-! ## From the blocks to the array -/

variable (V : (c : Dev nD) → (b : Ref sig .tc) → Buf (Elt Ideal) ((c : Thread nD τ).loc b))

/-- What the output array ends holding: the reference's segment sum, by the batch ids, of the activation array's rows
    onto zeros. -/
def G2 (c : Dev nD) : S128x64.Idx → Elt Ideal .f32 :=
  Host.scatterAdd (F := Ideal) Cert.ReferenceIdeal.scatter_S128x64_S100000x1_S100000x64_1_0_0_1
    (broadcastInDim S128x64 ![] Cert.ReferenceIdeal.Facts₀.bcast_S_S128x64 (constant (F := Ideal) S_ .f32 0x00000000#32))
    (V c main_v61)
    (act2 (V c main_v59) (V c main_v45) (V c main_v28) (V c main_v60))

/-- … at (g, j): the sum over the rows whose id is g of the activation's column j. -/
theorem G2_apply (c : Dev nD) (g : Fin 128) (j : Fin 64) :
    G2 V c (ix2 g j) = ∑ i : Fin 100000, if (V c main_v61 (ix2 i 0)).toInt = (g.val : ℤ)
      then act2 (V c main_v59) (V c main_v45) (V c main_v28) (V c main_v60) (ix2 i j) else 0 := by
  unfold G2
  rw [seg_sum_apply]
  show (Ideal.ofBits .f32 0x00000000#32 : EReal) + _ = _
  rw [Ideal.ofBits_zero_f32, zero_add]

/-- The windows' index maps, decided over the 25 grid points: the four row-blocked inputs sit at row block t, column
    block 0; the bias row and the output at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0 :=
  (by decide +kernel : ∀ t : Fin grid2.N, _)

/-- Row r of point t's blocks is row 4000·t + r of the arrays: the one-hot product of the block's row is the
    array's row's. -/
theorem blk_term2 (c : Dev nD) (t : Fin cfg2.N) (r : Fin 4000) (g : Fin 128) (j : Fin 64)
    (hP : t.val * 4000 + r.val < 100000) :
    hot (iblk2 V c 4 t (ix2 r 0)) g * act (iblk2 V c 0 t) (iblk2 V c 1 t) (iblk2 V c 2 t) (iblk2 V c 3 t) r j
      = if (V c main_v61 (ix2 (⟨t.val * 4000 + r.val, hP⟩ : Fin 100000) 0)).toInt = (g.val : ℤ)
          then act2 (V c main_v59) (V c main_v45) (V c main_v28) (V c main_v60) (ix2 (⟨t.val * 4000 + r.val, hP⟩ : Fin 100000) j) else 0 := by
  obtain ⟨e00, e01, e10, e11, e20, e21, e30, e31, e40, e41, -, -⟩ := idx_facts2 t
  have h0 : iblk2 V c 0 t (ix2 r j) = V c main_v59 (ix2 (⟨t.val * 4000 + r.val, hP⟩ : Fin 100000) j) := by
    show V c main_v59 (((cfg2.win 0).blk t).view.emb (ix2 r j)) = _
    refine congrArg (V c main_v59) (funext fun a => Fin.ext ?_)
    match a with
    | ⟨0, _⟩ => show win2_0.index t (0 : Fin 2) * 4000 + 1 * r.val = t.val * 4000 + r.val; omega
    | ⟨1, _⟩ => show win2_0.index t (1 : Fin 2) * 64 + 1 * j.val = j.val; omega
  have h1 : iblk2 V c 1 t (ix2 r j) = V c main_v45 (ix2 (⟨t.val * 4000 + r.val, hP⟩ : Fin 100000) j) := by
    show V c main_v45 (((cfg2.win 1).blk t).view.emb (ix2 r j)) = _
    refine congrArg (V c main_v45) (funext fun a => Fin.ext ?_)
    match a with
    | ⟨0, _⟩ => show win2_1.index t (0 : Fin 2) * 4000 + 1 * r.val = t.val * 4000 + r.val; omega
    | ⟨1, _⟩ => show win2_1.index t (1 : Fin 2) * 64 + 1 * j.val = j.val; omega
  have h2 : iblk2 V c 2 t (ix2 r 0) = V c main_v28 (ix2 (⟨t.val * 4000 + r.val, hP⟩ : Fin 100000) 0) := by
    show V c main_v28 (((cfg2.win 2).blk t).view.emb (ix2 r 0)) = _
    refine congrArg (V c main_v28) (funext fun a => Fin.ext ?_)
    match a with
    | ⟨0, _⟩ => show win2_2.index t (0 : Fin 2) * 4000 + 1 * r.val = t.val * 4000 + r.val; omega
    | ⟨1, _⟩ => show win2_2.index t (1 : Fin 2) * 1 + 1 * 0 = 0; omega
  have h3 : iblk2 V c 3 t (ix2 0 j) = V c main_v60 (ix2 0 j) := by
    show V c main_v60 (((cfg2.win 3).blk t).view.emb (ix2 0 j)) = _
    refine congrArg (V c main_v60) (funext fun a => Fin.ext ?_)
    match a with
    | ⟨0, _⟩ => show win2_3.index t (0 : Fin 2) * 1 + 1 * 0 = 0; omega
    | ⟨1, _⟩ => show win2_3.index t (1 : Fin 2) * 64 + 1 * j.val = j.val; omega
  have h4 : iblk2 V c 4 t (ix2 r 0) = V c main_v61 (ix2 (⟨t.val * 4000 + r.val, hP⟩ : Fin 100000) 0) := by
    show V c main_v61 (((cfg2.win 4).blk t).view.emb (ix2 r 0)) = _
    refine congrArg (V c main_v61) (funext fun a => Fin.ext ?_)
    match a with
    | ⟨0, _⟩ => show win2_4.index t (0 : Fin 2) * 4000 + 1 * r.val = t.val * 4000 + r.val; omega
    | ⟨1, _⟩ => show win2_4.index t (1 : Fin 2) * 1 + 1 * 0 = 0; omega
  rw [hot_mul, act2_apply]
  unfold act
  rw [h0, h1, h2, h3, h4]

/-- What the last point writes back is the whole of G2: the carried block after the 25 positions is the sum over all
    blocks and rows of the one-hot products, that is over all 100000 rows. -/
theorem flushed2_eq (c : Dev nD) (t : Fin cfg2.N) (hf : (cfg2.win 5).flush t = true) :
    (dat2 (F := Ideal) V c).flushed 5 t = ((cfg2.win 5).blk t).view.read (Elt Ideal) (G2 V c) := by
  have hN : cfg2.N = 25 := N_2
  have htl : t.val < 25 := hN ▸ t.isLt
  have ht : t.val = 24 := by have := (flush2_5 t).mp hf; omega
  obtain ⟨-, -, -, -, -, -, -, -, -, -, e50, e51⟩ := idx_facts2 t
  show (cfg2.win 5).cut (grid2.coords t) ((dat2 (F := Ideal) V c).after 5 t) = _
  rw [after2_5_last V c t ht]
  funext y
  obtain ⟨g, j, rfl⟩ : ∃ (g : Fin 128) (j : Fin 64), y = ix2 g j := ⟨y 0, y 1, eq_ix2 y⟩
  show acc2 V c 24 _ (ix2 g j) = G2 V c (((cfg2.win 5).blk t).view.emb (ix2 g j))
  have hemb : ((cfg2.win 5).blk t).view.emb (ix2 g j) = ix2 g j := by
    funext a; apply Fin.ext
    match a with
    | ⟨0, _⟩ => show win2_5.index t (0 : Fin 2) * 128 + 1 * g.val = g.val; omega
    | ⟨1, _⟩ => show win2_5.index t (1 : Fin 2) * 64 + 1 * j.val = j.val; omega
  rw [hemb, G2_apply,
    fold_pay2 (N := cfg2.N) (fun s => iblk2 V c 0 s) (fun s => iblk2 V c 1 s) (fun s => iblk2 V c 2 s)
      (fun s => iblk2 V c 3 s) (fun s => iblk2 V c 4 s) (acc2 V c) (fun hn => acc2_zero V c hn)
      (fun n hn => acc2_succ V c n hn) 24 _ g j,
    ← sum_blocks2 hN]
  refine Finset.sum_congr rfl fun s _ => ?_
  have hs : s.val < 25 := hN ▸ s.isLt
  rw [if_pos (by omega)]
  refine Finset.sum_congr rfl fun r _ => ?_
  have hr : r.val < 4000 := r.isLt
  exact blk_term2 V c s r g j (by omega)

/-- An index of the array is in point t's block iff each coordinate is in the block's range on its axis. -/
theorem mem_blk2 (t : Fin cfg2.N) (i : S128x64.Idx) :
    i ∈ ((cfg2.win 5).blk t).view.set ↔ ∀ a : Fin 2, win2_5.index t a * S128x64.size a ≤ (i a).val ∧ (i a).val < win2_5.index t a * S128x64.size a + S128x64.size a := by
  show i ∈ ((View.whole main_v62).slice (win2_5.rect t)).set ↔ _
  rw [View.set_slice_whole, Rect.mem_set_unit]
  exact Iff.rfl

/-- Every index of the array is in the last point's block, which is the whole array. -/
theorem cover2 (i : S128x64.Idx) : ∃ t : Fin cfg2.N, (cfg2.win 5).flush t = true ∧ i ∈ ((cfg2.win 5).blk t).view.set := by
  have hi0 : (i 0).val < 128 := (i 0).isLt
  have hi1 : (i 1).val < 64 := (i 1).isLt
  obtain ⟨t, et⟩ : ∃ t : Fin cfg2.N, t.val = 24 := ⟨⟨24, by rw [show cfg2.N = 25 from N_2]; omega⟩, rfl⟩
  obtain ⟨-, -, -, -, -, -, -, -, -, -, e50, e51⟩ := idx_facts2 t
  refine ⟨t, (flush2_5 t).mpr (by omega), ?_⟩
  rw [mem_blk2]
  intro a
  match a with
  | ⟨0, _⟩ => show win2_5.index t (0 : Fin 2) * 128 ≤ (i 0).val ∧ (i 0).val < win2_5.index t (0 : Fin 2) * 128 + 128; omega
  | ⟨1, _⟩ => show win2_5.index t (1 : Fin 2) * 64 ≤ (i 1).val ∧ (i 1).val < win2_5.index t (1 : Fin 2) * 64 + 64; omega

/-- The output array after the region is the reference's segment sum of max(agg + xw · invdeg + bias, 0) by the batch
    ids, of the arrays the region is entered from. -/
theorem arrAt2_out (c : Dev nD) :
    (Cert.KernelIdeal.Hand.dat2 (F := Ideal) V c).arrAt 5 cfg2.N =
      Host.scatterAdd (F := Ideal) Cert.ReferenceIdeal.scatter_S128x64_S100000x1_S100000x64_1_0_0_1
        (broadcastInDim S128x64 ![] Cert.ReferenceIdeal.Facts₀.bcast_S_S128x64 (constant (F := Ideal) S_ .f32 0x00000000#32))
        (V c main_v61)
        (maximumf (addf (addf (V c main_v59) (mulf (V c main_v45) (broadcastInDim S100000x64 ![0, 1] Cert.ReferenceIdeal.Facts₀.bcast_S100000x1_S100000x64_0_1 (V c main_v28))))
                       (broadcastInDim S100000x64 ![0, 1] Cert.ReferenceIdeal.Facts₀.bcast_S1x64_S100000x64_0_1 (V c main_v60)))
                  (broadcastInDim S100000x64 ![] Cert.ReferenceIdeal.Facts₀.bcast_S_S100000x64 (constant (F := Ideal) S_ .f32 0x00000000#32))) :=
  (dat2 (F := Ideal) V c).arrAt_eq_of_cover 5 (G2 V c) (fun t hf => flushed2_eq V c t hf) cover2

end Cert.KernelIdeal.HandVal

end
-- ==== Proof.KI.BridgeD.lean ====
/-
  Through region 2 and the last stretch of host operations. Region 2 leaves the per-graph sums of
  relu(agg + xw · invdeg + b), the reference's segment sum by graph id; the last stretch divides by the per-graph
  counts (at least one), as the reference does, and shapes the last bias as a row.
-/
import proofs.«411392_j53214644797442_2_alg».proof.Proof.KI.BridgeC
import proofs.«411392_j53214644797442_2_alg».proof.Proof.KI.Val2

set_option maxRecDepth 16384

noncomputable section

namespace Cert.KernelIdeal.HandVal

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg) (c : Dev nD)

set_option maxHeartbeats 8000000 in
/-- Region 2's output is the reference's segment sum. -/
theorem r2 : W6 m ρ c (Proc.devRef .tc main_v62) = Cert.ReferenceIdeal.Read.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W6_arr m ρ c 5).trans ((arrAt2_out (Vin2 m ρ) c).trans (by
    rw [show Vin2 m ρ c main_v61 = _ from h2_v61 m ρ c, show Vin2 m ρ c main_v59 = _ from h2_v59 m ρ c,
      show Vin2 m ρ c main_v45 = _ from w5_v45 m ρ c, show Vin2 m ρ c main_v28 = _ from w5_v28 m ρ c,
      show Vin2 m ρ c main_v60 = _ from h2_v60 m ρ c]
    rfl))

/-- The graph ids leave region 2 as launched. -/
theorem w6_arg2 : W6 m ρ c (Proc.devRef .tc main_arg2) = (m ((c.tc : Thread nD τ).loc main_arg2)) :=
  (W6_of_ne m ρ c main_arg2 (by decide)).trans (w5_keep m ρ c main_arg2 (by decide) (by decide) (by decide) (by decide) (by decide))
/-- W_l leaves region 2 as launched. -/
theorem w6_arg7 : W6 m ρ c (Proc.devRef .tc main_arg7) = (m ((c.tc : Thread nD τ).loc main_arg7)) :=
  (W6_of_ne m ρ c main_arg7 (by decide)).trans (w5_keep m ρ c main_arg7 (by decide) (by decide) (by decide) (by decide) (by decide))
/-- The last bias leaves region 2 as launched. -/
theorem w6_arg8 : W6 m ρ c (Proc.devRef .tc main_arg8) = (m ((c.tc : Thread nD τ).loc main_arg8)) :=
  (W6_of_ne m ρ c main_arg8 (by decide)).trans (w5_keep m ρ c main_arg8 (by decide) (by decide) (by decide) (by decide) (by decide))

set_option maxHeartbeats 8000000 in
/-- The pooled means: the segment sums over the counts. -/
theorem h3_v71 : W7 m ρ c (Proc.devRef .tc main_v71) = Cert.ReferenceIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps3 (W6 m ρ c) (Proc.devRef .tc main_v71) = _
  after_results
  rw [r2 m ρ c, w6_arg2 m ρ c]
  rfl

set_option maxHeartbeats 4000000 in
/-- The last bias as a row. -/
theorem h3_v72 : W7 m ρ c (Proc.devRef .tc main_v72) = Cert.ReferenceIdeal.Read.val_main_v109 (F := Ideal) (m ((c.tc : Thread nD τ).loc main_arg8)) := by
  show StableHlo.after hostOps3 (W6 m ρ c) (Proc.devRef .tc main_v72) = _
  after_results
  refine Eq.trans (b := shapeCast S1x128 (m ((c.tc : Thread nD τ).loc main_arg8)) Cert.KernelIdeal.Facts₀.shapeCasts_S128_S1x128) ?_ ((reshape_row128 _).trans rfl)
  exact congrArg (fun z => shapeCast S1x128 z Cert.KernelIdeal.Facts₀.shapeCasts_S128_S1x128) (w6_arg8 m ρ c)

/-- W_l at region 3's entry. -/
theorem w7_arg7 : W7 m ρ c (Proc.devRef .tc main_arg7) = (m ((c.tc : Thread nD τ).loc main_arg7)) :=
  (W7_keep m ρ c main_arg7 (by decide)).trans (w6_arg7 m ρ c)

end Cert.KernelIdeal.HandVal

end
-- ==== Proof.KI.Val3.lean ====
/-
  The value of the last kernel region at the ideal values, where a float is an extended real and every operation is
  exact. The region has one grid point and every block is its whole array: the body multiplies g by Wₗ and adds the
  [1,128] bias row to each of the 128 rows. The roundings and the same-shape casts are the identity here, so after
  the region the output array is g · Wₗ plus the bias row of the arrays the region is entered from, which is what
  the reference's host product plus its broadcast of the bias computes.
-/
import proofs.«411392_j53214644797442_2_alg».proof.Proof.KI.Reg3
import proofs.«411392_j53214644797442_2_alg».proof.Proof.KI.ValMat
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The product g · Wₗ plus the bias row on every row, entry by entry: row r, column s is the sum over k of g at
    (r, k) times Wₗ at (k, s), plus the bias at (0, s). -/
abbrev G3 (g : S128x64.Idx → EReal) (w : S64x128.Idx → EReal) (b : S1x128.Idx → EReal) : S128x128.Idx → EReal :=
  fun i => (∑ k : Fin 64, g (ix2 (i 0) k) * w (ix2 k (i 1))) + b (ix2 (0 : Fin 1) (i 1))

/-- The bias row broadcast to 128 rows, read at (p, q), is the row at (0, q). -/
theorem bias_row3_apply (x : Vec Ideal S1x128 .f32) (p : Fin 128) (q : Fin 128) :
    broadcastTo S128x128 x Facts₀.broadcasts_S1x128_S128x128 (ix2 p q) = x (ix2 (0 : Fin 1) q) :=
  broadcastTo_apply x Facts₀.broadcasts_S1x128_S128x128 (ix2 p q) (ix2 (0 : Fin 1) q) (fun a => by
    match a with
    | ⟨0, _⟩ => rfl
    | ⟨1, _⟩ => rfl)

/-- The body's payload at (p, q): the roundings and the same-shape casts are the identity at the ideal values, so
    it is the product of the first two loaded blocks there plus the bias row's entry in column q. -/
theorem pay3_apply (x0 : Vec Ideal S128x64 .f32) (x1 : Vec Ideal S64x128 .f32) (x2 : Vec Ideal S1x128 .f32) (p : Fin 128) (q : Fin 128) :
    k3_pay1 x0 x1 x2 (ix2 p q) = (∑ k : Fin 64, x0 (ix2 p k) * x1 (ix2 k q)) + x2 (ix2 (0 : Fin 1) q) := by
  unfold k3_pay1
  rw [addf_apply, matmul_k3_apply, bias_row3_apply]
  simp only [truncf_apply, shapeCast_self]

/-- The printed index maps at the one grid point: every block index is 0. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- What the one point writes back is its block (the whole array) of g · Wₗ plus the bias row, of the arrays the
    region is entered from. -/
theorem flushed3_eq (c : Dev nD) (t : Fin cfg3.N) :
    (dat3 (F := Ideal) V c).flushed 3 t
      = ((cfg3.win 3).blk t).view.read (Elt Ideal) (G3 (V c main_v71) (V c main_arg7) (V c main_v72)) := by
  show (cfg3.win 3).cut (grid3.coords t) ((dat3 (F := Ideal) V c).after 3 t) = _
  rw [after3_3]
  unfold out3_3
  rw [View.canon_unit_zero hz3]
  simp only [View.ld_unit_zero (S := S128x64) hz3, View.ld_unit_zero (S := S64x128) hz3, View.ld_unit_zero (S := S1x128) hz3]
  obtain ⟨e0, e1, e2, e3, e4, e5, e6, e7⟩ := idx_facts3 t
  funext j
  obtain ⟨p, q, rfl⟩ : ∃ (p : Fin 128) (q : Fin 128), j = ix2 p q := ⟨j 0, j 1, eq_ix2 j⟩
  show k3_pay1 (iblk3 V c 0 t) (iblk3 V c 1 t) (iblk3 V c 2 t) (ix2 p q)
    = G3 (V c main_v71) (V c main_arg7) (V c main_v72) (((cfg3.win 3).blk t).view.emb (ix2 p q))
  rw [pay3_apply]
  have hb : ((cfg3.win 2).blk t).view.emb (ix2 (0 : Fin 1) q) = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  refine congrArg₂ (· + ·) (Finset.sum_congr rfl fun k _ => ?_) ?_
  · have h0 : ((cfg3.win 0).blk t).view.emb (ix2 p k) = ix2 ((((cfg3.win 3).blk t).view.emb (ix2 p q)) 0) k := by
      funext a; apply Fin.ext
      match a with
      | ⟨0, _⟩ => show win3_0.index t (0 : Fin 2) * 128 + 1 * p.val = win3_3.index t (0 : Fin 2) * 128 + 1 * p.val; omega
      | ⟨1, _⟩ => show win3_0.index t (1 : Fin 2) * 64 + 1 * k.val = k.val; omega
    have h1 : ((cfg3.win 1).blk t).view.emb (ix2 k q) = ix2 k ((((cfg3.win 3).blk t).view.emb (ix2 p q)) 1) := by
      funext a; apply Fin.ext
      match a with
      | ⟨0, _⟩ => show win3_1.index t (0 : Fin 2) * 64 + 1 * k.val = k.val; omega
      | ⟨1, _⟩ => show win3_1.index t (1 : Fin 2) * 128 + 1 * q.val = win3_3.index t (1 : Fin 2) * 128 + 1 * q.val; omega
    have hg : iblk3 V c 0 t (ix2 p k) = V c main_v71 (ix2 ((((cfg3.win 3).blk t).view.emb (ix2 p q)) 0) k) :=
      congrArg (V c main_v71) h0
    have hw : iblk3 V c 1 t (ix2 k q) = V c main_arg7 (ix2 k ((((cfg3.win 3).blk t).view.emb (ix2 p q)) 1)) :=
      congrArg (V c main_arg7) h1
    rw [hg, hw]
  · exact congrArg (V c main_v72) hb

/-- An index of the array is in point t's block iff each coordinate is in the block's range on its axis. -/
theorem mem_blk3 (t : Fin cfg3.N) (i : S128x128.Idx) :
    i ∈ ((cfg3.win 3).blk t).view.set ↔ ∀ a : Fin 2, win3_3.index t a * S128x128.size a ≤ (i a).val ∧ (i a).val < win3_3.index t a * S128x128.size a + S128x128.size a := by
  show i ∈ ((View.whole main_v73).slice (win3_3.rect t)).set ↔ _
  rw [View.set_slice_whole, Rect.mem_set_unit]
  exact Iff.rfl

/-- The one block is the whole array. -/
theorem cover3 (i : S128x128.Idx) : ∃ t : Fin cfg3.N, (cfg3.win 3).flush t = true ∧ i ∈ ((cfg3.win 3).blk t).view.set := by
  have hi0 : (i 0).val < 128 := (i 0).isLt
  have hi1 : (i 1).val < 128 := (i 1).isLt
  let t : Fin cfg3.N := ⟨0, by decide⟩
  obtain ⟨e0, e1, e2, e3, e4, e5, e6, e7⟩ := idx_facts3 t
  refine ⟨t, flush3_3 t, ?_⟩
  rw [mem_blk3]
  intro a
  match a with
  | ⟨0, _⟩ => show win3_3.index t (0 : Fin 2) * 128 ≤ (i 0).val ∧ (i 0).val < win3_3.index t (0 : Fin 2) * 128 + 128; omega
  | ⟨1, _⟩ => show win3_3.index t (1 : Fin 2) * 128 ≤ (i 1).val ∧ (i 1).val < win3_3.index t (1 : Fin 2) * 128 + 128; omega

/-- The output array after the region is g · Wₗ plus the bias row, of the arrays it is entered from. -/
theorem final3 (c : Dev nD) : (dat3 (F := Ideal) V c).arrAt 3 cfg3.N = G3 (V c main_v71) (V c main_arg7) (V c main_v72) :=
  (dat3 (F := Ideal) V c).arrAt_eq_of_cover 3 (G3 (V c main_v71) (V c main_arg7) (V c main_v72)) (fun t _ => flushed3_eq V c t) cover3

/-- The reference's host product plus its broadcast of the bias row is the same function. -/
theorem ref3_eq (g : S128x64.Idx → EReal) (w : S64x128.Idx → EReal) (b : S1x128.Idx → EReal) :
    addf (F := Ideal) (φ := .f32) (Host.dotGeneral (F := Ideal) (φ₁ := .f32) (φ₂ := .f32) Cert.ReferenceIdeal.dot_S128x64_S64x128_S128x128_1_0_0_1_n_n none g w)
        (broadcastInDim S128x128 ![0, 1] Cert.ReferenceIdeal.Facts₀.bcast_S1x128_S128x128_0_1 b)
      = G3 g w b := by
  funext i
  obtain ⟨p, q, rfl⟩ : ∃ (p : Fin 128) (q : Fin 128), i = ix2 p q := ⟨i 0, i 1, eq_ix2 i⟩
  rw [addf_apply, dot_r3_apply,
    broadcastInDim_apply ![0, 1] Cert.ReferenceIdeal.Facts₀.bcast_S1x128_S128x128_0_1 b (ix2 p q) (ix2 (0 : Fin 1) q) (fun a => by
      match a with
      | ⟨0, _⟩ => rfl
      | ⟨1, _⟩ => rfl)]

/-- Region 3: the output array after the region is the reference's product of g and Wₗ plus its broadcast of the
    bias row, of the arrays the region is entered from. -/
theorem arrAt3_out (c : Dev nD) :
    (dat3 (F := Ideal) V c).arrAt 3 cfg3.N
      = addf (F := Ideal) (φ := .f32) (Host.dotGeneral (F := Ideal) (φ₁ := .f32) (φ₂ := .f32) Cert.ReferenceIdeal.dot_S128x64_S64x128_S128x128_1_0_0_1_n_n none (V c main_v71) (V c main_arg7))
          (broadcastInDim S128x128 ![0, 1] Cert.ReferenceIdeal.Facts₀.bcast_S1x128_S128x128_0_1 (V c main_v72)) :=
  (final3 V c).trans (ref3_eq _ _ _).symm

end Cert.KernelIdeal.HandVal
end
-- ==== Proof.KI.BridgeE.lean ====
/-
  Region 3 and the result. Region 3 leaves the pooled means times W_l plus the bias row: the reference's last stage.
  So the kernel program's result buffer ends holding the reference's result term of the launch arguments.
-/
import proofs.«411392_j53214644797442_2_alg».proof.Proof.KI.BridgeD
import proofs.«411392_j53214644797442_2_alg».proof.Proof.KI.Val3

set_option maxRecDepth 16384

noncomputable section

namespace Cert.KernelIdeal.HandVal

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg) (c : Dev nD)

set_option maxHeartbeats 8000000 in
/-- The kernel program's result is the reference's result, as one function of the nine arguments. -/
theorem r3 : W8 m ρ c (Proc.devRef .tc main_v73) = Cert.ReferenceIdeal.Read.val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W8_arr m ρ c 3).trans ((arrAt3_out (Vin3 m ρ) c).trans (by
    rw [show Vin3 m ρ c main_v71 = _ from h3_v71 m ρ c, show Vin3 m ρ c main_arg7 = _ from w7_arg7 m ρ c,
      show Vin3 m ρ c main_v72 = _ from h3_v72 m ρ c]
    rfl))

end Cert.KernelIdeal.HandVal

end
-- ==== Proof.lean ====
/-
  The certificate of a two-layer graph convolution encoder with mean pooling: the kernel program (four tiled kernels
  between stretches of host operations: edge gathers and sums by destination) against its plain reference.

  The three frames. The kernel program, at either float instance, is four host stretches alternating with four
  pipelined kernel regions; each region's body is run at every grid point (the pooling kernel carries its accumulator
  from point to point), no stretch and no region writes an argument, so every execution terminates without a fault
  with the arguments as launched. The reference is a straight line of host operations.

  The idealization rewrote nothing, so `preserves` has nothing to state.

  Equality over the extended reals. Changes of float format are the identity. Region by region the kernel computes
  the reference's stage: row-tiled x · W₁; row-tiled relu(agg + xw · invdeg + b) · W₂; the per-graph sums of the
  second layer's activations, where a product with a one-hot row summed over all nodes is the sum over the nodes of
  that graph (0 · y = 0 and 1 · y = y for every extended real y; the sum over 25 blocks of 4000 nodes regroups the
  sum over all nodes; a graph id outside 0 … 127 selects no lane and is dropped by the reference's segment sum alike);
  and the final product with W_l plus the bias. Between the regions both programs apply the same host operations to
  equal operands. No step needs the inputs to be finite.
-/
import proofs.«411392_j53214644797442_2_alg».proof.Defs
import proofs.«411392_j53214644797442_2_alg».proof.Proof.Gen.Kernel
import proofs.«411392_j53214644797442_2_alg».proof.Proof.Gen.KernelIdeal
import proofs.«411392_j53214644797442_2_alg».proof.Proof.Gen.ReferenceIdeal
import proofs.«411392_j53214644797442_2_alg».proof.Proof.Gen.Pre_finite_inputs
import proofs.«411392_j53214644797442_2_alg».proof.Proof.Gen.ReferenceIdeal.Run
import proofs.«411392_j53214644797442_2_alg».proof.Proof.Gen.ReferenceIdeal.Read
import proofs.«411392_j53214644797442_2_alg».proof.Proof.K.Keep
import proofs.«411392_j53214644797442_2_alg».proof.Proof.KI.Keep
import proofs.«411392_j53214644797442_2_alg».proof.Proof.KI.BridgeE
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : @Cert.frame_Kernel Cert.Kernel.Gen.facts Cert.Pre_finite_inputs.Gen.facts :=
  fun m ρ _ => Cert.Kernel.Hand.frame_all m ρ

/-- The idealized kernel program runs and keeps its arguments. -/
theorem frame_ki : @Cert.frame_KernelIdeal Cert.KernelIdeal.Gen.facts Cert.Pre_finite_inputs.Gen.facts :=
  fun m ρ _ => Cert.KernelIdeal.Hand.frame_all m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both programs end with the reference's result term of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v111 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · -- the kernel program: every buffer ends at the last boundary's contents; the result's is the reference's term
    refine (θ_run Cert.KernelIdeal.defs _ _).mono (fun r h c => ?_) (Cert.KernelIdeal.Hand.run_all m ρ)
    exact ⟨(h c _ (Cert.KernelIdeal.Hand.mem_uc Cert.KernelIdeal.main_v73 (by decide))).trans (Cert.KernelIdeal.HandVal.r3 m ρ c),
      (h c _ (Cert.KernelIdeal.Hand.mem_uc Cert.KernelIdeal.main_arg0 (by decide))).trans (Cert.KernelIdeal.Hand.W8_arg0 m ρ c),
      (h c _ (Cert.KernelIdeal.Hand.mem_uc Cert.KernelIdeal.main_arg1 (by decide))).trans (Cert.KernelIdeal.Hand.W8_arg1 m ρ c),
      (h c _ (Cert.KernelIdeal.Hand.mem_uc Cert.KernelIdeal.main_arg2 (by decide))).trans (Cert.KernelIdeal.Hand.W8_arg2 m ρ c),
      (h c _ (Cert.KernelIdeal.Hand.mem_uc Cert.KernelIdeal.main_arg3 (by decide))).trans (Cert.KernelIdeal.Hand.W8_arg3 m ρ c),
      (h c _ (Cert.KernelIdeal.Hand.mem_uc Cert.KernelIdeal.main_arg4 (by decide))).trans (Cert.KernelIdeal.Hand.W8_arg4 m ρ c),
      (h c _ (Cert.KernelIdeal.Hand.mem_uc Cert.KernelIdeal.main_arg5 (by decide))).trans (Cert.KernelIdeal.Hand.W8_arg5 m ρ c),
      (h c _ (Cert.KernelIdeal.Hand.mem_uc Cert.KernelIdeal.main_arg6 (by decide))).trans (Cert.KernelIdeal.Hand.W8_arg6 m ρ c),
      (h c _ (Cert.KernelIdeal.Hand.mem_uc Cert.KernelIdeal.main_arg7 (by decide))).trans (Cert.KernelIdeal.Hand.W8_arg7 m ρ c),
      (h c _ (Cert.KernelIdeal.Hand.mem_uc Cert.KernelIdeal.main_arg8 (by decide))).trans (Cert.KernelIdeal.Hand.W8_arg8 m ρ c)⟩
  · -- the reference: its run's term, read as the same function of arguments that agree
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v111_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
